-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S512x512 : Shape := ⟨2, ![512, 512]⟩
abbrev S512 : Shape := ⟨1, ![512]⟩
abbrev S512x1024 : Shape := ⟨2, ![512, 1024]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S512x512 .f32) (main_arg12 : FVec F S512 .f32) (main_arg13 : FVec F S512x1024 .f32) (main_arg14 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x1024 .f32 := Host.absf main_arg13
  let main_cst_24 : FVec F S_ .f32 := constant S_ .f32 0x7F800000#32
  let main_v65 : FVec F S512x1024 .f32 := broadcastInDim S512x1024 ![] bcast_S_S512x1024 main_cst_24
  let main_v66 : IVec S512x1024 1 := cmpf .olt main_v64 main_v65
  let main_c_25 : IVec S_ 1 := constantI S_ 1 1#1
  let main_v67 : IVec S_ 1 := (fun x v => Host.reduce IntOp.andi x v reducesTo_S512x1024_S_d0_1 h_S_) main_v66 main_c_25
  fn_part4 (F := F) main_arg14 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x1024 .f32) (main_arg14 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x1024 .f32) (main_arg14 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8x512x2048 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x1024 .f32) (main_arg14 : FVec F S512 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8x512x2048 : Shape := ⟨3, ![8, 512, 2048]⟩
abbrev S512x512 : Shape := ⟨2, ![512, 512]⟩
abbrev S512 : Shape := ⟨1, ![512]⟩
abbrev S512x1024 : Shape := ⟨2, ![512, 1024]⟩
abbrev S3072x512 : Shape := ⟨2, ![3072, 512]⟩
abbrev S3072 : Shape := ⟨1, ![3072]⟩
abbrev S512x3072 : Shape := ⟨2, ![512, 3072]⟩
abbrev S1x3072 : Shape := ⟨2, ![1, 3072]⟩
abbrev S8x2048x3072 : Shape := ⟨3, ![8, 2048, 3072]⟩
abbrev S1x512x512 : Shape := ⟨3, ![1, 512, 512]⟩
abbrev S1x512x3072 : Shape := ⟨3, ![1, 512, 3072]⟩
abbrev S512x1 : Shape := ⟨2, ![512, 1]⟩
abbrev S1x2048x512 : Shape := ⟨3, ![1, 2048, 512]⟩
abbrev S2048x512 : Shape := ⟨2, ![2048, 512]⟩
abbrev S512x2048 : Shape := ⟨2, ![512, 2048]⟩

abbrev nBuf : Space → Nat
  | .hbm => 24
  | .vmem => 22
  | .smem => 0
  | _ => 0

abbrev bufTy : (tb : Table) → Fin (tcTables nBuf tb) → BufTy
  | .hbm, ⟨0, _⟩ => ⟨S8x512x2048, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x1024, .f32⟩
  | .hbm, ⟨14, _⟩ => ⟨S512, .f32⟩
  | .hbm, ⟨15, _⟩ => ⟨S3072x512, .f32⟩
  | .hbm, ⟨16, _⟩ => ⟨S3072, .f32⟩
  | .hbm, ⟨17, _⟩ => ⟨S512x3072, .f32⟩
  | .hbm, ⟨18, _⟩ => ⟨S512x3072, .bf16⟩
  | .hbm, ⟨19, _⟩ => ⟨S1x3072, .f32⟩
  | .hbm, ⟨20, _⟩ => ⟨S8x2048x3072, .bf16⟩
  | .hbm, ⟨21, _⟩ => ⟨S512x1024, .bf16⟩
  | .hbm, ⟨22, _⟩ => ⟨S512x1, .f32⟩
  | .hbm, ⟨23, _⟩ => ⟨S8x512x2048, .f32⟩
  | .local _ .vmem, ⟨0, _⟩ => ⟨S1x512x512, .f32⟩
  | .local _ .vmem, ⟨1, _⟩ => ⟨S1x512x512, .f32⟩
  | .local _ .vmem, ⟨2, _⟩ => ⟨S512x3072, .bf16⟩
  | .local _ .vmem, ⟨3, _⟩ => ⟨S1x3072, .f32⟩
  | .local _ .vmem, ⟨4, _⟩ => ⟨S1x512x3072, .bf16⟩
  | .local _ .vmem, ⟨5, _⟩ => ⟨S1x512x3072, .bf16⟩
  | .local _ .vmem, ⟨6, _⟩ => ⟨S1x512x512, .bf16⟩
  | .local _ .vmem, ⟨7, _⟩ => ⟨S1x512x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x2048x512, .bf16⟩
  | .local _ .vmem, ⟨17, _⟩ => ⟨S1x2048x512, .bf16⟩
  | .local _ .vmem, ⟨18, _⟩ => ⟨S512x1024, .bf16⟩
  | .local _ .vmem, ⟨19, _⟩ => ⟨S512x1, .f32⟩
  | .local _ .vmem, ⟨20, _⟩ => ⟨S1x512x512, .f32⟩
  | .local _ .vmem, ⟨21, _⟩ => ⟨S1x512x512, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2048x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S512x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S512x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  concatenates_S512x512_S512x512_S512x512_S512x512_S512x512_S512x512_S3072x512_d0 : Shape.Concatenates [S512x512, S512x512, S512x512, S512x512, S512x512, S512x512] S3072x512 0
  concatenates_S512_S512_S512_S512_S512_S512_S3072_d0 : Shape.Concatenates [S512, S512, S512, S512, S512, S512] S3072 0
  transposes_S3072x512_S512x3072_1_0 : S3072x512.Transposes [1, 0] S512x3072
  bitsLt_bf16_f32 : FTy.bits .bf16 < FTy.bits .f32
  shapeCasts_S3072_S1x3072 : S3072.ShapeCasts S1x3072
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  shapeCasts_S512x3072_S1x512x3072 : S512x3072.ShapeCasts S1x512x3072
  packedbf16_S1x512x3072_S1x512x3072_0_0_0 : (Rect.unit (s := S1x512x3072) ![0, 0, 0] S1x512x3072.size inb_S1x512x3072_S1x512x3072_0_0_0).PackedRows (EltTy.packing .bf16)
  shapeCasts_S512_S512x1 : S512.ShapeCasts S512x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  broadcasts_S512x1_S512x2048 : S512x1.Broadcasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S512x1024_o0_0_S512x512 : S512x1024.Slices ![0, 0] S512x512
  slices_S512x1024_o0_512_S512x512 : S512x1024.Slices ![0, 512] S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  shapeCasts_S512x512_S1x512x512 : S512x512.ShapeCasts S1x512x512
  dot_S512x512_S512x3072_S512x3072_0_0_1_1_n_n_wf : DotDims.WF S512x512 S512x3072 S512x3072 [0] [0] [1] [1] [] []
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x512x2048.size a
  hwx0_0 : ∀ i : grid0.Coords, EltTy.bits .f32 = 32 ∨ (Rect.block (s := S8x512x2048) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x3072.size a ≤ S512x3072.size a
  hwx0_1 : ∀ i : grid0.Coords, EltTy.bits .bf16 = 32 ∨ (Rect.block (s := S512x3072) S512x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3072.size a ≤ S8x2048x3072.size a
  hwx0_3 : ∀ i : grid0.Coords, EltTy.bits .bf16 = 32 ∨ (Rect.block (s := S8x2048x3072) S1x512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x2048x3072.size a
  hwx1_0 : ∀ i : grid1.Coords, EltTy.bits .bf16 = 32 ∨ (Rect.block (s := S8x2048x3072) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S8x2048x3072.size a
  hwx1_1 : ∀ i : grid1.Coords, EltTy.bits .bf16 = 32 ∨ (Rect.block (s := S8x2048x3072) S1x2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x512.size a ≤ S8x2048x3072.size a
  hwx1_2 : ∀ i : grid1.Coords, EltTy.bits .bf16 = 32 ∨ (Rect.block (s := S8x2048x3072) S1x2048x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S8x2048x3072.size a
  hwx1_3 : ∀ i : grid1.Coords, EltTy.bits .bf16 = 32 ∨ (Rect.block (s := S8x2048x3072) S1x512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x512.size a ≤ S8x2048x3072.size a
  hwx1_4 : ∀ i : grid1.Coords, EltTy.bits .bf16 = 32 ∨ (Rect.block (s := S8x2048x3072) S1x2048x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x512.size a ≤ S8x2048x3072.size a
  hwx1_5 : ∀ i : grid1.Coords, EltTy.bits .bf16 = 32 ∨ (Rect.block (s := S8x2048x3072) S1x2048x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S512x1024.size a
  hwx1_6 : ∀ i : grid1.Coords, EltTy.bits .bf16 = 32 ∨ (Rect.block (s := S512x1024) S512x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S512x1.size a
  hwx1_7 : ∀ i : grid1.Coords, EltTy.bits .f32 = 32 ∨ (Rect.block (s := S512x1) S512x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x512x512.size a ≤ S8x512x2048.size a
  hwx1_8 : ∀ i : grid1.Coords, EltTy.bits .f32 = 32 ∨ (Rect.block (s := S8x512x2048) S1x512x512.size (cc1_transform_8 i) (hinb1_8 i)).WholeWords (EltTy.packing .f32)

variable [Facts₀]

def dot_S512x512_S512x3072_S512x3072_0_0_1_1_n_n : DotDims S512x512 S512x3072 S512x3072 where
  lhsContracting := [0]
  rhsContracting := [0]
  lhsNonContracting := [1]
  rhsNonContracting := [1]
  lhsBatch := []
  rhsBatch := []
  wf := dot_S512x512_S512x3072_S512x3072_0_0_1_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x2048x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x2048x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6) S512x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S512x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x512x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x512x2048 : Shape := ⟨3, ![8, 512, 2048]⟩
abbrev S512x512 : Shape := ⟨2, ![512, 512]⟩
abbrev S512 : Shape := ⟨1, ![512]⟩
abbrev S512x1024 : Shape := ⟨2, ![512, 1024]⟩
abbrev S8x2048x512 : Shape := ⟨3, ![8, 2048, 512]⟩
abbrev S1x1x512 : Shape := ⟨3, ![1, 1, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x2048x1024 : Shape := ⟨3, ![8, 2048, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8x512x2048, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x1024, .f32⟩
  | .hbm, ⟨14, _⟩ => ⟨S512, .f32⟩
  | .hbm, ⟨15, _⟩ => ⟨S8x2048x512, .f32⟩
  | .hbm, ⟨16, _⟩ => ⟨S8x2048x512, .f32⟩
  | .hbm, ⟨17, _⟩ => ⟨S1x1x512, .f32⟩
  | .hbm, ⟨18, _⟩ => ⟨S8x2048x512, .f32⟩
  | .hbm, ⟨19, _⟩ => ⟨S8x2048x512, .f32⟩
  | .hbm, ⟨20, _⟩ => ⟨S8x2048x512, .f32⟩
  | .hbm, ⟨21, _⟩ => ⟨S1x1x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S1x1x512, .f32⟩
  | .hbm, ⟨26, _⟩ => ⟨S8x2048x512, .f32⟩
  | .hbm, ⟨27, _⟩ => ⟨S8x2048x512, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S8x2048x512, .f32⟩
  | .hbm, ⟨47, _⟩ => ⟨S8x2048x512, .f32⟩
  | .hbm, ⟨48, _⟩ => ⟨S1x1x512, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S1x1x512, .f32⟩
  | .hbm, ⟨53, _⟩ => ⟨S8x2048x512, .f32⟩
  | .hbm, ⟨54, _⟩ => ⟨S8x2048x512, .f32⟩
  | .hbm, ⟨55, _⟩ => ⟨S8x2048x512, .f32⟩
  | .hbm, ⟨56, _⟩ => ⟨S1x1x512, .f32⟩
  | .hbm, ⟨57, _⟩ => ⟨S8x2048x512, .f32⟩
  | .hbm, ⟨58, _⟩ => ⟨S8x2048x512, .f32⟩
  | .hbm, ⟨59, _⟩ => ⟨S8x2048x2048, .f32⟩
  | .hbm, ⟨60, _⟩ => ⟨S_, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048, .f32⟩
  | .hbm, ⟨65, _⟩ => ⟨S_, .f32⟩
  | .hbm, ⟨66, _⟩ => ⟨S8x2048, .f32⟩
  | .hbm, ⟨67, _⟩ => ⟨S8x2048, .f32⟩
  | .hbm, ⟨68, _⟩ => ⟨S8x2048x1, .f32⟩
  | .hbm, ⟨69, _⟩ => ⟨S8x2048x2048, .f32⟩
  | .hbm, ⟨70, _⟩ => ⟨S8x2048x2048, .f32⟩
  | .hbm, ⟨71, _⟩ => ⟨S8x2048x2048, .f32⟩
  | .hbm, ⟨72, _⟩ => ⟨S_, .f32⟩
  | .hbm, ⟨73, _⟩ => ⟨S8x2048, .f32⟩
  | .hbm, ⟨74, _⟩ => ⟨S8x2048x1, .f32⟩
  | .hbm, ⟨75, _⟩ => ⟨S8x2048x2048, .f32⟩
  | .hbm, ⟨76, _⟩ => ⟨S8x2048x2048, .f32⟩
  | .hbm, ⟨77, _⟩ => ⟨S8x2048x512, .f32⟩
  | .hbm, ⟨78, _⟩ => ⟨S8x2048x1024, .f32⟩
  | .hbm, ⟨79, _⟩ => ⟨S8x2048x512, .f32⟩
  | .hbm, ⟨80, _⟩ => ⟨S1x1x512, .f32⟩
  | .hbm, ⟨81, _⟩ => ⟨S8x2048x512, .f32⟩
  | .hbm, ⟨82, _⟩ => ⟨S8x2048x512, .f32⟩
  | .hbm, ⟨83, _⟩ => ⟨S8x512x2048, .f32⟩
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  transposes_S8x512x2048_S8x2048x512_0_2_1 : S8x512x2048.Transposes [0, 2, 1] S8x2048x512
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  concatenates_S8x2048x512_S8x2048x512_S8x2048x1024_d2 : Shape.Concatenates [S8x2048x512, S8x2048x512] S8x2048x1024 2
  transposes_S8x2048x512_S8x512x2048_0_2_1 : S8x2048x512.Transposes [0, 2, 1] S8x512x2048
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]
  dot_S8x2048x1024_S512x1024_S8x2048x512_2_1_01_0_n_n_wf : DotDims.WF S8x2048x1024 S512x1024 S8x2048x512 [2] [1] [0, 1] [0] [] []

variable [Facts₀]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf
def dot_S8x2048x1024_S512x1024_S8x2048x512_2_1_01_0_n_n : DotDims S8x2048x1024 S512x1024 S8x2048x512 where
  lhsContracting := [2]
  rhsContracting := [1]
  lhsNonContracting := [0, 1]
  rhsNonContracting := [0]
  lhsBatch := []
  rhsBatch := []
  wf := dot_S8x2048x1024_S512x1024_S8x2048x512_2_1_01_0_n_n_wf

class Facts : Prop extends Facts₀ where

variable [Facts]
-- ==== Proof.K.Region0.lean ====
import proofs.«404042_j23493471109327_3_alg».proof.Proof.Gen.Kernel.Launch
import proofs.«404042_j23493471109327_3_alg».proof.Proof.Gen.Kernel.Skeleton
import proofs.«404042_j23493471109327_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # The projection kernel (the first pallas_call), point by point

At grid point `t = (b, ti)` the body reads three staged blocks — the slab `x[b, :, 512·ti ..]` (features × time),
the whole packed weight matrix (features × 3072) and the packed bias row — and overwrites its output block with
`xᵀ · W + bias` (time × 3072). This module names the blocks, states what the output buffer holds after the body as
a function of the three blocks, runs the body once against that statement, and packages the per-point facts the
pipeline's launch asks for. Everything is stated for an arbitrary float instance. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents the region is entered with, per core: a parameter here, fixed by the run
variable (V : (c : Dev nD) → (b : Ref sig .tc) → Buf (Elt F) ((c : Thread nD τ).loc b))

/-- Window `w`'s block at point `t`: the rectangle of its array (as the region finds it) that the index map selects. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched there or
    kept the earlier fetch (the index map did not move): for any proof data reading `V` that leaves inputs in place. -/
theorem staged0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem staged0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem staged0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body reads and writes. -/
abbrev rX : Rect S1x512x512 := Rect.unit (s := S1x512x512) ![0, 0, 0] S1x512x512.size inb_S1x512x512_S1x512x512_0_0_0
abbrev rW : Rect S512x3072 := Rect.unit (s := S512x3072) ![0, 0] S512x3072.size inb_S512x3072_S512x3072_0_0
abbrev rB : Rect S1x3072 := Rect.unit (s := S1x3072) ![0, 0] S1x3072.size inb_S1x3072_S1x3072_0_0
abbrev rQ : Rect S1x512x3072 := Rect.unit (s := S1x512x3072) ![0, 0, 0] S1x512x3072.size inb_S1x512x3072_S1x512x3072_0_0_0

/-- The output buffer after the body: one store of the projection of the three loaded blocks, over the whole buffer. -/
def proj0 (x : Vec F S1x512x512 .f32) (w : Vec F S512x3072 .bf16) (b : Vec F S1x3072 .f32) : Vec F S1x512x3072 .bf16 :=
  View.canon [⟨rQ, k0_pay1 (View.ld x rX) (View.ld w rW) (View.ld b rB)⟩]

theorem proj0_cover (p0 : Vec F S1x512x3072 .bf16) (y : S1x512x3072.Idx) :
    ∃ pc ∈ ([⟨rQ, p0⟩] : List (View.Piece (Elt F) S1x512x3072 .bf16)), y ∈ pc.1.set :=
  View.cover_of_tiled [⟨rQ, p0⟩] S1x512x3072.size (by rfl) y

set_option maxHeartbeats 1000000 in
/-- The body on whole staging buffers — the three inputs at known contents, the output at anything — returns the
    inputs untouched and the output at `proj0` of them. -/
theorem run_body0 (c : Dev nD) (E : Set ℕ) (i : grid0.Coords)
    (arg2 : Memref sig .tc .vmem S1x512x512 .f32) (harg2 : arg2.IsWhole) (arg3 : Memref sig .tc .vmem S512x3072 .bf16) (harg3 : arg3.IsWhole)
    (arg4 : Memref sig .tc .vmem S1x3072 .f32) (harg4 : arg4.IsWhole) (arg5 : Memref sig .tc .vmem S1x512x3072 .bf16) (harg5 : arg5.IsWhole)
    (x : Vec F S1x512x512 .f32) (w : Vec F S512x3072 .bf16) (b : Vec F S1x3072 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (proj0 x w b)) -∗ K ⟨⟩))
      ⊢ wp frame (wpE (defs₀ (F := F)) Variants.none c none) E (cc0__qkv_kernel i arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (proj0_cover _)

/-- The proof data of the first pipeline on core `c`: arrays as the region finds them; after the body each input
    buffer still at its block and the output buffer at the projection of the three blocks; nothing else changes hands. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => proj0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = proj0 (blk0 V c 0 t) (blk0 V c 1 t) (blk0 V c 2 t) := by dsimp only [dat0]

theorem dat0_before0 (c : Dev nD) (t : Fin cfg0.N) (d) : (dat0 V c).before 0 t d = blk0 V c 0 t :=
  staged0_0 V (dat0 V c) (dat0_A V c 0) (dat0_after0 V c) t d
theorem dat0_before1 (c : Dev nD) (t : Fin cfg0.N) (d) : (dat0 V c).before 1 t d = blk0 V c 1 t :=
  staged0_1 V (dat0 V c) (dat0_A V c 1) (dat0_after1 V c) t d
theorem dat0_before2 (c : Dev nD) (t : Fin cfg0.N) (d) : (dat0 V c).before 2 t d = blk0 V c 2 t :=
  staged0_2 V (dat0 V c) (dat0_A V c 2) (dat0_after2 V c) t d

/-- What the pipeline hands the body at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it expects back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (run_body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first pipeline, at every point. -/
theorem obligation0 (c : Dev nD) : BodyObligation (dat0 (F := F) V c) (defs₀ (F := F)) Variants.none () Set.univ := fun t => by
  rw [bigSep_W0, bigSep_W0]
  exact point0 V c t

end Cert.Kernel.Hand

end
-- ==== Proof.K.Region1.lean ====
import proofs.«404042_j23493471109327_3_alg».proof.Proof.Gen.Kernel.Launch
import proofs.«404042_j23493471109327_3_alg».proof.Proof.Gen.Kernel.Skeleton
import proofs.«404042_j23493471109327_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # The attention kernel (the second pallas_call), point by point

At grid point `t = (b, qi)` the body reads eight staged blocks — for each of the two heads a 512-row query slab and
the full 2048-row key and value slabs of batch `b`, all six of them column bands of ONE packed array, then the output
projection's weights and its bias column — and overwrites its output block (features × 512 query rows) with the
projected sum of the two heads' softmax-weighted values plus the bias. This module names the blocks, states what the
output buffer holds after the body as a function of the eight blocks, runs the body once against that statement, and
packages the per-point facts the launch asks for. Six windows read one array, so the proof data hold that array in
six shares that add up to the whole. Everything is stated for an arbitrary float instance. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents the region is entered with, per core: a parameter here, fixed by the run
variable (V : (c : Dev nD) → (b : Ref sig .tc) → Buf (Elt F) ((c : Thread nD τ).loc b))

/-- Window `w`'s block at point `t`: the rectangle of its array (as the region finds it) that the index map selects. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched there or kept
    an earlier fetch (the key, value, weight and bias windows move only when the batch changes, or never). -/
theorem staged1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem staged1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem staged1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem staged1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem staged1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem staged1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem staged1_6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)
theorem staged1_7 {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

/-- The whole-buffer rectangles the body reads and writes. -/
abbrev rq : Rect S1x512x512 := Rect.unit (s := S1x512x512) ![0, 0, 0] S1x512x512.size inb_S1x512x512_S1x512x512_0_0_0
abbrev rkv : Rect S1x2048x512 := Rect.unit (s := S1x2048x512) ![0, 0, 0] S1x2048x512.size inb_S1x2048x512_S1x2048x512_0_0_0
abbrev rwp : Rect S512x1024 := Rect.unit (s := S512x1024) ![0, 0] S512x1024.size inb_S512x1024_S512x1024_0_0
abbrev rbp : Rect S512x1 := Rect.unit (s := S512x1) ![0, 0] S512x1.size inb_S512x1_S512x1_0_0

/-- The output buffer after the body: one store, over the whole buffer, of the projected two-head attention of the
    eight loaded blocks (first head's output; second head's values, scaled scores and row maxima; weights; bias). -/
def attn1 (q1 : Vec F S1x512x512 .bf16) (k1 v1 : Vec F S1x2048x512 .bf16) (q2 : Vec F S1x512x512 .bf16) (k2 v2 : Vec F S1x2048x512 .bf16)
    (wo : Vec F S512x1024 .bf16) (bp : Vec F S512x1 .f32) : Vec F S1x512x512 .f32 :=
  View.canon [⟨rq, k1_pay1 (k1_pay2 (View.ld q1 rq) (View.ld k1 rkv) (View.ld v1 rkv)) (k1_pay3 (View.ld v2 rkv))
    (k1_pay4 (View.ld q2 rq) (View.ld k2 rkv)) (k1_pay5 (View.ld q2 rq) (View.ld k2 rkv)) (View.ld wo rwp) (View.ld bp rbp)⟩]

theorem attn1_cover (p0 : Vec F S1x512x512 .f32) (y : S1x512x512.Idx) :
    ∃ pc ∈ ([⟨rq, p0⟩] : List (View.Piece (Elt F) S1x512x512 .f32)), y ∈ pc.1.set :=
  View.cover_of_tiled [⟨rq, p0⟩] S1x512x512.size (by rfl) y

set_option maxHeartbeats 4000000 in
/-- The body on whole staging buffers — the eight inputs at known contents, the output at anything — returns the inputs
    untouched and the output at `attn1` of them. -/
theorem run_body1 (c : Dev nD) (E : Set ℕ) (i : grid1.Coords)
    (arg2 : Memref sig .tc .vmem S1x512x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x512x512 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S512x1024 .bf16) (harg8 : arg8.IsWhole) (arg9 : Memref sig .tc .vmem S512x1 .f32) (harg9 : arg9.IsWhole) (arg10 : Memref sig .tc .vmem S1x512x512 .f32) (harg10 : arg10.IsWhole)
    (q1 : Vec F S1x512x512 .bf16) (k1 v1 : Vec F S1x2048x512 .bf16) (q2 : Vec F S1x512x512 .bf16) (k2 v2 : Vec F S1x2048x512 .bf16)
    (wo : Vec F S512x1024 .bf16) (bp : Vec F S512x1 .f32) (K : PUnit → sProp 𝕄) :
    iprop(owns (c : Thread nD τ) arg2 fullShare q1 ∗ owns (c : Thread nD τ) arg3 fullShare k1 ∗ owns (c : Thread nD τ) arg4 fullShare v1
        ∗ owns (c : Thread nD τ) arg5 fullShare q2 ∗ owns (c : Thread nD τ) arg6 fullShare k2 ∗ owns (c : Thread nD τ) arg7 fullShare v2
        ∗ owns (c : Thread nD τ) arg8 fullShare wo ∗ owns (c : Thread nD τ) arg9 fullShare bp
        ∗ (∃ d, owns (c : Thread nD τ) arg10 fullShare d)
        ∗ (iprop(owns (c : Thread nD τ) arg2 fullShare q1 ∗ owns (c : Thread nD τ) arg3 fullShare k1 ∗ owns (c : Thread nD τ) arg4 fullShare v1
            ∗ owns (c : Thread nD τ) arg5 fullShare q2 ∗ owns (c : Thread nD τ) arg6 fullShare k2 ∗ owns (c : Thread nD τ) arg7 fullShare v2
            ∗ owns (c : Thread nD τ) arg8 fullShare wo ∗ owns (c : Thread nD τ) arg9 fullShare bp
            ∗ owns (c : Thread nD τ) arg10 fullShare (attn1 q1 k1 v1 q2 k2 v2 wo bp)) -∗ K ⟨⟩))
      ⊢ wp frame (wpE (defs₀ (F := F)) Variants.none c none) E
          (cc1__attn_proj_kernel i arg2 harg2 arg3 harg3 arg4 harg4 arg5 harg5 arg6 harg6 arg7 harg7 arg8 harg8 arg9 harg9 arg10 harg10) K := by
  simp only [cc1__attn_proj_kernel_eq_skeleton]; unfold cc1__attn_proj_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (attn1_cover _)

/-- The three-level halving of the whole share into six parts, one per window that reads the packed array. -/
abbrev sh0 : PosShare TreeShare := (fullShare : PosShare TreeShare).left.left
abbrev sh1 : PosShare TreeShare := (fullShare : PosShare TreeShare).left.right
abbrev sh2 : PosShare TreeShare := (fullShare : PosShare TreeShare).right.left.left
abbrev sh3 : PosShare TreeShare := (fullShare : PosShare TreeShare).right.left.right
abbrev sh4 : PosShare TreeShare := (fullShare : PosShare TreeShare).right.right.left
abbrev sh5 : PosShare TreeShare := (fullShare : PosShare TreeShare).right.right.right

/-- The proof data of the second pipeline on core `c`: arrays as the region finds them; after the body each input
    buffer still at its block and the output buffer at `attn1` of the eight blocks; the packed array held in six
    shares, the weights and the bias whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => attn1 (blk1 V c 0 t) (blk1 V c 1 t) (blk1 V c 2 t) (blk1 V c 3 t) (blk1 V c 4 t) (blk1 V c 5 t) (blk1 V c 6 t) (blk1 V c 7 t)
  Φ _ := Pipeline.ΦA spec1 c
  q w := match w with
    | ⟨0, _⟩ => sh0
    | ⟨1, _⟩ => sh1
    | ⟨2, _⟩ => sh2
    | ⟨3, _⟩ => sh3
    | ⟨4, _⟩ => sh4
    | ⟨5, _⟩ => sh5
    | ⟨6, _⟩ => fullShare
    | ⟨7, _⟩ => fullShare
    | ⟨8, _⟩ => fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) : (dat1 V c).after 7 t = blk1 V c 7 t := by dsimp only [dat1]
theorem dat1_after8 (c : Dev nD) (t : Fin cfg1.N) :
    (dat1 V c).after 8 t = attn1 (blk1 V c 0 t) (blk1 V c 1 t) (blk1 V c 2 t) (blk1 V c 3 t) (blk1 V c 4 t) (blk1 V c 5 t) (blk1 V c 6 t) (blk1 V c 7 t) := by
  dsimp only [dat1]

theorem dat1_before0 (c : Dev nD) (t : Fin cfg1.N) (d) : (dat1 V c).before 0 t d = blk1 V c 0 t :=
  staged1_0 V (dat1 V c) (dat1_A V c 0) (dat1_after0 V c) t d
theorem dat1_before1 (c : Dev nD) (t : Fin cfg1.N) (d) : (dat1 V c).before 1 t d = blk1 V c 1 t :=
  staged1_1 V (dat1 V c) (dat1_A V c 1) (dat1_after1 V c) t d
theorem dat1_before2 (c : Dev nD) (t : Fin cfg1.N) (d) : (dat1 V c).before 2 t d = blk1 V c 2 t :=
  staged1_2 V (dat1 V c) (dat1_A V c 2) (dat1_after2 V c) t d
theorem dat1_before3 (c : Dev nD) (t : Fin cfg1.N) (d) : (dat1 V c).before 3 t d = blk1 V c 3 t :=
  staged1_3 V (dat1 V c) (dat1_A V c 3) (dat1_after3 V c) t d
theorem dat1_before4 (c : Dev nD) (t : Fin cfg1.N) (d) : (dat1 V c).before 4 t d = blk1 V c 4 t :=
  staged1_4 V (dat1 V c) (dat1_A V c 4) (dat1_after4 V c) t d
theorem dat1_before5 (c : Dev nD) (t : Fin cfg1.N) (d) : (dat1 V c).before 5 t d = blk1 V c 5 t :=
  staged1_5 V (dat1 V c) (dat1_A V c 5) (dat1_after5 V c) t d
theorem dat1_before6 (c : Dev nD) (t : Fin cfg1.N) (d) : (dat1 V c).before 6 t d = blk1 V c 6 t :=
  staged1_6 V (dat1 V c) (dat1_A V c 6) (dat1_after6 V c) t d
theorem dat1_before7 (c : Dev nD) (t : Fin cfg1.N) (d) : (dat1 V c).before 7 t d = blk1 V c 7 t :=
  staged1_7 V (dat1 V c) (dat1_A V c 7) (dat1_after7 V c) t d

/-- What the pipeline hands the body at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it expects back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6, dat1_before7]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7, dat1_after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body1 c Set.univ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the second pipeline, at every point. -/
theorem obligation1 (c : Dev nD) : BodyObligation (dat1 (F := F) V c) (defs₀ (F := F)) Variants.none () Set.univ := fun t => by
  rw [bigSep_W1, bigSep_W1]
  exact point1 V c t

end Cert.Kernel.Hand

end
-- ==== Proof.K.Shares.lean ====
import proofs.«404042_j23493471109327_3_alg».proof.Proof.K.Region1

/-! # One array behind six windows: splitting and rejoining its ownership

The attention kernel's six query / key / value windows all read the packed array. Entering the region, the core's whole
ownership of that array is cut into six shares, one per window (two halvings of the left half, three of the right); leaving
it, the six shares — all still at the contents the region found, since no window writes the array — are put back together.
The other three arrays (weights, bias, result) each sit behind one window and stay whole. -/

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

/-- The whole of a buffer is its six shares (left-left, left-right, and the four quarters of the right half). -/
theorem six_of_whole {ℓ : Loc nD τ sig} (f : Buf (Elt F) ℓ) :
    (ℓ ↦{fullShare} f : sProp 𝕄) ⊢ iprop((ℓ ↦{sh0} f) ∗ (ℓ ↦{sh1} f) ∗ (ℓ ↦{sh2} f) ∗ (ℓ ↦{sh3} f) ∗ (ℓ ↦{sh4} f) ∗ (ℓ ↦{sh5} f)) := by
  iintro H
  ihave H := (pointsTo_share (PosShare.mem_left_op_right (fullShare : PosShare TreeShare))).1 $$ H
  icases H with ⟨HL, HR⟩
  ihave HL := (pointsTo_share (PosShare.mem_left_op_right (fullShare : PosShare TreeShare).left)).1 $$ HL
  icases HL with ⟨H0, H1⟩
  ihave HR := (pointsTo_share (PosShare.mem_left_op_right (fullShare : PosShare TreeShare).right)).1 $$ HR
  icases HR with ⟨HRL, HRR⟩
  ihave HRL := (pointsTo_share (PosShare.mem_left_op_right (fullShare : PosShare TreeShare).right.left)).1 $$ HRL
  icases HRL with ⟨H2, H3⟩
  ihave HRR := (pointsTo_share (PosShare.mem_left_op_right (fullShare : PosShare TreeShare).right.right)).1 $$ HRR
  icases HRR with ⟨H4, H5⟩
  isplitl [H0]; · iexact H0
  isplitl [H1]; · iexact H1
  isplitl [H2]; · iexact H2
  isplitl [H3]; · iexact H3
  isplitl [H4]; · iexact H4
  iexact H5

/-- and the six shares at one contents are the whole. -/
theorem whole_of_six {ℓ : Loc nD τ sig} (f : Buf (Elt F) ℓ) :
    iprop((ℓ ↦{sh0} f) ∗ (ℓ ↦{sh1} f) ∗ (ℓ ↦{sh2} f) ∗ (ℓ ↦{sh3} f) ∗ (ℓ ↦{sh4} f) ∗ (ℓ ↦{sh5} f)) ⊢ (ℓ ↦{fullShare} f : sProp 𝕄) := by
  iintro ⟨H0, H1, H2, H3, H4, H5⟩
  ihave HL := (pointsTo_share (PosShare.mem_left_op_right (fullShare : PosShare TreeShare).left)).2 $$ [H0 H1]
  · isplitl [H0] <;> iassumption
  ihave HRL := (pointsTo_share (PosShare.mem_left_op_right (fullShare : PosShare TreeShare).right.left)).2 $$ [H2 H3]
  · isplitl [H2] <;> iassumption
  ihave HRR := (pointsTo_share (PosShare.mem_left_op_right (fullShare : PosShare TreeShare).right.right)).2 $$ [H4 H5]
  · isplitl [H4] <;> iassumption
  ihave HR := (pointsTo_share (PosShare.mem_left_op_right (fullShare : PosShare TreeShare).right)).2 $$ [HRL HRR]
  · isplitl [HRL] <;> iassumption
  iapply (pointsTo_share (PosShare.mem_left_op_right (fullShare : PosShare TreeShare))).2
  isplitl [HL] <;> iassumption

/-- The four distinct buffers behind the nine windows, each whole at contents `W`. -/
theorem buffers1 (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8)) := by
  unfold Pipeline.arrBufs
  exact bigSep_eq_bigSepL_of_eq [main_v5, main_v6, main_v7, main_v8] (by decide) (by decide) _

variable (V : (c : Dev nD) → (b : Ref sig .tc) → Buf (Elt F) ((c : Thread nD τ).loc b))

/-- The pipeline's arrays, window by window: six shares of the packed array, then the weights, the bias and the result whole. -/
theorem arrays1 (c : Dev nD) (G : (w : Fin cfg1.W) → Buf (Elt F) ((cfg1.win w).arr.view.loc (c.tc : Thread nD τ))) :
    ((dat1 V c).arrays G : sProp 𝕄)
      = iprop((((c : Thread nD τ).loc main_v5) ↦{sh0} G 0) ∗ (((c : Thread nD τ).loc main_v5) ↦{sh1} G 1) ∗ (((c : Thread nD τ).loc main_v5) ↦{sh2} G 2)
          ∗ (((c : Thread nD τ).loc main_v5) ↦{sh3} G 3) ∗ (((c : Thread nD τ).loc main_v5) ↦{sh4} G 4) ∗ (((c : Thread nD τ).loc main_v5) ↦{sh5} G 5)
          ∗ (((c : Thread nD τ).loc main_v6) ↦{fullShare} G 6) ∗ (((c : Thread nD τ).loc main_v7) ↦{fullShare} G 7) ∗ (((c : Thread nD τ).loc main_v8) ↦{fullShare} G 8)) := by
  have h : ((dat1 V c).arrays G : sProp 𝕄)
      = bigSep Finset.univ fun w : Fin cfg1.W => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- ENTRY. The four buffers whole at `V c` are the pipeline's arrays at their entry contents. -/
theorem arrays1_of_buffers (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [buffers1, arrays1]
  iintro ⟨H5, H6, H7, H8⟩
  ihave H := six_of_whole (F := F) (V c main_v5) $$ H5
  icases H with ⟨A0, A1, A2, A3, A4, A5⟩
  isplitl [A0]; · iexact A0
  isplitl [A1]; · iexact A1
  isplitl [A2]; · iexact A2
  isplitl [A3]; · iexact A3
  isplitl [A4]; · iexact A4
  isplitl [A5]; · iexact A5
  isplitl [H6]; · iexact H6
  isplitl [H7]; · iexact H7
  iexact H8

/-- EXIT. The pipeline's arrays at their final contents are the four buffers whole at any `W` that agrees with `V c` on
    the three arrays only read and holds the result array at what the write-backs left. -/
theorem buffers_of_arrays1 (c : Dev nD) (W : (b : Ref sig .tc) → Buf (Elt F) ((c : Thread nD τ).loc b))
    (h5 : W main_v5 = V c main_v5) (h6 : W main_v6 = V c main_v6) (h7 : W main_v7 = V c main_v7)
    (h8 : W main_v8 = (dat1 V c).arrAt 8 cfg1.N) :
    ((dat1 V c).arrays ((dat1 V c).arrAt · cfg1.N) : sProp 𝕄)
      ⊢ Pipeline.arrBufs (Ix := Unit) (Name := ℕ) (U := UR sig nD τ) (Lvl := ℕ) spec1 c W := by
  rw [buffers1, arrays1, h5, h6, h7, h8,
    (dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl, (dat1 V c).arrAt_in 6 rfl, (dat1 V c).arrAt_in 7 rfl]
  iintro ⟨A0, A1, A2, A3, A4, A5, H6, H7, H8⟩
  isplitl [A0 A1 A2 A3 A4 A5]
  · iapply (whole_of_six (F := F) (V c main_v5))
    isplitl [A0]; · iexact A0
    isplitl [A1]; · iexact A1
    isplitl [A2]; · iexact A2
    isplitl [A3]; · iexact A3
    isplitl [A4]; · iexact A4
    iexact A5
  isplitl [H6]; · iexact H6
  isplitl [H7]; · iexact H7
  iexact H8

end Cert.Kernel.Hand

end
-- ==== Proof.K.Run.lean ====
import proofs.«404042_j23493471109327_3_alg».proof.Proof.K.Region0
import proofs.«404042_j23493471109327_3_alg».proof.Proof.K.Shares
import proofs.«404042_j23493471109327_3_alg».proof.Proof.Gen.Kernel.Regions

/-! # The whole run: host lines, the projection kernel, host lines, the attention kernel

The program's @main is four segments. This module follows the contents of every unscoped buffer through them — the launch
memory, then what the first stretch of host lines computes (the packed weights and bias), then the packed array as the
first kernel's write-backs leave it, then the output weights cast and the bias column reshaped, then the result array as the
second kernel's write-backs leave it — and runs the program once against that description: every fair execution ends, nothing
faults, and every unscoped buffer ends at the last description. The frame (arguments unchanged) and the result's value are
read off it. Everything is stated for an arbitrary float instance. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev mem0 : Dev nD → Valuation τ sig (Elt F) := fun c b => m ((c : Dev nD), b)
/-- After the first stretch of host lines (the first kernel's entry). -/
abbrev mem1 : Dev nD → Valuation τ sig (Elt F) := fun c => StableHlo.after hostOps0 (mem0 m c)
abbrev buf1 : (c : Dev nD) → (b : Ref sig .tc) → Buf (Elt F) ((c : Thread nD τ).loc b) := fun c b => mem1 m c b
/-- After the first kernel: its arrays at what the pipeline leaves (the inputs as entered, the packed array's write-backs
    folded), every other buffer as entered. -/
def mem2 (c : Dev nD) : Valuation τ sig (Elt F) :=
  Pipeline.withArrays spec0 c (mem1 m c) fun w => (dat0 (buf1 m) c).arrAt w cfg0.N
theorem mem2_arr (c : Dev nD) (w : Fin cfg0.W) :
    mem2 m c (Proc.devRef .tc (Pipeline.arrRef spec0 w)) = (dat0 (buf1 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
abbrev buf2 : (c : Dev nD) → (b : Ref sig .tc) → Buf (Elt F) ((c : Thread nD τ).loc b) := fun c b => mem2 m c b
theorem left0 (c : Dev nD) (w : Fin cfg0.W) : (dat0 (buf1 m) c).arrAt w cfg0.N = buf2 m c (Pipeline.arrRef spec0 w) :=
  (mem2_arr m c w).symm
theorem kept0 (c : Dev nD) : ∀ b, b ∉ Finset.univ.image (Pipeline.arrRef spec0) → buf2 m c b = buf1 m c b :=
  fun b hb => mem2_of_ne m c b fun w e => hb (Finset.mem_image.mpr ⟨w, Finset.mem_univ _, e⟩)
/-- After the second stretch of host lines (the second kernel's entry). -/
abbrev mem3 : Dev nD → Valuation τ sig (Elt F) := fun c => StableHlo.after hostOps1 (mem2 m c)
abbrev buf3 : (c : Dev nD) → (b : Ref sig .tc) → Buf (Elt F) ((c : Thread nD τ).loc b) := fun c b => mem3 m c b
/-- After the second kernel: the result array at what its write-backs leave, every other buffer as entered (the kernel's
    other arrays are only read). -/
def mem4 (c : Dev nD) : Valuation τ sig (Elt F) :=
  Function.update (mem3 m c) main_v8 ((dat1 (buf3 m) c).arrAt 8 cfg1.N)
abbrev buf4 : (c : Dev nD) → (b : Ref sig .tc) → Buf (Elt F) ((c : Thread nD τ).loc b) := fun c b => mem4 m c b
theorem mem4_v8 (c : Dev nD) : buf4 m c main_v8 = (dat1 (buf3 m) c).arrAt 8 cfg1.N := by
  unfold buf4 mem4; exact Function.update_self ..
theorem mem4_of_ne (c : Dev nD) (b : Ref sig .tc) (hb : b ≠ main_v8) : buf4 m c b = buf3 m c b := by
  unfold buf4 buf3 mem4
  exact Function.update_of_ne (StableHlo.devRef_ne_of_ne hb : (Proc.devRef .tc b : DevRef τ sig) ≠ Proc.devRef .tc main_v8) _ _
theorem kept1 (c : Dev nD) : ∀ b, b ∉ Finset.univ.image (Pipeline.arrRef spec1) → buf4 m c b = buf3 m c b :=
  fun b hb => mem4_of_ne m c b fun e => hb (Finset.mem_image.mpr ⟨8, Finset.mem_univ _, e.symm⟩)

/-! ## The second kernel's entry and exit: the packed array shared out and collected -/

theorem enter1 (c : Dev nD) :
    (StableHlo.held (c : Thread nD τ) (Pipeline.ucRefs τ sig) (mem3 m c) : sProp 𝕄)
      ⊢ iprop((dat1 (buf3 m) c).arrays ((dat1 (buf3 m) c).arrAt · 0)
          ∗ Pipeline.unscopedRest (Ix := Unit) (Name := ℕ) (U := UR sig nD τ) (Lvl := ℕ) spec1 c (buf3 m c)) := by
  have h := Pipeline.unscopedBufs_split₀ (Ix := Unit) (Name := ℕ) (U := UR sig nD τ) (Lvl := ℕ) cfgs 1 winFacts₀1.arr_unscoped c (buf3 m c)
  rw [Pipeline.unscopedBufs_held] at h
  rw [h]
  exact sep_mono (arrays1_of_buffers (buf3 m) c) .rfl

theorem leave1 (c : Dev nD) :
    iprop((dat1 (buf3 m) c).arrays ((dat1 (buf3 m) c).arrAt · cfg1.N)
        ∗ Pipeline.unscopedRest (Ix := Unit) (Name := ℕ) (U := UR sig nD τ) (Lvl := ℕ) spec1 c (buf3 m c))
      ⊢ (StableHlo.held (c : Thread nD τ) (Pipeline.ucRefs τ sig) (mem4 m c) : sProp 𝕄) := by
  have h := Pipeline.unscopedBufs_split₀ (Ix := Unit) (Name := ℕ) (U := UR sig nD τ) (Lvl := ℕ) cfgs 1 winFacts₀1.arr_unscoped c (buf4 m c)
  rw [Pipeline.unscopedBufs_held] at h
  rw [h]
  refine sep_mono (buffers_of_arrays1 (buf3 m) c (buf4 m c) (mem4_of_ne m c main_v5 (by decide)) (mem4_of_ne m c main_v6 (by decide))
    (mem4_of_ne m c main_v7 (by decide)) (mem4_v8 m c)) (Entails.of_eq ?_)
  unfold Pipeline.unscopedRest
  exact (bigSep_congr fun b hb => by rw [kept1 m c b (Finset.mem_sdiff.mp hb).2]).symm

/-! ## The proof data of both pipelines, and what rides along -/

abbrev tabs : (p : Fin 2) → (pcfgs (F := F) p).Adm := fun p => (cfgs p).toPCfg_adm
/-- Each pipeline's proof data at its own entry contents. -/
def pdats : (p : Fin 2) → (c : Dev nD) → Dat τ (Elt F) Unit ℕ (UR sig nD τ) ℕ (Pipeline.pin (pcfgs (F := F)) tabs p) c
  | ⟨0, _⟩ => fun c => dat0 (buf1 m) c
  | ⟨1, _⟩ => fun c => dat1 (buf3 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev side (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W side
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev last (c : Dev nD) : sProp 𝕄 := iprop(StableHlo.held (c : Thread nD τ) (Pipeline.ucRefs τ sig) (mem4 m c) ∗ ∃ r, prngReg c r)

/-! ## The two kernels as segments -/

set_option backward.isDefEq.respectTransparency.types false in
/-- The projection kernel: entered with every unscoped buffer at `mem1`, left at `mem2`. -/
def reg0 : Pipeline.RegionSeg (pcfgs (F := F)) tabs (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (buf1 m) c).loose
  hwaits := Pipeline.hwaits_of_owed_zero _ _ _ _ L lv 0 fun _ _ => rfl
  pre c := iprop(StableHlo.held (c : Thread nD τ) (Pipeline.ucRefs τ sig) (mem1 m c) ∗ side c)
  post c := iprop(StableHlo.held (c : Thread nD τ) (Pipeline.ucRefs τ sig) (mem2 m c) ∗ side c)
  X c := iprop(∃ r, prngReg c r)
  Y c := iprop(∃ r, prngReg c r)
  Z c := Pipeline.unscopedRest (Ix := Unit) (Name := ℕ) (U := UR sig nD τ) (Lvl := ℕ) spec0 c (buf1 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (buf1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (buf1 m c) (buf2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered with every unscoped buffer at `mem3`, left at `mem4`; the packed array goes in as six
    shares and comes back whole. -/
def reg1 : Pipeline.RegionSeg (pcfgs (F := F)) tabs (pdats m) () defs₀ 𝒱₀ L lv 1 where
  win := winFacts₀1
  block_pos := block_pos1
  stage_whole := stage_whole1
  K := PEmpty
  osem k := k.elim
  ho := Pipeline.OwnSemFacts.none _
  hbody c := (obligation1 (buf3 m) c).loose
  hwaits := Pipeline.hwaits_of_owed_zero _ _ _ _ L lv 1 fun _ _ => rfl
  pre c := iprop(StableHlo.held (c : Thread nD τ) (Pipeline.ucRefs τ sig) (mem3 m c) ∗ side c)
  post c := iprop(last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (buf3 m c)
  hentry c := by
    rw [Pipeline.ownSems0_none]
    iintro ⟨⟨Hub, Hp, HO⟩, -, -⟩
    ihave H := enter1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (buf3 m c))
        ⊢ (StableHlo.held (c : Thread nD τ) (Pipeline.ucRefs τ sig) (mem4 m c) : sProp 𝕄) := leave1 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) tabs (pdats m) () defs₀ 𝒱₀ L lv) :=
  [ .host (hostSeg hostOps0 hostOps0_sub hostOps0_fresh (mem0 m)),
    .region (reg0 m),
    .host (hostSeg hostOps1 hostOps1_sub hostOps1_fresh (mem2 m)),
    .region (reg1 m) ]
theorem main_is_segs (c : Dev nD) : main (F := F) c = Pipeline.Seg.run (segs m) := (main_chain c).trans (by chain_rfl)

set_option backward.isDefEq.respectTransparency.types false in
/-- From any memory with zero counters, every weakly fair execution of @main ends, nothing faulting, with every unscoped
    buffer of every core at `mem4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = mem4 m c b) :=
  Pipeline.θ_run_regions_kit (pcfgs (F := F)) tabs (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ side c)) (Tₙ := last m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem4 m c b)
    (hfin := fun c s' => by
      iintro ⟨⟨Hh, -⟩, HSI⟩
      unfold StableHlo.held
      imodintro
      iapply (pointsTo_read_all (Pipeline.ucRefs τ sig) (fun b => (((c : Thread nD τ)).1, b)) (mem4 m c) s')
      isplitl [Hh] <;> iassumption)
    (hQ := fun s h c => h c)

/-! ## No segment writes an argument -/

/-- A buffer that neither stretch of host lines writes, that is not the result array, and that the first kernel does not
    write back ends as launched. -/
theorem mem4_launch (c : Dev nD) (b : Ref sig .tc) (h8 : b ≠ main_v8) (h1 : b ∉ hostOps1_W)
    (h0 : (∀ w, Pipeline.arrRef spec0 w ≠ b) ∨ b = main_arg0) (hh : b ∉ hostOps0_W) :
    mem4 m c (Proc.devRef .tc b) = m ((c : Thread nD τ).loc b) := by
  refine (mem4_of_ne m c b h8).trans ?_
  refine (StableHlo.after_of_writes_sub hostOps1 _ hostOps1_writes h1).trans ?_
  have e : mem2 m c (Proc.devRef .tc b) = mem1 m c (Proc.devRef .tc b) := by
    rcases h0 with h0 | rfl
    · exact mem2_of_ne m c b h0
    · exact (mem2_arr m c 0).trans (((dat0 (buf1 m) c).arrAt_in 0 rfl _).trans (dat0_A (buf1 m) c 0))
  exact e.trans (StableHlo.after_of_writes_sub hostOps0 _ hostOps0_writes hh)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
    (h c _ (mem_uc main_arg0 (by decide))).trans (mem4_launch m c main_arg0 (by decide) (by decide) (Or.inr rfl) (by decide)),
    (h c _ (mem_uc main_arg1 (by decide))).trans (mem4_launch m c main_arg1 (by decide) (by decide) (Or.inl (by decide)) (by decide)),
    (h c _ (mem_uc main_arg2 (by decide))).trans (mem4_launch m c main_arg2 (by decide) (by decide) (Or.inl (by decide)) (by decide)),
    (h c _ (mem_uc main_arg3 (by decide))).trans (mem4_launch m c main_arg3 (by decide) (by decide) (Or.inl (by decide)) (by decide)),
    (h c _ (mem_uc main_arg4 (by decide))).trans (mem4_launch m c main_arg4 (by decide) (by decide) (Or.inl (by decide)) (by decide)),
    (h c _ (mem_uc main_arg5 (by decide))).trans (mem4_launch m c main_arg5 (by decide) (by decide) (Or.inl (by decide)) (by decide)),
    (h c _ (mem_uc main_arg6 (by decide))).trans (mem4_launch m c main_arg6 (by decide) (by decide) (Or.inl (by decide)) (by decide)),
    (h c _ (mem_uc main_arg7 (by decide))).trans (mem4_launch m c main_arg7 (by decide) (by decide) (Or.inl (by decide)) (by decide)),
    (h c _ (mem_uc main_arg8 (by decide))).trans (mem4_launch m c main_arg8 (by decide) (by decide) (Or.inl (by decide)) (by decide)),
    (h c _ (mem_uc main_arg9 (by decide))).trans (mem4_launch m c main_arg9 (by decide) (by decide) (Or.inl (by decide)) (by decide)),
    (h c _ (mem_uc main_arg10 (by decide))).trans (mem4_launch m c main_arg10 (by decide) (by decide) (Or.inl (by decide)) (by decide)),
    (h c _ (mem_uc main_arg11 (by decide))).trans (mem4_launch m c main_arg11 (by decide) (by decide) (Or.inl (by decide)) (by decide)),
    (h c _ (mem_uc main_arg12 (by decide))).trans (mem4_launch m c main_arg12 (by decide) (by decide) (Or.inl (by decide)) (by decide)),
    (h c _ (mem_uc main_arg13 (by decide))).trans (mem4_launch m c main_arg13 (by decide) (by decide) (Or.inl (by decide)) (by decide)),
    (h c _ (mem_uc main_arg14 (by decide))).trans (mem4_launch m c main_arg14 (by decide) (by decide) (Or.inl (by decide)) (by decide))⟩)
    (run_all m ρ)

/-- The run with the result named: the result array ends at what the second kernel's write-backs leave, the arguments as launched. -/
theorem run_value : θ_run defs (onTc (τ := τ) (main (F := F))) ⟨m, fun _ => 0, ρ⟩ (fun r => ∀ c : Dev nD,
      r.2.mem ((c.tc : Thread nD τ).loc main_v8) = (dat1 (buf3 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_v8 (by decide))).trans (mem4_v8 m c),
    (h c _ (mem_uc main_arg0 (by decide))).trans (mem4_launch m c main_arg0 (by decide) (by decide) (Or.inr rfl) (by decide)),
    (h c _ (mem_uc main_arg1 (by decide))).trans (mem4_launch m c main_arg1 (by decide) (by decide) (Or.inl (by decide)) (by decide)),
    (h c _ (mem_uc main_arg2 (by decide))).trans (mem4_launch m c main_arg2 (by decide) (by decide) (Or.inl (by decide)) (by decide)),
    (h c _ (mem_uc main_arg3 (by decide))).trans (mem4_launch m c main_arg3 (by decide) (by decide) (Or.inl (by decide)) (by decide)),
    (h c _ (mem_uc main_arg4 (by decide))).trans (mem4_launch m c main_arg4 (by decide) (by decide) (Or.inl (by decide)) (by decide)),
    (h c _ (mem_uc main_arg5 (by decide))).trans (mem4_launch m c main_arg5 (by decide) (by decide) (Or.inl (by decide)) (by decide)),
    (h c _ (mem_uc main_arg6 (by decide))).trans (mem4_launch m c main_arg6 (by decide) (by decide) (Or.inl (by decide)) (by decide)),
    (h c _ (mem_uc main_arg7 (by decide))).trans (mem4_launch m c main_arg7 (by decide) (by decide) (Or.inl (by decide)) (by decide)),
    (h c _ (mem_uc main_arg8 (by decide))).trans (mem4_launch m c main_arg8 (by decide) (by decide) (Or.inl (by decide)) (by decide)),
    (h c _ (mem_uc main_arg9 (by decide))).trans (mem4_launch m c main_arg9 (by decide) (by decide) (Or.inl (by decide)) (by decide)),
    (h c _ (mem_uc main_arg10 (by decide))).trans (mem4_launch m c main_arg10 (by decide) (by decide) (Or.inl (by decide)) (by decide)),
    (h c _ (mem_uc main_arg11 (by decide))).trans (mem4_launch m c main_arg11 (by decide) (by decide) (Or.inl (by decide)) (by decide)),
    (h c _ (mem_uc main_arg12 (by decide))).trans (mem4_launch m c main_arg12 (by decide) (by decide) (Or.inl (by decide)) (by decide)),
    (h c _ (mem_uc main_arg13 (by decide))).trans (mem4_launch m c main_arg13 (by decide) (by decide) (Or.inl (by decide)) (by decide)),
    (h c _ (mem_uc main_arg14 (by decide))).trans (mem4_launch m c main_arg14 (by decide) (by decide) (Or.inl (by decide)) (by decide))⟩)
    (run_all m ρ)

end Cert.Kernel.Hand

end
-- ==== Proof.KI.Region0.lean ====
import proofs.«404042_j23493471109327_3_alg».proof.Proof.Gen.KernelIdeal.Launch
import proofs.«404042_j23493471109327_3_alg».proof.Proof.Gen.KernelIdeal.Skeleton
import proofs.«404042_j23493471109327_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # The projection kernel (the first pallas_call), point by point

At grid point `t = (b, ti)` the body reads three staged blocks — the slab `x[b, :, 512·ti ..]` (features × time),
the whole packed weight matrix (features × 3072) and the packed bias row — and overwrites its output block with
`xᵀ · W + bias` (time × 3072). This module names the blocks, states what the output buffer holds after the body as
a function of the three blocks, runs the body once against that statement, and packages the per-point facts the
pipeline's launch asks for. Everything is stated for an arbitrary float instance. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents the region is entered with, per core: a parameter here, fixed by the run
variable (V : (c : Dev nD) → (b : Ref sig .tc) → Buf (Elt F) ((c : Thread nD τ).loc b))

/-- Window `w`'s block at point `t`: the rectangle of its array (as the region finds it) that the index map selects. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched there or
    kept the earlier fetch (the index map did not move): for any proof data reading `V` that leaves inputs in place. -/
theorem staged0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem staged0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem staged0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body reads and writes. -/
abbrev rX : Rect S1x512x512 := Rect.unit (s := S1x512x512) ![0, 0, 0] S1x512x512.size inb_S1x512x512_S1x512x512_0_0_0
abbrev rW : Rect S512x3072 := Rect.unit (s := S512x3072) ![0, 0] S512x3072.size inb_S512x3072_S512x3072_0_0
abbrev rB : Rect S1x3072 := Rect.unit (s := S1x3072) ![0, 0] S1x3072.size inb_S1x3072_S1x3072_0_0
abbrev rQ : Rect S1x512x3072 := Rect.unit (s := S1x512x3072) ![0, 0, 0] S1x512x3072.size inb_S1x512x3072_S1x512x3072_0_0_0

/-- The output buffer after the body: one store of the projection of the three loaded blocks, over the whole buffer. -/
def proj0 (x : Vec F S1x512x512 .f32) (w : Vec F S512x3072 .bf16) (b : Vec F S1x3072 .f32) : Vec F S1x512x3072 .bf16 :=
  View.canon [⟨rQ, k0_pay1 (View.ld x rX) (View.ld w rW) (View.ld b rB)⟩]

theorem proj0_cover (p0 : Vec F S1x512x3072 .bf16) (y : S1x512x3072.Idx) :
    ∃ pc ∈ ([⟨rQ, p0⟩] : List (View.Piece (Elt F) S1x512x3072 .bf16)), y ∈ pc.1.set :=
  View.cover_of_tiled [⟨rQ, p0⟩] S1x512x3072.size (by rfl) y

set_option maxHeartbeats 1000000 in
/-- The body on whole staging buffers — the three inputs at known contents, the output at anything — returns the
    inputs untouched and the output at `proj0` of them. -/
theorem run_body0 (c : Dev nD) (E : Set ℕ) (i : grid0.Coords)
    (arg2 : Memref sig .tc .vmem S1x512x512 .f32) (harg2 : arg2.IsWhole) (arg3 : Memref sig .tc .vmem S512x3072 .bf16) (harg3 : arg3.IsWhole)
    (arg4 : Memref sig .tc .vmem S1x3072 .f32) (harg4 : arg4.IsWhole) (arg5 : Memref sig .tc .vmem S1x512x3072 .bf16) (harg5 : arg5.IsWhole)
    (x : Vec F S1x512x512 .f32) (w : Vec F S512x3072 .bf16) (b : Vec F S1x3072 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (proj0 x w b)) -∗ K ⟨⟩))
      ⊢ wp frame (wpE (defs₀ (F := F)) Variants.none c none) E (cc0__qkv_kernel i arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (proj0_cover _)

/-- The proof data of the first pipeline on core `c`: arrays as the region finds them; after the body each input
    buffer still at its block and the output buffer at the projection of the three blocks; nothing else changes hands. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => proj0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = proj0 (blk0 V c 0 t) (blk0 V c 1 t) (blk0 V c 2 t) := by dsimp only [dat0]

theorem dat0_before0 (c : Dev nD) (t : Fin cfg0.N) (d) : (dat0 V c).before 0 t d = blk0 V c 0 t :=
  staged0_0 V (dat0 V c) (dat0_A V c 0) (dat0_after0 V c) t d
theorem dat0_before1 (c : Dev nD) (t : Fin cfg0.N) (d) : (dat0 V c).before 1 t d = blk0 V c 1 t :=
  staged0_1 V (dat0 V c) (dat0_A V c 1) (dat0_after1 V c) t d
theorem dat0_before2 (c : Dev nD) (t : Fin cfg0.N) (d) : (dat0 V c).before 2 t d = blk0 V c 2 t :=
  staged0_2 V (dat0 V c) (dat0_A V c 2) (dat0_after2 V c) t d

/-- What the pipeline hands the body at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it expects back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (run_body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first pipeline, at every point. -/
theorem obligation0 (c : Dev nD) : BodyObligation (dat0 (F := F) V c) (defs₀ (F := F)) Variants.none () Set.univ := fun t => by
  rw [bigSep_W0, bigSep_W0]
  exact point0 V c t

end Cert.KernelIdeal.Hand

end
-- ==== Proof.KI.Region1.lean ====
import proofs.«404042_j23493471109327_3_alg».proof.Proof.Gen.KernelIdeal.Launch
import proofs.«404042_j23493471109327_3_alg».proof.Proof.Gen.KernelIdeal.Skeleton
import proofs.«404042_j23493471109327_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # The attention kernel (the second pallas_call), point by point

At grid point `t = (b, qi)` the body reads eight staged blocks — for each of the two heads a 512-row query slab and
the full 2048-row key and value slabs of batch `b`, all six of them column bands of ONE packed array, then the output
projection's weights and its bias column — and overwrites its output block (features × 512 query rows) with the
projected sum of the two heads' softmax-weighted values plus the bias. This module names the blocks, states what the
output buffer holds after the body as a function of the eight blocks, runs the body once against that statement, and
packages the per-point facts the launch asks for. Six windows read one array, so the proof data hold that array in
six shares that add up to the whole. Everything is stated for an arbitrary float instance. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents the region is entered with, per core: a parameter here, fixed by the run
variable (V : (c : Dev nD) → (b : Ref sig .tc) → Buf (Elt F) ((c : Thread nD τ).loc b))

/-- Window `w`'s block at point `t`: the rectangle of its array (as the region finds it) that the index map selects. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched there or kept
    an earlier fetch (the key, value, weight and bias windows move only when the batch changes, or never). -/
theorem staged1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem staged1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem staged1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem staged1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem staged1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem staged1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem staged1_6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)
theorem staged1_7 {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

/-- The whole-buffer rectangles the body reads and writes. -/
abbrev rq : Rect S1x512x512 := Rect.unit (s := S1x512x512) ![0, 0, 0] S1x512x512.size inb_S1x512x512_S1x512x512_0_0_0
abbrev rkv : Rect S1x2048x512 := Rect.unit (s := S1x2048x512) ![0, 0, 0] S1x2048x512.size inb_S1x2048x512_S1x2048x512_0_0_0
abbrev rwp : Rect S512x1024 := Rect.unit (s := S512x1024) ![0, 0] S512x1024.size inb_S512x1024_S512x1024_0_0
abbrev rbp : Rect S512x1 := Rect.unit (s := S512x1) ![0, 0] S512x1.size inb_S512x1_S512x1_0_0

/-- The output buffer after the body: one store, over the whole buffer, of the projected two-head attention of the
    eight loaded blocks (first head's output; second head's values, scaled scores and row maxima; weights; bias). -/
def attn1 (q1 : Vec F S1x512x512 .bf16) (k1 v1 : Vec F S1x2048x512 .bf16) (q2 : Vec F S1x512x512 .bf16) (k2 v2 : Vec F S1x2048x512 .bf16)
    (wo : Vec F S512x1024 .bf16) (bp : Vec F S512x1 .f32) : Vec F S1x512x512 .f32 :=
  View.canon [⟨rq, k1_pay1 (k1_pay2 (View.ld q1 rq) (View.ld k1 rkv) (View.ld v1 rkv)) (k1_pay3 (View.ld v2 rkv))
    (k1_pay4 (View.ld q2 rq) (View.ld k2 rkv)) (k1_pay5 (View.ld q2 rq) (View.ld k2 rkv)) (View.ld wo rwp) (View.ld bp rbp)⟩]

theorem attn1_cover (p0 : Vec F S1x512x512 .f32) (y : S1x512x512.Idx) :
    ∃ pc ∈ ([⟨rq, p0⟩] : List (View.Piece (Elt F) S1x512x512 .f32)), y ∈ pc.1.set :=
  View.cover_of_tiled [⟨rq, p0⟩] S1x512x512.size (by rfl) y

set_option maxHeartbeats 4000000 in
/-- The body on whole staging buffers — the eight inputs at known contents, the output at anything — returns the inputs
    untouched and the output at `attn1` of them. -/
theorem run_body1 (c : Dev nD) (E : Set ℕ) (i : grid1.Coords)
    (arg2 : Memref sig .tc .vmem S1x512x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x512x512 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S512x1024 .bf16) (harg8 : arg8.IsWhole) (arg9 : Memref sig .tc .vmem S512x1 .f32) (harg9 : arg9.IsWhole) (arg10 : Memref sig .tc .vmem S1x512x512 .f32) (harg10 : arg10.IsWhole)
    (q1 : Vec F S1x512x512 .bf16) (k1 v1 : Vec F S1x2048x512 .bf16) (q2 : Vec F S1x512x512 .bf16) (k2 v2 : Vec F S1x2048x512 .bf16)
    (wo : Vec F S512x1024 .bf16) (bp : Vec F S512x1 .f32) (K : PUnit → sProp 𝕄) :
    iprop(owns (c : Thread nD τ) arg2 fullShare q1 ∗ owns (c : Thread nD τ) arg3 fullShare k1 ∗ owns (c : Thread nD τ) arg4 fullShare v1
        ∗ owns (c : Thread nD τ) arg5 fullShare q2 ∗ owns (c : Thread nD τ) arg6 fullShare k2 ∗ owns (c : Thread nD τ) arg7 fullShare v2
        ∗ owns (c : Thread nD τ) arg8 fullShare wo ∗ owns (c : Thread nD τ) arg9 fullShare bp
        ∗ (∃ d, owns (c : Thread nD τ) arg10 fullShare d)
        ∗ (iprop(owns (c : Thread nD τ) arg2 fullShare q1 ∗ owns (c : Thread nD τ) arg3 fullShare k1 ∗ owns (c : Thread nD τ) arg4 fullShare v1
            ∗ owns (c : Thread nD τ) arg5 fullShare q2 ∗ owns (c : Thread nD τ) arg6 fullShare k2 ∗ owns (c : Thread nD τ) arg7 fullShare v2
            ∗ owns (c : Thread nD τ) arg8 fullShare wo ∗ owns (c : Thread nD τ) arg9 fullShare bp
            ∗ owns (c : Thread nD τ) arg10 fullShare (attn1 q1 k1 v1 q2 k2 v2 wo bp)) -∗ K ⟨⟩))
      ⊢ wp frame (wpE (defs₀ (F := F)) Variants.none c none) E
          (cc1__attn_proj_kernel i arg2 harg2 arg3 harg3 arg4 harg4 arg5 harg5 arg6 harg6 arg7 harg7 arg8 harg8 arg9 harg9 arg10 harg10) K := by
  simp only [cc1__attn_proj_kernel_eq_skeleton]; unfold cc1__attn_proj_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (attn1_cover _)

/-- The three-level halving of the whole share into six parts, one per window that reads the packed array. -/
abbrev sh0 : PosShare TreeShare := (fullShare : PosShare TreeShare).left.left
abbrev sh1 : PosShare TreeShare := (fullShare : PosShare TreeShare).left.right
abbrev sh2 : PosShare TreeShare := (fullShare : PosShare TreeShare).right.left.left
abbrev sh3 : PosShare TreeShare := (fullShare : PosShare TreeShare).right.left.right
abbrev sh4 : PosShare TreeShare := (fullShare : PosShare TreeShare).right.right.left
abbrev sh5 : PosShare TreeShare := (fullShare : PosShare TreeShare).right.right.right

/-- The proof data of the second pipeline on core `c`: arrays as the region finds them; after the body each input
    buffer still at its block and the output buffer at `attn1` of the eight blocks; the packed array held in six
    shares, the weights and the bias whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => attn1 (blk1 V c 0 t) (blk1 V c 1 t) (blk1 V c 2 t) (blk1 V c 3 t) (blk1 V c 4 t) (blk1 V c 5 t) (blk1 V c 6 t) (blk1 V c 7 t)
  Φ _ := Pipeline.ΦA spec1 c
  q w := match w with
    | ⟨0, _⟩ => sh0
    | ⟨1, _⟩ => sh1
    | ⟨2, _⟩ => sh2
    | ⟨3, _⟩ => sh3
    | ⟨4, _⟩ => sh4
    | ⟨5, _⟩ => sh5
    | ⟨6, _⟩ => fullShare
    | ⟨7, _⟩ => fullShare
    | ⟨8, _⟩ => fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) : (dat1 V c).after 7 t = blk1 V c 7 t := by dsimp only [dat1]
theorem dat1_after8 (c : Dev nD) (t : Fin cfg1.N) :
    (dat1 V c).after 8 t = attn1 (blk1 V c 0 t) (blk1 V c 1 t) (blk1 V c 2 t) (blk1 V c 3 t) (blk1 V c 4 t) (blk1 V c 5 t) (blk1 V c 6 t) (blk1 V c 7 t) := by
  dsimp only [dat1]

theorem dat1_before0 (c : Dev nD) (t : Fin cfg1.N) (d) : (dat1 V c).before 0 t d = blk1 V c 0 t :=
  staged1_0 V (dat1 V c) (dat1_A V c 0) (dat1_after0 V c) t d
theorem dat1_before1 (c : Dev nD) (t : Fin cfg1.N) (d) : (dat1 V c).before 1 t d = blk1 V c 1 t :=
  staged1_1 V (dat1 V c) (dat1_A V c 1) (dat1_after1 V c) t d
theorem dat1_before2 (c : Dev nD) (t : Fin cfg1.N) (d) : (dat1 V c).before 2 t d = blk1 V c 2 t :=
  staged1_2 V (dat1 V c) (dat1_A V c 2) (dat1_after2 V c) t d
theorem dat1_before3 (c : Dev nD) (t : Fin cfg1.N) (d) : (dat1 V c).before 3 t d = blk1 V c 3 t :=
  staged1_3 V (dat1 V c) (dat1_A V c 3) (dat1_after3 V c) t d
theorem dat1_before4 (c : Dev nD) (t : Fin cfg1.N) (d) : (dat1 V c).before 4 t d = blk1 V c 4 t :=
  staged1_4 V (dat1 V c) (dat1_A V c 4) (dat1_after4 V c) t d
theorem dat1_before5 (c : Dev nD) (t : Fin cfg1.N) (d) : (dat1 V c).before 5 t d = blk1 V c 5 t :=
  staged1_5 V (dat1 V c) (dat1_A V c 5) (dat1_after5 V c) t d
theorem dat1_before6 (c : Dev nD) (t : Fin cfg1.N) (d) : (dat1 V c).before 6 t d = blk1 V c 6 t :=
  staged1_6 V (dat1 V c) (dat1_A V c 6) (dat1_after6 V c) t d
theorem dat1_before7 (c : Dev nD) (t : Fin cfg1.N) (d) : (dat1 V c).before 7 t d = blk1 V c 7 t :=
  staged1_7 V (dat1 V c) (dat1_A V c 7) (dat1_after7 V c) t d

/-- What the pipeline hands the body at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it expects back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6, dat1_before7]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7, dat1_after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body1 c Set.univ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the second pipeline, at every point. -/
theorem obligation1 (c : Dev nD) : BodyObligation (dat1 (F := F) V c) (defs₀ (F := F)) Variants.none () Set.univ := fun t => by
  rw [bigSep_W1, bigSep_W1]
  exact point1 V c t

end Cert.KernelIdeal.Hand

end
-- ==== Proof.KI.Shares.lean ====
import proofs.«404042_j23493471109327_3_alg».proof.Proof.KI.Region1

/-! # One array behind six windows: splitting and rejoining its ownership

The attention kernel's six query / key / value windows all read the packed array. Entering the region, the core's whole
ownership of that array is cut into six shares, one per window (two halvings of the left half, three of the right); leaving
it, the six shares — all still at the contents the region found, since no window writes the array — are put back together.
The other three arrays (weights, bias, result) each sit behind one window and stay whole. -/

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-- The whole of a buffer is its six shares (left-left, left-right, and the four quarters of the right half). -/
theorem six_of_whole {ℓ : Loc nD τ sig} (f : Buf (Elt F) ℓ) :
    (ℓ ↦{fullShare} f : sProp 𝕄) ⊢ iprop((ℓ ↦{sh0} f) ∗ (ℓ ↦{sh1} f) ∗ (ℓ ↦{sh2} f) ∗ (ℓ ↦{sh3} f) ∗ (ℓ ↦{sh4} f) ∗ (ℓ ↦{sh5} f)) := by
  iintro H
  ihave H := (pointsTo_share (PosShare.mem_left_op_right (fullShare : PosShare TreeShare))).1 $$ H
  icases H with ⟨HL, HR⟩
  ihave HL := (pointsTo_share (PosShare.mem_left_op_right (fullShare : PosShare TreeShare).left)).1 $$ HL
  icases HL with ⟨H0, H1⟩
  ihave HR := (pointsTo_share (PosShare.mem_left_op_right (fullShare : PosShare TreeShare).right)).1 $$ HR
  icases HR with ⟨HRL, HRR⟩
  ihave HRL := (pointsTo_share (PosShare.mem_left_op_right (fullShare : PosShare TreeShare).right.left)).1 $$ HRL
  icases HRL with ⟨H2, H3⟩
  ihave HRR := (pointsTo_share (PosShare.mem_left_op_right (fullShare : PosShare TreeShare).right.right)).1 $$ HRR
  icases HRR with ⟨H4, H5⟩
  isplitl [H0]; · iexact H0
  isplitl [H1]; · iexact H1
  isplitl [H2]; · iexact H2
  isplitl [H3]; · iexact H3
  isplitl [H4]; · iexact H4
  iexact H5

/-- and the six shares at one contents are the whole. -/
theorem whole_of_six {ℓ : Loc nD τ sig} (f : Buf (Elt F) ℓ) :
    iprop((ℓ ↦{sh0} f) ∗ (ℓ ↦{sh1} f) ∗ (ℓ ↦{sh2} f) ∗ (ℓ ↦{sh3} f) ∗ (ℓ ↦{sh4} f) ∗ (ℓ ↦{sh5} f)) ⊢ (ℓ ↦{fullShare} f : sProp 𝕄) := by
  iintro ⟨H0, H1, H2, H3, H4, H5⟩
  ihave HL := (pointsTo_share (PosShare.mem_left_op_right (fullShare : PosShare TreeShare).left)).2 $$ [H0 H1]
  · isplitl [H0] <;> iassumption
  ihave HRL := (pointsTo_share (PosShare.mem_left_op_right (fullShare : PosShare TreeShare).right.left)).2 $$ [H2 H3]
  · isplitl [H2] <;> iassumption
  ihave HRR := (pointsTo_share (PosShare.mem_left_op_right (fullShare : PosShare TreeShare).right.right)).2 $$ [H4 H5]
  · isplitl [H4] <;> iassumption
  ihave HR := (pointsTo_share (PosShare.mem_left_op_right (fullShare : PosShare TreeShare).right)).2 $$ [HRL HRR]
  · isplitl [HRL] <;> iassumption
  iapply (pointsTo_share (PosShare.mem_left_op_right (fullShare : PosShare TreeShare))).2
  isplitl [HL] <;> iassumption

/-- The four distinct buffers behind the nine windows, each whole at contents `W`. -/
theorem buffers1 (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8)) := by
  unfold Pipeline.arrBufs
  exact bigSep_eq_bigSepL_of_eq [main_v5, main_v6, main_v7, main_v8] (by decide) (by decide) _

variable (V : (c : Dev nD) → (b : Ref sig .tc) → Buf (Elt F) ((c : Thread nD τ).loc b))

/-- The pipeline's arrays, window by window: six shares of the packed array, then the weights, the bias and the result whole. -/
theorem arrays1 (c : Dev nD) (G : (w : Fin cfg1.W) → Buf (Elt F) ((cfg1.win w).arr.view.loc (c.tc : Thread nD τ))) :
    ((dat1 V c).arrays G : sProp 𝕄)
      = iprop((((c : Thread nD τ).loc main_v5) ↦{sh0} G 0) ∗ (((c : Thread nD τ).loc main_v5) ↦{sh1} G 1) ∗ (((c : Thread nD τ).loc main_v5) ↦{sh2} G 2)
          ∗ (((c : Thread nD τ).loc main_v5) ↦{sh3} G 3) ∗ (((c : Thread nD τ).loc main_v5) ↦{sh4} G 4) ∗ (((c : Thread nD τ).loc main_v5) ↦{sh5} G 5)
          ∗ (((c : Thread nD τ).loc main_v6) ↦{fullShare} G 6) ∗ (((c : Thread nD τ).loc main_v7) ↦{fullShare} G 7) ∗ (((c : Thread nD τ).loc main_v8) ↦{fullShare} G 8)) := by
  have h : ((dat1 V c).arrays G : sProp 𝕄)
      = bigSep Finset.univ fun w : Fin cfg1.W => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- ENTRY. The four buffers whole at `V c` are the pipeline's arrays at their entry contents. -/
theorem arrays1_of_buffers (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [buffers1, arrays1]
  iintro ⟨H5, H6, H7, H8⟩
  ihave H := six_of_whole (F := F) (V c main_v5) $$ H5
  icases H with ⟨A0, A1, A2, A3, A4, A5⟩
  isplitl [A0]; · iexact A0
  isplitl [A1]; · iexact A1
  isplitl [A2]; · iexact A2
  isplitl [A3]; · iexact A3
  isplitl [A4]; · iexact A4
  isplitl [A5]; · iexact A5
  isplitl [H6]; · iexact H6
  isplitl [H7]; · iexact H7
  iexact H8

/-- EXIT. The pipeline's arrays at their final contents are the four buffers whole at any `W` that agrees with `V c` on
    the three arrays only read and holds the result array at what the write-backs left. -/
theorem buffers_of_arrays1 (c : Dev nD) (W : (b : Ref sig .tc) → Buf (Elt F) ((c : Thread nD τ).loc b))
    (h5 : W main_v5 = V c main_v5) (h6 : W main_v6 = V c main_v6) (h7 : W main_v7 = V c main_v7)
    (h8 : W main_v8 = (dat1 V c).arrAt 8 cfg1.N) :
    ((dat1 V c).arrays ((dat1 V c).arrAt · cfg1.N) : sProp 𝕄)
      ⊢ Pipeline.arrBufs (Ix := Unit) (Name := ℕ) (U := UR sig nD τ) (Lvl := ℕ) spec1 c W := by
  rw [buffers1, arrays1, h5, h6, h7, h8,
    (dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl, (dat1 V c).arrAt_in 6 rfl, (dat1 V c).arrAt_in 7 rfl]
  iintro ⟨A0, A1, A2, A3, A4, A5, H6, H7, H8⟩
  isplitl [A0 A1 A2 A3 A4 A5]
  · iapply (whole_of_six (F := F) (V c main_v5))
    isplitl [A0]; · iexact A0
    isplitl [A1]; · iexact A1
    isplitl [A2]; · iexact A2
    isplitl [A3]; · iexact A3
    isplitl [A4]; · iexact A4
    iexact A5
  isplitl [H6]; · iexact H6
  isplitl [H7]; · iexact H7
  iexact H8

end Cert.KernelIdeal.Hand

end
-- ==== Proof.KI.Run.lean ====
import proofs.«404042_j23493471109327_3_alg».proof.Proof.KI.Region0
import proofs.«404042_j23493471109327_3_alg».proof.Proof.KI.Shares
import proofs.«404042_j23493471109327_3_alg».proof.Proof.Gen.KernelIdeal.Regions

/-! # The whole run: host lines, the projection kernel, host lines, the attention kernel

The program's @main is four segments. This module follows the contents of every unscoped buffer through them — the launch
memory, then what the first stretch of host lines computes (the packed weights and bias), then the packed array as the
first kernel's write-backs leave it, then the output weights cast and the bias column reshaped, then the result array as the
second kernel's write-backs leave it — and runs the program once against that description: every fair execution ends, nothing
faults, and every unscoped buffer ends at the last description. The frame (arguments unchanged) and the result's value are
read off it. Everything is stated for an arbitrary float instance. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev mem0 : Dev nD → Valuation τ sig (Elt F) := fun c b => m ((c : Dev nD), b)
/-- After the first stretch of host lines (the first kernel's entry). -/
abbrev mem1 : Dev nD → Valuation τ sig (Elt F) := fun c => StableHlo.after hostOps0 (mem0 m c)
abbrev buf1 : (c : Dev nD) → (b : Ref sig .tc) → Buf (Elt F) ((c : Thread nD τ).loc b) := fun c b => mem1 m c b
/-- After the first kernel: its arrays at what the pipeline leaves (the inputs as entered, the packed array's write-backs
    folded), every other buffer as entered. -/
def mem2 (c : Dev nD) : Valuation τ sig (Elt F) :=
  Pipeline.withArrays spec0 c (mem1 m c) fun w => (dat0 (buf1 m) c).arrAt w cfg0.N
theorem mem2_arr (c : Dev nD) (w : Fin cfg0.W) :
    mem2 m c (Proc.devRef .tc (Pipeline.arrRef spec0 w)) = (dat0 (buf1 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
abbrev buf2 : (c : Dev nD) → (b : Ref sig .tc) → Buf (Elt F) ((c : Thread nD τ).loc b) := fun c b => mem2 m c b
theorem left0 (c : Dev nD) (w : Fin cfg0.W) : (dat0 (buf1 m) c).arrAt w cfg0.N = buf2 m c (Pipeline.arrRef spec0 w) :=
  (mem2_arr m c w).symm
theorem kept0 (c : Dev nD) : ∀ b, b ∉ Finset.univ.image (Pipeline.arrRef spec0) → buf2 m c b = buf1 m c b :=
  fun b hb => mem2_of_ne m c b fun w e => hb (Finset.mem_image.mpr ⟨w, Finset.mem_univ _, e⟩)
/-- After the second stretch of host lines (the second kernel's entry). -/
abbrev mem3 : Dev nD → Valuation τ sig (Elt F) := fun c => StableHlo.after hostOps1 (mem2 m c)
abbrev buf3 : (c : Dev nD) → (b : Ref sig .tc) → Buf (Elt F) ((c : Thread nD τ).loc b) := fun c b => mem3 m c b
/-- After the second kernel: the result array at what its write-backs leave, every other buffer as entered (the kernel's
    other arrays are only read). -/
def mem4 (c : Dev nD) : Valuation τ sig (Elt F) :=
  Function.update (mem3 m c) main_v8 ((dat1 (buf3 m) c).arrAt 8 cfg1.N)
abbrev buf4 : (c : Dev nD) → (b : Ref sig .tc) → Buf (Elt F) ((c : Thread nD τ).loc b) := fun c b => mem4 m c b
theorem mem4_v8 (c : Dev nD) : buf4 m c main_v8 = (dat1 (buf3 m) c).arrAt 8 cfg1.N := by
  unfold buf4 mem4; exact Function.update_self ..
theorem mem4_of_ne (c : Dev nD) (b : Ref sig .tc) (hb : b ≠ main_v8) : buf4 m c b = buf3 m c b := by
  unfold buf4 buf3 mem4
  exact Function.update_of_ne (StableHlo.devRef_ne_of_ne hb : (Proc.devRef .tc b : DevRef τ sig) ≠ Proc.devRef .tc main_v8) _ _
theorem kept1 (c : Dev nD) : ∀ b, b ∉ Finset.univ.image (Pipeline.arrRef spec1) → buf4 m c b = buf3 m c b :=
  fun b hb => mem4_of_ne m c b fun e => hb (Finset.mem_image.mpr ⟨8, Finset.mem_univ _, e.symm⟩)

/-! ## The second kernel's entry and exit: the packed array shared out and collected -/

theorem enter1 (c : Dev nD) :
    (StableHlo.held (c : Thread nD τ) (Pipeline.ucRefs τ sig) (mem3 m c) : sProp 𝕄)
      ⊢ iprop((dat1 (buf3 m) c).arrays ((dat1 (buf3 m) c).arrAt · 0)
          ∗ Pipeline.unscopedRest (Ix := Unit) (Name := ℕ) (U := UR sig nD τ) (Lvl := ℕ) spec1 c (buf3 m c)) := by
  have h := Pipeline.unscopedBufs_split₀ (Ix := Unit) (Name := ℕ) (U := UR sig nD τ) (Lvl := ℕ) cfgs 1 winFacts₀1.arr_unscoped c (buf3 m c)
  rw [Pipeline.unscopedBufs_held] at h
  rw [h]
  exact sep_mono (arrays1_of_buffers (buf3 m) c) .rfl

theorem leave1 (c : Dev nD) :
    iprop((dat1 (buf3 m) c).arrays ((dat1 (buf3 m) c).arrAt · cfg1.N)
        ∗ Pipeline.unscopedRest (Ix := Unit) (Name := ℕ) (U := UR sig nD τ) (Lvl := ℕ) spec1 c (buf3 m c))
      ⊢ (StableHlo.held (c : Thread nD τ) (Pipeline.ucRefs τ sig) (mem4 m c) : sProp 𝕄) := by
  have h := Pipeline.unscopedBufs_split₀ (Ix := Unit) (Name := ℕ) (U := UR sig nD τ) (Lvl := ℕ) cfgs 1 winFacts₀1.arr_unscoped c (buf4 m c)
  rw [Pipeline.unscopedBufs_held] at h
  rw [h]
  refine sep_mono (buffers_of_arrays1 (buf3 m) c (buf4 m c) (mem4_of_ne m c main_v5 (by decide)) (mem4_of_ne m c main_v6 (by decide))
    (mem4_of_ne m c main_v7 (by decide)) (mem4_v8 m c)) (Entails.of_eq ?_)
  unfold Pipeline.unscopedRest
  exact (bigSep_congr fun b hb => by rw [kept1 m c b (Finset.mem_sdiff.mp hb).2]).symm

/-! ## The proof data of both pipelines, and what rides along -/

abbrev tabs : (p : Fin 2) → (pcfgs (F := F) p).Adm := fun p => (cfgs p).toPCfg_adm
/-- Each pipeline's proof data at its own entry contents. -/
def pdats : (p : Fin 2) → (c : Dev nD) → Dat τ (Elt F) Unit ℕ (UR sig nD τ) ℕ (Pipeline.pin (pcfgs (F := F)) tabs p) c
  | ⟨0, _⟩ => fun c => dat0 (buf1 m) c
  | ⟨1, _⟩ => fun c => dat1 (buf3 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev side (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W side
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev last (c : Dev nD) : sProp 𝕄 := iprop(StableHlo.held (c : Thread nD τ) (Pipeline.ucRefs τ sig) (mem4 m c) ∗ ∃ r, prngReg c r)

/-! ## The two kernels as segments -/

set_option backward.isDefEq.respectTransparency.types false in
/-- The projection kernel: entered with every unscoped buffer at `mem1`, left at `mem2`. -/
def reg0 : Pipeline.RegionSeg (pcfgs (F := F)) tabs (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (buf1 m) c).loose
  hwaits := Pipeline.hwaits_of_owed_zero _ _ _ _ L lv 0 fun _ _ => rfl
  pre c := iprop(StableHlo.held (c : Thread nD τ) (Pipeline.ucRefs τ sig) (mem1 m c) ∗ side c)
  post c := iprop(StableHlo.held (c : Thread nD τ) (Pipeline.ucRefs τ sig) (mem2 m c) ∗ side c)
  X c := iprop(∃ r, prngReg c r)
  Y c := iprop(∃ r, prngReg c r)
  Z c := Pipeline.unscopedRest (Ix := Unit) (Name := ℕ) (U := UR sig nD τ) (Lvl := ℕ) spec0 c (buf1 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (buf1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (buf1 m c) (buf2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered with every unscoped buffer at `mem3`, left at `mem4`; the packed array goes in as six
    shares and comes back whole. -/
def reg1 : Pipeline.RegionSeg (pcfgs (F := F)) tabs (pdats m) () defs₀ 𝒱₀ L lv 1 where
  win := winFacts₀1
  block_pos := block_pos1
  stage_whole := stage_whole1
  K := PEmpty
  osem k := k.elim
  ho := Pipeline.OwnSemFacts.none _
  hbody c := (obligation1 (buf3 m) c).loose
  hwaits := Pipeline.hwaits_of_owed_zero _ _ _ _ L lv 1 fun _ _ => rfl
  pre c := iprop(StableHlo.held (c : Thread nD τ) (Pipeline.ucRefs τ sig) (mem3 m c) ∗ side c)
  post c := iprop(last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (buf3 m c)
  hentry c := by
    rw [Pipeline.ownSems0_none]
    iintro ⟨⟨Hub, Hp, HO⟩, -, -⟩
    ihave H := enter1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (buf3 m c))
        ⊢ (StableHlo.held (c : Thread nD τ) (Pipeline.ucRefs τ sig) (mem4 m c) : sProp 𝕄) := leave1 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) tabs (pdats m) () defs₀ 𝒱₀ L lv) :=
  [ .host (hostSeg hostOps0 hostOps0_sub hostOps0_fresh (mem0 m)),
    .region (reg0 m),
    .host (hostSeg hostOps1 hostOps1_sub hostOps1_fresh (mem2 m)),
    .region (reg1 m) ]
theorem main_is_segs (c : Dev nD) : main (F := F) c = Pipeline.Seg.run (segs m) := (main_chain c).trans (by chain_rfl)

set_option backward.isDefEq.respectTransparency.types false in
/-- From any memory with zero counters, every weakly fair execution of @main ends, nothing faulting, with every unscoped
    buffer of every core at `mem4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = mem4 m c b) :=
  Pipeline.θ_run_regions_kit (pcfgs (F := F)) tabs (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ side c)) (Tₙ := last m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem4 m c b)
    (hfin := fun c s' => by
      iintro ⟨⟨Hh, -⟩, HSI⟩
      unfold StableHlo.held
      imodintro
      iapply (pointsTo_read_all (Pipeline.ucRefs τ sig) (fun b => (((c : Thread nD τ)).1, b)) (mem4 m c) s')
      isplitl [Hh] <;> iassumption)
    (hQ := fun s h c => h c)

/-! ## No segment writes an argument -/

/-- A buffer that neither stretch of host lines writes, that is not the result array, and that the first kernel does not
    write back ends as launched. -/
theorem mem4_launch (c : Dev nD) (b : Ref sig .tc) (h8 : b ≠ main_v8) (h1 : b ∉ hostOps1_W)
    (h0 : (∀ w, Pipeline.arrRef spec0 w ≠ b) ∨ b = main_arg0) (hh : b ∉ hostOps0_W) :
    mem4 m c (Proc.devRef .tc b) = m ((c : Thread nD τ).loc b) := by
  refine (mem4_of_ne m c b h8).trans ?_
  refine (StableHlo.after_of_writes_sub hostOps1 _ hostOps1_writes h1).trans ?_
  have e : mem2 m c (Proc.devRef .tc b) = mem1 m c (Proc.devRef .tc b) := by
    rcases h0 with h0 | rfl
    · exact mem2_of_ne m c b h0
    · exact (mem2_arr m c 0).trans (((dat0 (buf1 m) c).arrAt_in 0 rfl _).trans (dat0_A (buf1 m) c 0))
  exact e.trans (StableHlo.after_of_writes_sub hostOps0 _ hostOps0_writes hh)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
    (h c _ (mem_uc main_arg0 (by decide))).trans (mem4_launch m c main_arg0 (by decide) (by decide) (Or.inr rfl) (by decide)),
    (h c _ (mem_uc main_arg1 (by decide))).trans (mem4_launch m c main_arg1 (by decide) (by decide) (Or.inl (by decide)) (by decide)),
    (h c _ (mem_uc main_arg2 (by decide))).trans (mem4_launch m c main_arg2 (by decide) (by decide) (Or.inl (by decide)) (by decide)),
    (h c _ (mem_uc main_arg3 (by decide))).trans (mem4_launch m c main_arg3 (by decide) (by decide) (Or.inl (by decide)) (by decide)),
    (h c _ (mem_uc main_arg4 (by decide))).trans (mem4_launch m c main_arg4 (by decide) (by decide) (Or.inl (by decide)) (by decide)),
    (h c _ (mem_uc main_arg5 (by decide))).trans (mem4_launch m c main_arg5 (by decide) (by decide) (Or.inl (by decide)) (by decide)),
    (h c _ (mem_uc main_arg6 (by decide))).trans (mem4_launch m c main_arg6 (by decide) (by decide) (Or.inl (by decide)) (by decide)),
    (h c _ (mem_uc main_arg7 (by decide))).trans (mem4_launch m c main_arg7 (by decide) (by decide) (Or.inl (by decide)) (by decide)),
    (h c _ (mem_uc main_arg8 (by decide))).trans (mem4_launch m c main_arg8 (by decide) (by decide) (Or.inl (by decide)) (by decide)),
    (h c _ (mem_uc main_arg9 (by decide))).trans (mem4_launch m c main_arg9 (by decide) (by decide) (Or.inl (by decide)) (by decide)),
    (h c _ (mem_uc main_arg10 (by decide))).trans (mem4_launch m c main_arg10 (by decide) (by decide) (Or.inl (by decide)) (by decide)),
    (h c _ (mem_uc main_arg11 (by decide))).trans (mem4_launch m c main_arg11 (by decide) (by decide) (Or.inl (by decide)) (by decide)),
    (h c _ (mem_uc main_arg12 (by decide))).trans (mem4_launch m c main_arg12 (by decide) (by decide) (Or.inl (by decide)) (by decide)),
    (h c _ (mem_uc main_arg13 (by decide))).trans (mem4_launch m c main_arg13 (by decide) (by decide) (Or.inl (by decide)) (by decide)),
    (h c _ (mem_uc main_arg14 (by decide))).trans (mem4_launch m c main_arg14 (by decide) (by decide) (Or.inl (by decide)) (by decide))⟩)
    (run_all m ρ)

/-- The run with the result named: the result array ends at what the second kernel's write-backs leave, the arguments as launched. -/
theorem run_value : θ_run defs (onTc (τ := τ) (main (F := F))) ⟨m, fun _ => 0, ρ⟩ (fun r => ∀ c : Dev nD,
      r.2.mem ((c.tc : Thread nD τ).loc main_v8) = (dat1 (buf3 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_v8 (by decide))).trans (mem4_v8 m c),
    (h c _ (mem_uc main_arg0 (by decide))).trans (mem4_launch m c main_arg0 (by decide) (by decide) (Or.inr rfl) (by decide)),
    (h c _ (mem_uc main_arg1 (by decide))).trans (mem4_launch m c main_arg1 (by decide) (by decide) (Or.inl (by decide)) (by decide)),
    (h c _ (mem_uc main_arg2 (by decide))).trans (mem4_launch m c main_arg2 (by decide) (by decide) (Or.inl (by decide)) (by decide)),
    (h c _ (mem_uc main_arg3 (by decide))).trans (mem4_launch m c main_arg3 (by decide) (by decide) (Or.inl (by decide)) (by decide)),
    (h c _ (mem_uc main_arg4 (by decide))).trans (mem4_launch m c main_arg4 (by decide) (by decide) (Or.inl (by decide)) (by decide)),
    (h c _ (mem_uc main_arg5 (by decide))).trans (mem4_launch m c main_arg5 (by decide) (by decide) (Or.inl (by decide)) (by decide)),
    (h c _ (mem_uc main_arg6 (by decide))).trans (mem4_launch m c main_arg6 (by decide) (by decide) (Or.inl (by decide)) (by decide)),
    (h c _ (mem_uc main_arg7 (by decide))).trans (mem4_launch m c main_arg7 (by decide) (by decide) (Or.inl (by decide)) (by decide)),
    (h c _ (mem_uc main_arg8 (by decide))).trans (mem4_launch m c main_arg8 (by decide) (by decide) (Or.inl (by decide)) (by decide)),
    (h c _ (mem_uc main_arg9 (by decide))).trans (mem4_launch m c main_arg9 (by decide) (by decide) (Or.inl (by decide)) (by decide)),
    (h c _ (mem_uc main_arg10 (by decide))).trans (mem4_launch m c main_arg10 (by decide) (by decide) (Or.inl (by decide)) (by decide)),
    (h c _ (mem_uc main_arg11 (by decide))).trans (mem4_launch m c main_arg11 (by decide) (by decide) (Or.inl (by decide)) (by decide)),
    (h c _ (mem_uc main_arg12 (by decide))).trans (mem4_launch m c main_arg12 (by decide) (by decide) (Or.inl (by decide)) (by decide)),
    (h c _ (mem_uc main_arg13 (by decide))).trans (mem4_launch m c main_arg13 (by decide) (by decide) (Or.inl (by decide)) (by decide)),
    (h c _ (mem_uc main_arg14 (by decide))).trans (mem4_launch m c main_arg14 (by decide) (by decide) (Or.inl (by decide)) (by decide))⟩)
    (run_all m ρ)

end Cert.KernelIdeal.Hand

end
-- ==== Proof.Spec.lean ====
import Idealize.ShloMosaic.PureOps.Ideal
import Idealize.ShloMosaic.PureOps.Ideal.Laws
import Idealize.ShloMosaic.Lib.ValueIdx

/-! # What both programs compute, entry by entry, on the extended reals

Two-head attention over a batch of 8 sequences of 2048 positions with 512 features: six affine maps of the features
(query, key, value for each head), per head the softmax over all positions of the scaled query–key products applied to
the values, and an affine map of the two heads' outputs side by side back to 512 features. Everything here is a plain
function of finite indices into the extended reals; no program is mentioned. -/

noncomputable section

namespace Cert.Spec

open Idealize.ShloMosaic

/-- The factor the scores are multiplied by: the single-precision number nearest to 1/√512, taken exactly. -/
def scale : EReal := Ideal.ofBits .f32 0x3D3504F3#32

/-- The value the running maximum starts from: the single-precision pattern of −∞. -/
def negInf : EReal := Ideal.ofBits .f32 0xFF800000#32

/-- One entry of an affine map: the products over the 512 features summed, plus the bias. -/
def lin (x w : Fin 512 → EReal) (bias : EReal) : EReal := (∑ f : Fin 512, x f * w f) + bias

/-- The scaled product of one query row with key row `s`. -/
def score (q : Fin 512 → EReal) (K : Fin 2048 → Fin 512 → EReal) (s : Fin 2048) : EReal :=
  (∑ a : Fin 512, q a * K s a) * scale

/-- The largest of a row of 2048 scores, taken from −∞. -/
def rowMax (r : Fin 2048 → EReal) : EReal := (Finset.univ : Finset (Fin 2048)).fold max negInf r

/-- The softmax weight of position `s` in a row of scores: the exponential of the score less the row's maximum, over
    the sum of those exponentials. -/
def weight (r : Fin 2048 → EReal) (s : Fin 2048) : EReal :=
  Ideal.div (Ideal.exp (r s - rowMax r)) (∑ s' : Fin 2048, Ideal.exp (r s' - rowMax r))

/-- One head's output for one query row: the values averaged with the softmax weights of the row's scores. -/
def attend (q : Fin 512 → EReal) (K V : Fin 2048 → Fin 512 → EReal) (a : Fin 512) : EReal :=
  ∑ s : Fin 2048, weight (score q K) s * V s a

/-- One entry of the output map: the first 512 weights against the first head's output, the last 512 against the
    second head's, and the bias. -/
def proj (w : Fin 1024 → EReal) (h1 h2 : Fin 512 → EReal) (bias : EReal) : EReal :=
  ((∑ a : Fin 512, w (Fin.castAdd 512 a) * h1 a) + ∑ a : Fin 512, w (Fin.natAdd 512 a) * h2 a) + bias

/-- Column `a` of band `j` (query, key, value of head one, then of head two) in the packed 3072-wide layout. -/
def col (j : Fin 6) (a : Fin 512) : Fin 3072 := ⟨512 * j.val + a.val, by have := j.isLt; have := a.isLt; omega⟩

/-- The programs' arguments as functions of coordinates: the input `x[b, f, t]`; the six weight matrices `W j a f` and
    bias vectors `bias j a` in the order query, key, value of head one, then of head two; the output map's weights
    `Wp f a'` (a' over the two heads' outputs side by side) and bias `bp f`. -/
structure Args where
  x : Fin 8 → Fin 512 → Fin 2048 → EReal
  W : Fin 6 → Fin 512 → Fin 512 → EReal
  bias : Fin 6 → Fin 512 → EReal
  Wp : Fin 512 → Fin 1024 → EReal
  bp : Fin 512 → EReal

/-- Band `j`'s affine map of position `t` of sequence `b`, entry `a`. -/
def qkvOf (A : Args) (j : Fin 6) (b : Fin 8) (t : Fin 2048) (a : Fin 512) : EReal :=
  lin (fun f => A.x b f t) (fun f => A.W j a f) (A.bias j a)

/-- Head `h`'s output row for position `t` of sequence `b`: its query row attends over the sequence's keys and values. -/
def headOf (A : Args) (h : Fin 2) (b : Fin 8) (t : Fin 2048) : Fin 512 → EReal :=
  attend (fun a => qkvOf A ⟨3 * h.val, by have := h.isLt; omega⟩ b t a)
    (fun s a => qkvOf A ⟨3 * h.val + 1, by have := h.isLt; omega⟩ b s a)
    (fun s a => qkvOf A ⟨3 * h.val + 2, by have := h.isLt; omega⟩ b s a)

/-- The result at `[b, f, t]`. -/
def outOf (A : Args) (b : Fin 8) (f : Fin 512) (t : Fin 2048) : EReal :=
  proj (A.Wp f) (headOf A 0 b t) (headOf A 1 b t) (A.bp f)

/-- The maximum taken once more against its own starting value changes nothing. -/
theorem max_negInf_rowMax (r : Fin 2048 → EReal) : max negInf (rowMax r) = rowMax r :=
  max_eq_right (Finset.le_fold_max negInf |>.mpr (Or.inl le_rfl))

/-- The output entry written over the two heads' outputs laid side by side (1024 wide), factor order swapped: a sum
    over 1024 splits into its two halves, and the products commute. -/
theorem proj_eq_concat (w : Fin (512 + 512) → EReal) (h1 h2 : Fin 512 → EReal) (bias : EReal) (mh : Fin (512 + 512) → EReal)
    (hlo : ∀ a : Fin 512, mh (Fin.castAdd 512 a) = h1 a) (hhi : ∀ a : Fin 512, mh (Fin.natAdd 512 a) = h2 a) :
    (∑ a' : Fin (512 + 512), mh a' * w a') + bias = proj w h1 h2 bias := by
  unfold proj
  rw [Fin.sum_univ_add]
  congr 2
  · exact Finset.sum_congr rfl fun a _ => by rw [hlo, mul_comm]
  · exact Finset.sum_congr rfl fun a _ => by rw [hhi, mul_comm]

end Cert.Spec

end
-- ==== Proof.KI.Value0.lean ====
import proofs.«404042_j23493471109327_3_alg».proof.Proof.KI.Region0
import proofs.«404042_j23493471109327_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! # What the projection kernel leaves in the packed array, entry by entry (exact reals)

Grid point (b, ti) writes rows 512·ti … 512·ti+511 of sequence b; the 32 points tile the array. Entry (b, t, n) is the
sum over the 512 features of x[b, f, t] times the packed weight (f, n), plus the packed bias n. -/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The product's operand indices

The product contracts the feature axis, axis 0 of both operands: at output position (r, n) and feature f the left
operand is read at (f, r) and the right operand at (f, n). -/

theorem lhs_proj_0 (i : S512x3072.Idx) (q : dot_S512x512_S512x3072_S512x3072_0_0_1_1_n_n.contr.Idx) :
    (dot_S512x512_S512x3072_S512x3072_0_0_1_1_n_n.lhsIdx i q 0).val = (q ⟨0, by decide⟩).val :=
  dot_S512x512_S512x3072_S512x3072_0_0_1_1_n_n.lhsIdx_val_of_single rfl i q
theorem lhs_proj_1 (i : S512x3072.Idx) (q : dot_S512x512_S512x3072_S512x3072_0_0_1_1_n_n.contr.Idx) :
    (dot_S512x512_S512x3072_S512x3072_0_0_1_1_n_n.lhsIdx i q 1).val = (i 0).val := by
  unfold DotDims.lhsIdx
  rw [dif_neg (show ¬(1 : Fin S512x512.rank) ∈ dot_S512x512_S512x3072_S512x3072_0_0_1_1_n_n.lhsBatch by decide), dif_pos (show (1 : Fin S512x512.rank) ∈ dot_S512x512_S512x3072_S512x3072_0_0_1_1_n_n.lhsNonContracting by decide)]
  rfl
theorem rhs_proj_0 (i : S512x3072.Idx) (q : dot_S512x512_S512x3072_S512x3072_0_0_1_1_n_n.contr.Idx) :
    (dot_S512x512_S512x3072_S512x3072_0_0_1_1_n_n.rhsIdx i q 0).val = (q ⟨0, by decide⟩).val :=
  dot_S512x512_S512x3072_S512x3072_0_0_1_1_n_n.rhsIdx_val_of_single rfl i q
theorem rhs_proj_1 (i : S512x3072.Idx) (q : dot_S512x512_S512x3072_S512x3072_0_0_1_1_n_n.contr.Idx) :
    (dot_S512x512_S512x3072_S512x3072_0_0_1_1_n_n.rhsIdx i q 1).val = (i 1).val := by
  unfold DotDims.rhsIdx
  rw [dif_neg (show ¬(1 : Fin S512x3072.rank) ∈ dot_S512x512_S512x3072_S512x3072_0_0_1_1_n_n.rhsBatch by decide), dif_pos (show (1 : Fin S512x3072.rank) ∈ dot_S512x512_S512x3072_S512x3072_0_0_1_1_n_n.rhsNonContracting by decide)]
  rfl

/-- The product at (r, n): the sum over the features of left (f, r) times right (f, n). -/
theorem matmul_at (l : FVec Ideal S512x512 .bf16) (w : FVec Ideal S512x3072 .bf16) (r : Fin 512) (n : Fin 3072) :
    matmul dot_S512x512_S512x3072_S512x3072_0_0_1_1_n_n none l w (constant (F := Ideal) S512x3072 .f32 0x00000000#32) (ix2 r n)
      = ∑ f : Fin 512, l (ix2 f r) * w (ix2 f n) := by
  refine (Ideal.matmul_constant_zero_apply dot_S512x512_S512x3072_S512x3072_0_0_1_1_n_n none l w (ix2 r n)).trans ?_
  rw [← Equiv.sum_comp (ValueIdx.contrEquiv1 dot_S512x512_S512x3072_S512x3072_0_0_1_1_n_n 512 rfl rfl).symm]
  refine Finset.sum_congr rfl fun k _ => ?_
  have hk := ValueIdx.contrEquiv1_symm_val dot_S512x512_S512x3072_S512x3072_0_0_1_1_n_n 512 rfl rfl k
  have el : dot_S512x512_S512x3072_S512x3072_0_0_1_1_n_n.lhsIdx (ix2 r n) ((ValueIdx.contrEquiv1 dot_S512x512_S512x3072_S512x3072_0_0_1_1_n_n 512 rfl rfl).symm k) = ix2 k r := funext fun a => Fin.ext (by
    match a with
    | ⟨0, _⟩ => exact (lhs_proj_0 _ _).trans hk
    | ⟨1, _⟩ => exact lhs_proj_1 _ _)
  have er : dot_S512x512_S512x3072_S512x3072_0_0_1_1_n_n.rhsIdx (ix2 r n) ((ValueIdx.contrEquiv1 dot_S512x512_S512x3072_S512x3072_0_0_1_1_n_n 512 rfl rfl).symm k) = ix2 k n := funext fun a => Fin.ext (by
    match a with
    | ⟨0, _⟩ => exact (rhs_proj_0 _ _).trans hk
    | ⟨1, _⟩ => exact rhs_proj_1 _ _)
  rw [el, er]

/-- The body's arithmetic at (0, r, n): the products of x[0, f, r] with the packed weight (f, n) summed over the
    features, plus the packed bias n. The format changes are the identity on extended reals. -/
theorem pay_at (x : Vec Ideal S1x512x512 .f32) (w : Vec Ideal S512x3072 .bf16) (b : Vec Ideal S1x3072 .f32)
    (r : Fin 512) (n : Fin 3072) :
    k0_pay1 (F := Ideal) x w b (ix3 (0 : Fin 1) r n)
      = (∑ f : Fin 512, x (ix3 (0 : Fin 1) f r) * w (ix2 f n)) + b (ix2 (0 : Fin 1) n) := by
  unfold k0_pay1
  rw [shapeCast_ab_1ab_apply, truncf_apply, addf_apply, matmul_at, shapeCast_self, shapeCast_self,
    broadcastTo_1b_ab_apply]
  congr 1
  refine Finset.sum_congr rfl fun f _ => ?_
  rw [truncf_apply, shapeCast_1ab_ab_apply]

-- the buffer contents the region is entered with, per core
variable (V : (c : Dev nD) → (b : Ref sig .tc) → Buf (Elt Ideal) ((c : Thread nD τ).loc b))

/-! ## From the blocks to the array

Grid point t = 4·b + ti reads slab (b, 0, ti) of x and the whole packed weights and bias, and writes block (b, ti, 0)
of the packed array: rows 512·ti … 512·ti + 511 of sequence b. What it writes is the restriction of one function of
the three arrays, and the 32 blocks cover the array. -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The packed array as one function of the three arrays the call reads: at (b, t, n) the products of x[b, f, t] with
    the packed weight (f, n) summed over the features, plus the packed bias n. -/
def packed (X : S8x512x2048.Idx → EReal) (W : S512x3072.Idx → EReal) (B : S1x3072.Idx → EReal)
    (i : S8x2048x3072.Idx) : EReal :=
  (∑ f : Fin 512, X (ix3 (⟨(i 0).val, (i 0).isLt⟩ : Fin 8) f (⟨(i 1).val, (i 1).isLt⟩ : Fin 2048))
      * W (ix2 f (⟨(i 2).val, (i 2).isLt⟩ : Fin 3072)))
    + B (ix2 (0 : Fin 1) (⟨(i 2).val, (i 2).isLt⟩ : Fin 3072))

/-- The body's arithmetic at any index of its block, the index given by its coordinates. -/
theorem pay_block (x : Vec Ideal S1x512x512 .f32) (w : Vec Ideal S512x3072 .bf16) (b : Vec Ideal S1x3072 .f32)
    (j : S1x512x3072.Idx) (r : Fin 512) (n : Fin 3072) (hr : (j 1).val = r.val) (hn : (j 2).val = n.val) :
    k0_pay1 (F := Ideal) x w b j
      = (∑ f : Fin 512, x (ix3 (0 : Fin 1) f r) * w (ix2 f n)) + b (ix2 (0 : Fin 1) n) := by
  have e : j = ix3 (0 : Fin 1) r n := by
    funext a; apply Fin.ext
    match a with
    | ⟨0, _⟩ => show (j 0).val = 0; have h : (j 0).val < 1 := (j 0).isLt; omega
    | ⟨1, _⟩ => exact hr
    | ⟨2, _⟩ => exact hn
  rw [e]; exact pay_at x w b r n

/-- Which block each window's index map names at point t, for all 32 grid points: t = 4·b + ti gives slab (b, 0, ti)
    of x, block (0, 0) of the packed weights and of the packed bias, and block (b, ti, 0) of the packed array. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0 :=
  (by decide +kernel : ∀ t : Fin grid0.N, _)

/-- The slab of x that point t reads, as entries of the array: sequence t / 4, all features, times 512·(t mod 4) onwards. -/
theorem slab_apply (c : Dev nD) (t : Fin cfg0.N) (y : S1x512x512.Idx) (k : S8x512x2048.Idx)
    (h0 : (k 0).val = t.val / 4) (h1 : (k 1).val = (y 1).val) (h2 : (k 2).val = 512 * (t.val % 4) + (y 2).val) :
    (blk0 V c 0 t : S1x512x512.Idx → EReal) y = (V c main_arg0 : S8x512x2048.Idx → EReal) k := by
  obtain ⟨e0, e1, e2, -⟩ := idx_facts t
  have hy0 : (y 0).val < 1 := (y 0).isLt
  unfold blk0
  show (V c main_arg0 : S8x512x2048.Idx → EReal) (((cfg0.win 0).blk t).view.emb y) = _
  refine congrArg (V c main_arg0 : S8x512x2048.Idx → EReal) (funext fun a => Fin.ext ?_)
  match a with
  | ⟨0, _⟩ => show win0_0.index t (0 : Fin 3) * 1 + 1 * (y 0).val = (k 0).val; omega
  | ⟨1, _⟩ => show win0_0.index t (1 : Fin 3) * 512 + 1 * (y 1).val = (k 1).val; omega
  | ⟨2, _⟩ => show win0_0.index t (2 : Fin 3) * 512 + 1 * (y 2).val = (k 2).val; omega

/-- The block of packed weights every point reads is the whole array. -/
theorem weights_apply (c : Dev nD) (t : Fin cfg0.N) (y k : S512x3072.Idx)
    (h0 : (k 0).val = (y 0).val) (h1 : (k 1).val = (y 1).val) :
    (blk0 V c 1 t : S512x3072.Idx → EReal) y = (V c main_v3 : S512x3072.Idx → EReal) k := by
  obtain ⟨-, -, -, e0, e1, -⟩ := idx_facts t
  unfold blk0
  show (V c main_v3 : S512x3072.Idx → EReal) (((cfg0.win 1).blk t).view.emb y) = _
  refine congrArg (V c main_v3 : S512x3072.Idx → EReal) (funext fun a => Fin.ext ?_)
  match a with
  | ⟨0, _⟩ => show win0_1.index t (0 : Fin 2) * 512 + 1 * (y 0).val = (k 0).val; omega
  | ⟨1, _⟩ => show win0_1.index t (1 : Fin 2) * 3072 + 1 * (y 1).val = (k 1).val; omega

/-- The block of the packed bias every point reads is the whole row. -/
theorem bias_apply (c : Dev nD) (t : Fin cfg0.N) (y k : S1x3072.Idx)
    (h0 : (k 0).val = (y 0).val) (h1 : (k 1).val = (y 1).val) :
    (blk0 V c 2 t : S1x3072.Idx → EReal) y = (V c main_v4 : S1x3072.Idx → EReal) k := by
  obtain ⟨-, -, -, -, -, e0, e1, -⟩ := idx_facts t
  unfold blk0
  show (V c main_v4 : S1x3072.Idx → EReal) (((cfg0.win 2).blk t).view.emb y) = _
  refine congrArg (V c main_v4 : S1x3072.Idx → EReal) (funext fun a => Fin.ext ?_)
  match a with
  | ⟨0, _⟩ => show win0_2.index t (0 : Fin 2) * 1 + 1 * (y 0).val = (k 0).val; omega
  | ⟨1, _⟩ => show win0_2.index t (1 : Fin 2) * 3072 + 1 * (y 1).val = (k 1).val; omega

/-- What point t computes at index j of its block is the packed array's function at the index of the array that
    j sits at: sequence t / 4, row 512·(t mod 4) + j₁, column j₂. -/
theorem point_eq (c : Dev nD) (t : Fin cfg0.N) (j : S1x512x3072.Idx) (i : S8x2048x3072.Idx)
    (h0 : (i 0).val = t.val / 4) (h1 : (i 1).val = 512 * (t.val % 4) + (j 1).val) (h2 : (i 2).val = (j 2).val) :
    k0_pay1 (F := Ideal) (blk0 V c 0 t) (blk0 V c 1 t) (blk0 V c 2 t) j
      = packed (V c main_arg0) (V c main_v3) (V c main_v4) i := by
  refine (pay_block (blk0 V c 0 t) (blk0 V c 1 t) (blk0 V c 2 t) j ⟨(j 1).val, (j 1).isLt⟩ ⟨(j 2).val, (j 2).isLt⟩ rfl rfl).trans ?_
  unfold packed
  refine congrArg₂ (· + ·) (Finset.sum_congr rfl fun f _ => congrArg₂ (· * ·) ?_ ?_) ?_
  · exact slab_apply V c t _ _ h0 rfl h1
  · exact weights_apply V c t _ _ rfl h2
  · exact bias_apply V c t _ _ rfl h2

/-- What point t writes back is block t of the packed array's function of the three arrays as the call finds them. -/
theorem flushed_eq (c : Dev nD) (t : Fin cfg0.N) :
    (dat0 V c).flushed 3 t
      = ((cfg0.win 3).blk t).view.read (Elt Ideal) (packed (V c main_arg0) (V c main_v3) (V c main_v4)) := by
  show (cfg0.win 3).cut (grid0.coords t) ((dat0 V c).after 3 t) = _
  rw [dat0_after3]
  unfold proj0
  rw [View.canon_unit_zero zeros3]
  simp only [View.ld_unit_zero (S := S1x512x512) zeros3, View.ld_unit_zero (S := S512x3072) zeros2,
    View.ld_unit_zero (S := S1x3072) zeros2]
  obtain ⟨-, -, -, -, -, -, -, e0, e1, e2⟩ := idx_facts t
  funext j
  refine point_eq V c t j (((cfg0.win 3).blk t).view.emb j) ?_ ?_ ?_
  · show win0_3.index t (0 : Fin 3) * 1 + 1 * (j 0).val = t.val / 4
    have hj : (j 0).val < 1 := (j 0).isLt
    omega
  · show win0_3.index t (1 : Fin 3) * 512 + 1 * (j 1).val = 512 * (t.val % 4) + (j 1).val
    omega
  · show win0_3.index t (2 : Fin 3) * 3072 + 1 * (j 2).val = (j 2).val
    omega

/-- An index of the packed array is in point t's block iff each coordinate is in the block's range on its axis. -/
theorem mem_blk (t : Fin cfg0.N) (i : S8x2048x3072.Idx) :
    i ∈ ((cfg0.win 3).blk t).view.set ↔ ∀ a : Fin 3, win0_3.index t a * S1x512x3072.size a ≤ (i a).val
      ∧ (i a).val < win0_3.index t a * S1x512x3072.size a + S1x512x3072.size a := by
  show i ∈ ((View.whole main_v5).slice (win0_3.rect t)).set ↔ _
  rw [View.set_slice_whole, Rect.mem_set_unit]
  exact Iff.rfl

/-- Row r of sequence b is in the block of point 4·b + r / 512. -/
theorem covered (i : S8x2048x3072.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 3072 := (i 2).isLt
  obtain ⟨t, ht⟩ : ∃ t : Fin cfg0.N, t.val = 4 * (i 0).val + (i 1).val / 512 :=
    ⟨⟨4 * (i 0).val + (i 1).val / 512, lt_of_lt_of_eq (by omega) N_0.symm⟩, rfl⟩
  obtain ⟨-, -, -, -, -, -, -, e0, e1, e2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 3072 ≤ (i 2).val ∧ (i 2).val < win0_3.index t (2 : Fin 3) * 3072 + 3072
    omega

/-- After the 32 points the packed array is that function of the three arrays. -/
theorem packed_final (c : Dev nD) :
    (dat0 V c).arrAt 3 cfg0.N = packed (V c main_arg0) (V c main_v3) (V c main_v4) :=
  (dat0 V c).arrAt_eq_of_cover 3 (packed (V c main_arg0) (V c main_v3) (V c main_v4))
    (fun t _ => flushed_eq V c t) covered

/-- After the first call the packed array holds at `(b, t, n)` the affine map of `x[b, ·, t]` with column `n` of the
    packed weights and entry `n` of the packed bias row. -/
theorem qkv_at (c : Dev nD) (b : Fin 8) (t : Fin 2048) (n : Fin 3072) :
    ((dat0 (F := Ideal) V c).arrAt 3 cfg0.N : S8x2048x3072.Idx → EReal) (ix3 b t n)
      = Cert.Spec.lin (fun f => (V c main_arg0 : S8x512x2048.Idx → EReal) (ix3 b f t))
          (fun f => (V c main_v3 : S512x3072.Idx → EReal) (ix2 f n))
          ((V c main_v4 : S1x3072.Idx → EReal) (ix2 0 n)) := by
  refine (congrFun (packed_final V c) (ix3 b t n)).trans ?_
  unfold packed Cert.Spec.lin
  rfl

end Cert.KernelIdeal.Hand

end
-- ==== Proof.KI.Value1a.lean ====
import proofs.«404042_j23493471109327_3_alg».proof.Proof.Gen.KernelIdeal.Skeleton
import proofs.«404042_j23493471109327_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! # The attention body's arithmetic, entry by entry (exact reals)

The body of the second call, as one pure term over its eight loaded blocks, read at one entry of its result: row `f`
of the output weights against the two heads' attention outputs for query row `r`, plus the bias entry `f`. On the way:
the three kinds of matrix product as plain sums over their one contracted axis, the two row reductions (sum, maximum)
as a sum and a fold over the row, and the small layout steps (a column kept as a one-wide matrix, then spread over a
row; the two halves of the output weights). -/

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-! ## Layout steps at an entry -/

/-- A vector of length `a` viewed as an `a × 1` matrix reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over `b` columns reads, at `(p, c)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three matrix products at an entry: a sum over the one contracted axis -/

theorem lhs_qk_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_qk_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem rhs_qk_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_qk_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- Queries against keys: entry `(r, s)` is the sum over the 512 features of query row `r` times key row `s`. -/
theorem matmul_qk_apply (A : FVec Ideal S512x512 .bf16) (B : FVec Ideal S2048x512 .bf16) (r : Fin 512) (s : Fin 2048) :
    matmul dot_S512x512_S2048x512_S512x2048_1_1_0_0_n_n none A B (constant (F := Ideal) S512x2048 .f32 0x00000000#32) (ix2 r s)
      = ∑ a : Fin 512, A (ix2 r a) * B (ix2 s a) := by
  refine (Ideal.matmul_constant_zero_apply dot_S512x512_S2048x512_S512x2048_1_1_0_0_n_n none A B (ix2 r s)).trans ?_
  rw [← Equiv.sum_comp (ValueIdx.contrEquiv1 dot_S512x512_S2048x512_S512x2048_1_1_0_0_n_n 512 rfl rfl).symm]
  refine Finset.sum_congr rfl fun k _ => ?_
  have hk := ValueIdx.contrEquiv1_symm_val dot_S512x512_S2048x512_S512x2048_1_1_0_0_n_n 512 rfl rfl k
  have el : dot_S512x512_S2048x512_S512x2048_1_1_0_0_n_n.lhsIdx (ix2 r s) ((ValueIdx.contrEquiv1 dot_S512x512_S2048x512_S512x2048_1_1_0_0_n_n 512 rfl rfl).symm k) = ix2 r k := funext fun a => Fin.ext (by
    match a with
    | ⟨0, _⟩ => exact lhs_qk_0 _ _
    | ⟨1, _⟩ => exact (lhs_qk_1 _ _).trans hk)
  have er : dot_S512x512_S2048x512_S512x2048_1_1_0_0_n_n.rhsIdx (ix2 r s) ((ValueIdx.contrEquiv1 dot_S512x512_S2048x512_S512x2048_1_1_0_0_n_n 512 rfl rfl).symm k) = ix2 s k := funext fun a => Fin.ext (by
    match a with
    | ⟨0, _⟩ => exact rhs_qk_0 _ _
    | ⟨1, _⟩ => exact (rhs_qk_1 _ _).trans hk)
  rw [el, er]

theorem lhs_pv_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_pv_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_pv_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_pv_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- Weights against values: entry `(r, a)` is the sum over the 2048 positions of weight `(r, s)` times value `(s, a)`. -/
theorem matmul_pv_apply (A : FVec Ideal S512x2048 .bf16) (B : FVec Ideal S2048x512 .bf16) (r a : Fin 512) :
    matmul dot_S512x2048_S2048x512_S512x512_1_0_0_1_n_n none A B (constant (F := Ideal) S512x512 .f32 0x00000000#32) (ix2 r a)
      = ∑ s : Fin 2048, A (ix2 r s) * B (ix2 s a) := by
  refine (Ideal.matmul_constant_zero_apply dot_S512x2048_S2048x512_S512x512_1_0_0_1_n_n none A B (ix2 r a)).trans ?_
  rw [← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 r a) ((ValueIdx.contrEquiv1 dot_S512x2048_S2048x512_S512x512_1_0_0_1_n_n 2048 rfl rfl).symm k) = ix2 r k := funext fun ax => Fin.ext (by
    match ax with
    | ⟨0, _⟩ => exact lhs_pv_0 _ _
    | ⟨1, _⟩ => exact (lhs_pv_1 _ _).trans hk)
  have er : dot_S512x2048_S2048x512_S512x512_1_0_0_1_n_n.rhsIdx (ix2 r a) ((ValueIdx.contrEquiv1 dot_S512x2048_S2048x512_S512x512_1_0_0_1_n_n 2048 rfl rfl).symm k) = ix2 k a := funext fun ax => Fin.ext (by
    match ax with
    | ⟨0, _⟩ => exact (rhs_pv_0 _ _).trans hk
    | ⟨1, _⟩ => exact rhs_pv_1 _ _)
  rw [el, er]

theorem lhs_wh_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_wh_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_wh_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_wh_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- Output weights against a head's output: entry `(f, r)` is the sum over the head's 512 features of weight `(f, a)`
    times the head's output `(r, a)`. -/
theorem matmul_wh_apply (A : FVec Ideal S512x512 .bf16) (B : FVec Ideal S512x512 .bf16) (f r : Fin 512) :
    matmul dot_S512x512_S512x512_S512x512_1_1_0_0_n_n none A B (constant (F := Ideal) S512x512 .f32 0x00000000#32) (ix2 f r)
      = ∑ a : Fin 512, A (ix2 f a) * B (ix2 r a) := by
  refine (Ideal.matmul_constant_zero_apply dot_S512x512_S512x512_S512x512_1_1_0_0_n_n none A B (ix2 f r)).trans ?_
  rw [← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 f r) ((ValueIdx.contrEquiv1 dot_S512x512_S512x512_S512x512_1_1_0_0_n_n 512 rfl rfl).symm k) = ix2 f k := funext fun ax => Fin.ext (by
    match ax with
    | ⟨0, _⟩ => exact lhs_wh_0 _ _
    | ⟨1, _⟩ => exact (lhs_wh_1 _ _).trans hk)
  have er : dot_S512x512_S512x512_S512x512_1_1_0_0_n_n.rhsIdx (ix2 f r) ((ValueIdx.contrEquiv1 dot_S512x512_S512x512_S512x512_1_1_0_0_n_n 512 rfl rfl).symm k) = ix2 r k := funext fun ax => Fin.ext (by
    match ax with
    | ⟨0, _⟩ => exact rhs_wh_0 _ _
    | ⟨1, _⟩ => exact (rhs_wh_1 _ _).trans hk)
  rw [el, er]

/-! ## The two row reductions at an entry -/

/-- The reduced index `r` with the position `s` put back on the reduced axis is `(r, s)`. -/
theorem lift_row (r : Fin 512) (s : Fin 2048) : reduces_S512x2048_S512.lift (ix1 r) s = ix2 r s :=
  funext fun ax => Fin.ext (by
    match ax with
    | ⟨0, _⟩ => rfl
    | ⟨1, _⟩ => rfl)

/-- A row's sum. -/
theorem rowsum_apply (src : FVec Ideal S512x2048 .f32) (r : Fin 512) :
    multiReduction .add [1] S512 src 0x00000000#32 reduces_S512x2048_S512 (.inl rfl) rfl (ix1 r) = ∑ s : Fin 2048, src (ix2 r s) := by
  refine (Ideal.multiReduction_add_single src 0x00000000#32 reduces_S512x2048_S512 (.inl rfl) rfl (ix1 r)).trans ?_
  exact Finset.sum_congr rfl fun s _ => congrArg src (lift_row r s)

/-- A row's maximum, taken from −∞. -/
theorem rowmax_apply (src : FVec Ideal S512x2048 .f32) (r : Fin 512) :
    multiReduction .maximumf [1] S512 src 0xFF800000#32 reduces_S512x2048_S512 (.inl rfl) rfl (ix1 r) = Cert.Spec.rowMax (fun s => src (ix2 r s)) := by
  refine (Ideal.multiReduction_maximumf_single src 0xFF800000#32 reduces_S512x2048_S512 (.inl rfl) rfl (ix1 r)).trans ?_
  have e : (src ∘ reduces_S512x2048_S512.lift (ix1 r)) = fun s : Fin 2048 => src (ix2 r s) := funext fun s => congrArg src (lift_row r s)
  rw [e]
  rfl

/-! ## The softmax of a row of scores applied to the values (shared by the two heads) -/

/-- Scores `S`, their row maxima `m` kept as a column, values `Vv`: the exponentials of the scores less the row's
    maximum, divided by their row sum, times the values — entry `(r, a)` is the weighted sum over the positions. -/
theorem softmax_pv_apply (S : FVec Ideal S512x2048 .f32) (m : FVec Ideal S512x1 .f32) (Vv : FVec Ideal S2048x512 .bf16)
    (hm : ∀ r : Fin 512, m (ix2 r (0 : Fin 1)) = Cert.Spec.rowMax (fun s => S (ix2 r s))) (r a : Fin 512) :
    truncf .bf16 (matmul dot_S512x2048_S2048x512_S512x512_1_0_0_1_n_n none
        (truncf .bf16 (divf (exp (subf S (broadcastTo S512x2048 m broadcasts_S512x1_S512x2048)))
          (broadcastTo S512x2048 (shapeCast S512x1 (multiReduction .add [1] S512 (exp (subf S (broadcastTo S512x2048 m broadcasts_S512x1_S512x2048))) 0x00000000#32 reduces_S512x2048_S512 (.inl rfl) rfl) shapeCasts_S512_S512x1) broadcasts_S512x1_S512x2048)) bitsLt_bf16_f32)
        Vv (constant (F := Ideal) S512x512 .f32 0x00000000#32)) bitsLt_bf16_f32 (ix2 r a)
      = ∑ s : Fin 2048, Cert.Spec.weight (fun s => S (ix2 r s)) s * Vv (ix2 s a) := by
  have he : ∀ s' : Fin 2048, exp (subf S (broadcastTo S512x2048 m broadcasts_S512x1_S512x2048)) (ix2 r s')
      = Ideal.exp (S (ix2 r s') - Cert.Spec.rowMax (fun s => S (ix2 r s))) := fun s' => by
    show Ideal.exp (S (ix2 r s') - broadcastTo S512x2048 m broadcasts_S512x1_S512x2048 (ix2 r s')) = _
    rw [broadcastTo_a1_ab_apply, hm]
  rw [truncf_apply, matmul_pv_apply]
  refine Finset.sum_congr rfl fun s _ => ?_
  refine congrArg₂ (· * ·) ?_ rfl
  rw [truncf_apply, divf_apply, broadcastTo_a1_ab_apply, shapeCast_a_a1_apply, rowsum_apply, he]
  unfold Cert.Spec.weight
  exact congrArg (Ideal.div _) (Finset.sum_congr rfl fun s' _ => he s')

/-! ## The payloads at an entry -/

/-- Head two's scaled scores: entry `(r, s)` is the score of query row `r` against key row `s`. -/
theorem pay4_apply (q : Vec Ideal S1x512x512 .bf16) (k : Vec Ideal S1x2048x512 .bf16) (r : Fin 512) (s : Fin 2048) :
    k1_pay4 (F := Ideal) q k (ix2 r s)
      = Cert.Spec.score (fun a => q (ix3 (0 : Fin 1) r a)) (fun s a => k (ix3 (0 : Fin 1) s a)) s := by
  unfold k1_pay4
  rw [mulf_apply, matmul_qk_apply, broadcast_apply]
  unfold Cert.Spec.score Cert.Spec.scale
  refine congrArg₂ (· * ·) (Finset.sum_congr rfl fun a _ => ?_) rfl
  rw [shapeCast_1ab_ab_apply, shapeCast_1ab_ab_apply]

/-- Head two's row maxima, kept as a column: entry `r` is the largest score of row `r`. -/
theorem pay5_apply (q : Vec Ideal S1x512x512 .bf16) (k : Vec Ideal S1x2048x512 .bf16) (r : Fin 512) :
    k1_pay5 (F := Ideal) q k (ix2 r (0 : Fin 1)) = Cert.Spec.rowMax (fun s => k1_pay4 (F := Ideal) q k (ix2 r s)) := by
  unfold k1_pay5
  rw [shapeCast_a_a1_apply, rowmax_apply]

/-- Head two's values with the unit axis dropped. -/
theorem pay3_apply (v : Vec Ideal S1x2048x512 .bf16) (s : Fin 2048) (a : Fin 512) :
    k1_pay3 (F := Ideal) v (ix2 s a) = v (ix3 (0 : Fin 1) s a) := by
  unfold k1_pay3
  exact shapeCast_1ab_ab_apply v _ s a

/-- Head one's output: entry `(r, a)` is query row `r` attending over all the keys and values, feature `a`. -/
theorem pay2_apply (q : Vec Ideal S1x512x512 .bf16) (k v : Vec Ideal S1x2048x512 .bf16) (r a : Fin 512) :
    k1_pay2 (F := Ideal) q k v (ix2 r a)
      = Cert.Spec.attend (fun a => q (ix3 (0 : Fin 1) r a)) (fun s a => k (ix3 (0 : Fin 1) s a)) (fun s a => v (ix3 (0 : Fin 1) s a)) a := by
  unfold k1_pay2
  refine (softmax_pv_apply _ _ _ (fun r' => ?_) r a).trans ?_
  · rw [shapeCast_a_a1_apply, rowmax_apply]
  · unfold Cert.Spec.attend
    have hs : (fun s => mulf (matmul dot_S512x512_S2048x512_S512x2048_1_1_0_0_n_n none (shapeCast S512x512 q shapeCasts_S1x512x512_S512x512)
          (shapeCast S2048x512 k shapeCasts_S1x2048x512_S2048x512) (constant (F := Ideal) S512x2048 .f32 0x00000000#32))
          (broadcast S512x2048 (Scalar.ofBits (F := Ideal) .f32 0x3D3504F3#32)) (ix2 r s))
        = Cert.Spec.score (fun a => q (ix3 (0 : Fin 1) r a)) (fun s a => k (ix3 (0 : Fin 1) s a)) :=
      funext fun s => pay4_apply q k r s
    rw [hs]
    exact Finset.sum_congr rfl fun s _ => by rw [shapeCast_1ab_ab_apply]

/-- The result block over any first head's output `h1`, second head's values `vv`, scores `S` and row maxima `m`:
    entry `(0, f, r)` is row `f` of the output weights, first half against `h1`'s row `r`, second half against the
    softmax of `S`'s row `r` applied to `vv`, plus the bias entry `f`. -/
theorem pay1_core (h1 : FVec Ideal S512x512 .bf16) (vv : FVec Ideal S2048x512 .bf16) (S : FVec Ideal S512x2048 .f32) (m : FVec Ideal S512x1 .f32)
    (wo : Vec Ideal S512x1024 .bf16) (bp : Vec Ideal S512x1 .f32)
    (hm : ∀ r : Fin 512, m (ix2 r (0 : Fin 1)) = Cert.Spec.rowMax (fun s => S (ix2 r s))) (f r : Fin 512) :
    k1_pay1 (F := Ideal) h1 vv S m wo bp (ix3 (0 : Fin 1) f r)
      = Cert.Spec.proj (fun a' => wo (ix2 f a')) (fun a => h1 (ix2 r a))
          (fun a => ∑ s : Fin 2048, Cert.Spec.weight (fun s => S (ix2 r s)) s * vv (ix2 s a)) (bp (ix2 f (0 : Fin 1))) := by
  unfold k1_pay1
  rw [shapeCast_ab_1ab_apply, addf_apply, addf_apply, broadcastTo_a1_ab_apply, shapeCast_self bp, matmul_wh_apply, matmul_wh_apply]
  unfold Cert.Spec.proj
  refine congrArg₂ (· + ·) (congrArg₂ (· + ·) (Finset.sum_congr rfl fun a _ => ?_) (Finset.sum_congr rfl fun a _ => ?_)) rfl
  · rw [slice2_axis1_apply 0 _ _ f a (Fin.castAdd 512 a) (Nat.zero_add _).symm, shapeCast_self]
  · rw [slice2_axis1_apply 512 _ _ f a (Fin.natAdd 512 a) rfl, shapeCast_self, softmax_pv_apply S m vv hm r a]

/-- The result block of the eight loaded blocks: entry `(0, f, r)` is the output entry of the two heads' attention
    outputs for query row `r`. -/
theorem pay1_apply (q1 : Vec Ideal S1x512x512 .bf16) (k1 v1 : Vec Ideal S1x2048x512 .bf16) (q2 : Vec Ideal S1x512x512 .bf16)
    (k2 v2 : Vec Ideal S1x2048x512 .bf16) (wo : Vec Ideal S512x1024 .bf16) (bp : Vec Ideal S512x1 .f32) (f r : Fin 512) :
    k1_pay1 (F := Ideal) (k1_pay2 q1 k1 v1) (k1_pay3 v2) (k1_pay4 q2 k2) (k1_pay5 q2 k2) wo bp (ix3 (0 : Fin 1) f r)
      = Cert.Spec.proj (fun a' => wo (ix2 f a'))
          (Cert.Spec.attend (fun a => q1 (ix3 (0 : Fin 1) r a)) (fun s a => k1 (ix3 (0 : Fin 1) s a)) (fun s a => v1 (ix3 (0 : Fin 1) s a)))
          (Cert.Spec.attend (fun a => q2 (ix3 (0 : Fin 1) r a)) (fun s a => k2 (ix3 (0 : Fin 1) s a)) (fun s a => v2 (ix3 (0 : Fin 1) s a)))
          (bp (ix2 f (0 : Fin 1))) := by
  refine (pay1_core _ _ _ _ wo bp (fun r' => pay5_apply q2 k2 r') f r).trans ?_
  have e1 : (fun a => k1_pay2 (F := Ideal) q1 k1 v1 (ix2 r a))
      = Cert.Spec.attend (fun a => q1 (ix3 (0 : Fin 1) r a)) (fun s a => k1 (ix3 (0 : Fin 1) s a)) (fun s a => v1 (ix3 (0 : Fin 1) s a)) :=
    funext fun a => pay2_apply q1 k1 v1 r a
  have es : (fun s => k1_pay4 (F := Ideal) q2 k2 (ix2 r s))
      = Cert.Spec.score (fun a => q2 (ix3 (0 : Fin 1) r a)) (fun s a => k2 (ix3 (0 : Fin 1) s a)) :=
    funext fun s => pay4_apply q2 k2 r s
  have e2 : (fun a => ∑ s : Fin 2048, Cert.Spec.weight (fun s => k1_pay4 (F := Ideal) q2 k2 (ix2 r s)) s * k1_pay3 (F := Ideal) v2 (ix2 s a))
      = Cert.Spec.attend (fun a => q2 (ix3 (0 : Fin 1) r a)) (fun s a => k2 (ix3 (0 : Fin 1) s a)) (fun s a => v2 (ix3 (0 : Fin 1) s a)) := by
    funext a
    unfold Cert.Spec.attend
    rw [es]
    exact Finset.sum_congr rfl fun s _ => by rw [pay3_apply]
  rw [e1, e2]

end Cert.KernelIdeal.Hand

end
-- ==== Proof.KI.Value1.lean ====
import proofs.«404042_j23493471109327_3_alg».proof.Proof.KI.Region1
import proofs.«404042_j23493471109327_3_alg».proof.Proof.KI.Value1a
import proofs.«404042_j23493471109327_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! # What the attention kernel leaves in the result array, entry by entry (exact reals)

Grid point (b, qi) writes columns 512·qi … 512·qi+511 (query positions) of sequence b, all 512 features; the 32 points
tile the array. Entry (b, f, t) is the output map's row f against the two heads' outputs for query position t of sequence
b, plus the bias f; each head's output is its query row attending over all 2048 key and value rows of the sequence, the
six of them column bands of the packed array. -/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the buffer contents the region is entered with, per core
variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## Where each block sits: the index maps over the 32 points

Point `t` is sequence `t / 4`, query slab `t % 4`. The two query windows move with both; the four key and value
windows with the sequence only; the weights and the bias never; the result's block is the sequence's columns of the
slab. The last axis of the six packed windows is the band. -/

theorem idx_q1 : ∀ t : Fin cfg1.N,
    win1_0.index t (0 : Fin 3) = t.val / 4 ∧ win1_0.index t (1 : Fin 3) = t.val % 4 ∧ win1_0.index t (2 : Fin 3) = 0
    ∧ win1_3.index t (0 : Fin 3) = t.val / 4 ∧ win1_3.index t (1 : Fin 3) = t.val % 4 ∧ win1_3.index t (2 : Fin 3) = 3 :=
  (by decide +kernel : ∀ t : Fin grid1.N, _)

theorem idx_kv1 : ∀ t : Fin cfg1.N,
    win1_1.index t (0 : Fin 3) = t.val / 4 ∧ win1_1.index t (1 : Fin 3) = 0 ∧ win1_1.index t (2 : Fin 3) = 1
    ∧ win1_2.index t (0 : Fin 3) = t.val / 4 ∧ win1_2.index t (1 : Fin 3) = 0 ∧ win1_2.index t (2 : Fin 3) = 2
    ∧ win1_4.index t (0 : Fin 3) = t.val / 4 ∧ win1_4.index t (1 : Fin 3) = 0 ∧ win1_4.index t (2 : Fin 3) = 4
    ∧ win1_5.index t (0 : Fin 3) = t.val / 4 ∧ win1_5.index t (1 : Fin 3) = 0 ∧ win1_5.index t (2 : Fin 3) = 5 :=
  (by decide +kernel : ∀ t : Fin grid1.N, _)

theorem idx_wb1 : ∀ t : Fin cfg1.N,
    win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem idx_out1 : ∀ t : Fin cfg1.N,
    win1_8.index t (0 : Fin 3) = t.val / 4 ∧ win1_8.index t (1 : Fin 3) = 0 ∧ win1_8.index t (2 : Fin 3) = t.val % 4 :=
  (by decide +kernel : ∀ t : Fin grid1.N, _)

/-! ## The eight input blocks as entries of their arrays -/

theorem blk1_0_apply (c : Dev nD) (t : Fin cfg1.N) (b : Fin 8) (tq : Fin 2048) (r a : Fin 512)
    (hb : b.val = t.val / 4) (hq : tq.val = (t.val % 4) * 512 + r.val) :
    (blk1 (F := Ideal) V c 0 t : S1x512x512.Idx → EReal) (ix3 (0 : Fin 1) r a)
      = (V c main_v5 : S8x2048x3072.Idx → EReal) (ix3 b tq (Cert.Spec.col 0 a)) := by
  have e0 : win1_0.index t (0 : Fin 3) = t.val / 4 := (idx_q1 t).1
  have e1 : win1_0.index t (1 : Fin 3) = t.val % 4 := (idx_q1 t).2.1
  have e2 : win1_0.index t (2 : Fin 3) = 0 := (idx_q1 t).2.2.1
  unfold blk1
  rw [View.read_apply]
  show (V c main_v5 : S8x2048x3072.Idx → EReal) (((cfg1.win 0).blk t).view.emb (ix3 (0 : Fin 1) r a)) = _
  refine congrArg _ (funext fun ax => Fin.ext ?_)
  match ax with
  | ⟨0, _⟩ => show win1_0.index t (0 : Fin 3) * 1 + 1 * 0 = b.val; omega
  | ⟨1, _⟩ => show win1_0.index t (1 : Fin 3) * 512 + 1 * r.val = tq.val; omega
  | ⟨2, _⟩ => show win1_0.index t (2 : Fin 3) * 512 + 1 * a.val = 512 * 0 + a.val; omega

theorem blk1_1_apply (c : Dev nD) (t : Fin cfg1.N) (b : Fin 8) (s : Fin 2048) (a : Fin 512) (hb : b.val = t.val / 4) :
    (blk1 (F := Ideal) V c 1 t : S1x2048x512.Idx → EReal) (ix3 (0 : Fin 1) s a)
      = (V c main_v5 : S8x2048x3072.Idx → EReal) (ix3 b s (Cert.Spec.col 1 a)) := by
  have e0 : win1_1.index t (0 : Fin 3) = t.val / 4 := (idx_kv1 t).1
  have e1 : win1_1.index t (1 : Fin 3) = 0 := (idx_kv1 t).2.1
  have e2 : win1_1.index t (2 : Fin 3) = 1 := (idx_kv1 t).2.2.1
  unfold blk1
  rw [View.read_apply]
  show (V c main_v5 : S8x2048x3072.Idx → EReal) (((cfg1.win 1).blk t).view.emb (ix3 (0 : Fin 1) s a)) = _
  refine congrArg _ (funext fun ax => Fin.ext ?_)
  match ax with
  | ⟨0, _⟩ => show win1_1.index t (0 : Fin 3) * 1 + 1 * 0 = b.val; omega
  | ⟨1, _⟩ => show win1_1.index t (1 : Fin 3) * 2048 + 1 * s.val = s.val; omega
  | ⟨2, _⟩ => show win1_1.index t (2 : Fin 3) * 512 + 1 * a.val = 512 * 1 + a.val; omega

theorem blk1_2_apply (c : Dev nD) (t : Fin cfg1.N) (b : Fin 8) (s : Fin 2048) (a : Fin 512) (hb : b.val = t.val / 4) :
    (blk1 (F := Ideal) V c 2 t : S1x2048x512.Idx → EReal) (ix3 (0 : Fin 1) s a)
      = (V c main_v5 : S8x2048x3072.Idx → EReal) (ix3 b s (Cert.Spec.col 2 a)) := by
  have e0 : win1_2.index t (0 : Fin 3) = t.val / 4 := (idx_kv1 t).2.2.2.1
  have e1 : win1_2.index t (1 : Fin 3) = 0 := (idx_kv1 t).2.2.2.2.1
  have e2 : win1_2.index t (2 : Fin 3) = 2 := (idx_kv1 t).2.2.2.2.2.1
  unfold blk1
  rw [View.read_apply]
  show (V c main_v5 : S8x2048x3072.Idx → EReal) (((cfg1.win 2).blk t).view.emb (ix3 (0 : Fin 1) s a)) = _
  refine congrArg _ (funext fun ax => Fin.ext ?_)
  match ax with
  | ⟨0, _⟩ => show win1_2.index t (0 : Fin 3) * 1 + 1 * 0 = b.val; omega
  | ⟨1, _⟩ => show win1_2.index t (1 : Fin 3) * 2048 + 1 * s.val = s.val; omega
  | ⟨2, _⟩ => show win1_2.index t (2 : Fin 3) * 512 + 1 * a.val = 512 * 2 + a.val; omega

theorem blk1_3_apply (c : Dev nD) (t : Fin cfg1.N) (b : Fin 8) (tq : Fin 2048) (r a : Fin 512)
    (hb : b.val = t.val / 4) (hq : tq.val = (t.val % 4) * 512 + r.val) :
    (blk1 (F := Ideal) V c 3 t : S1x512x512.Idx → EReal) (ix3 (0 : Fin 1) r a)
      = (V c main_v5 : S8x2048x3072.Idx → EReal) (ix3 b tq (Cert.Spec.col 3 a)) := by
  have e0 : win1_3.index t (0 : Fin 3) = t.val / 4 := (idx_q1 t).2.2.2.1
  have e1 : win1_3.index t (1 : Fin 3) = t.val % 4 := (idx_q1 t).2.2.2.2.1
  have e2 : win1_3.index t (2 : Fin 3) = 3 := (idx_q1 t).2.2.2.2.2
  unfold blk1
  rw [View.read_apply]
  show (V c main_v5 : S8x2048x3072.Idx → EReal) (((cfg1.win 3).blk t).view.emb (ix3 (0 : Fin 1) r a)) = _
  refine congrArg _ (funext fun ax => Fin.ext ?_)
  match ax with
  | ⟨0, _⟩ => show win1_3.index t (0 : Fin 3) * 1 + 1 * 0 = b.val; omega
  | ⟨1, _⟩ => show win1_3.index t (1 : Fin 3) * 512 + 1 * r.val = tq.val; omega
  | ⟨2, _⟩ => show win1_3.index t (2 : Fin 3) * 512 + 1 * a.val = 512 * 3 + a.val; omega

theorem blk1_4_apply (c : Dev nD) (t : Fin cfg1.N) (b : Fin 8) (s : Fin 2048) (a : Fin 512) (hb : b.val = t.val / 4) :
    (blk1 (F := Ideal) V c 4 t : S1x2048x512.Idx → EReal) (ix3 (0 : Fin 1) s a)
      = (V c main_v5 : S8x2048x3072.Idx → EReal) (ix3 b s (Cert.Spec.col 4 a)) := by
  have e0 : win1_4.index t (0 : Fin 3) = t.val / 4 := (idx_kv1 t).2.2.2.2.2.2.1
  have e1 : win1_4.index t (1 : Fin 3) = 0 := (idx_kv1 t).2.2.2.2.2.2.2.1
  have e2 : win1_4.index t (2 : Fin 3) = 4 := (idx_kv1 t).2.2.2.2.2.2.2.2.1
  unfold blk1
  rw [View.read_apply]
  show (V c main_v5 : S8x2048x3072.Idx → EReal) (((cfg1.win 4).blk t).view.emb (ix3 (0 : Fin 1) s a)) = _
  refine congrArg _ (funext fun ax => Fin.ext ?_)
  match ax with
  | ⟨0, _⟩ => show win1_4.index t (0 : Fin 3) * 1 + 1 * 0 = b.val; omega
  | ⟨1, _⟩ => show win1_4.index t (1 : Fin 3) * 2048 + 1 * s.val = s.val; omega
  | ⟨2, _⟩ => show win1_4.index t (2 : Fin 3) * 512 + 1 * a.val = 512 * 4 + a.val; omega

theorem blk1_5_apply (c : Dev nD) (t : Fin cfg1.N) (b : Fin 8) (s : Fin 2048) (a : Fin 512) (hb : b.val = t.val / 4) :
    (blk1 (F := Ideal) V c 5 t : S1x2048x512.Idx → EReal) (ix3 (0 : Fin 1) s a)
      = (V c main_v5 : S8x2048x3072.Idx → EReal) (ix3 b s (Cert.Spec.col 5 a)) := by
  have e0 : win1_5.index t (0 : Fin 3) = t.val / 4 := (idx_kv1 t).2.2.2.2.2.2.2.2.2.1
  have e1 : win1_5.index t (1 : Fin 3) = 0 := (idx_kv1 t).2.2.2.2.2.2.2.2.2.2.1
  have e2 : win1_5.index t (2 : Fin 3) = 5 := (idx_kv1 t).2.2.2.2.2.2.2.2.2.2.2
  unfold blk1
  rw [View.read_apply]
  show (V c main_v5 : S8x2048x3072.Idx → EReal) (((cfg1.win 5).blk t).view.emb (ix3 (0 : Fin 1) s a)) = _
  refine congrArg _ (funext fun ax => Fin.ext ?_)
  match ax with
  | ⟨0, _⟩ => show win1_5.index t (0 : Fin 3) * 1 + 1 * 0 = b.val; omega
  | ⟨1, _⟩ => show win1_5.index t (1 : Fin 3) * 2048 + 1 * s.val = s.val; omega
  | ⟨2, _⟩ => show win1_5.index t (2 : Fin 3) * 512 + 1 * a.val = 512 * 5 + a.val; omega

theorem blk1_6_apply (c : Dev nD) (t : Fin cfg1.N) (f : Fin 512) (a' : Fin 1024) :
    (blk1 (F := Ideal) V c 6 t : S512x1024.Idx → EReal) (ix2 f a') = (V c main_v6 : S512x1024.Idx → EReal) (ix2 f a') := by
  obtain ⟨e0, e1, -, -⟩ := idx_wb1 t
  unfold blk1
  rw [View.read_apply]
  show (V c main_v6 : S512x1024.Idx → EReal) (((cfg1.win 6).blk t).view.emb (ix2 f a')) = _
  refine congrArg _ (funext fun ax => Fin.ext ?_)
  match ax with
  | ⟨0, _⟩ => show win1_6.index t (0 : Fin 2) * 512 + 1 * f.val = f.val; omega
  | ⟨1, _⟩ => show win1_6.index t (1 : Fin 2) * 1024 + 1 * a'.val = a'.val; omega

theorem blk1_7_apply (c : Dev nD) (t : Fin cfg1.N) (f : Fin 512) :
    (blk1 (F := Ideal) V c 7 t : S512x1.Idx → EReal) (ix2 f (0 : Fin 1)) = (V c main_v7 : S512x1.Idx → EReal) (ix2 f (0 : Fin 1)) := by
  obtain ⟨-, -, e0, e1⟩ := idx_wb1 t
  unfold blk1
  rw [View.read_apply]
  show (V c main_v7 : S512x1.Idx → EReal) (((cfg1.win 7).blk t).view.emb (ix2 f (0 : Fin 1))) = _
  refine congrArg _ (funext fun ax => Fin.ext ?_)
  match ax with
  | ⟨0, _⟩ => show win1_7.index t (0 : Fin 2) * 512 + 1 * f.val = f.val; omega
  | ⟨1, _⟩ => show win1_7.index t (1 : Fin 2) * 1 + 1 * 0 = 0; omega

/-! ## The result array as one function of the arrays the call reads -/

/-- The output entry `(b, f, t)`. -/
def outEntry (c : Dev nD) (b : Fin 8) (f : Fin 512) (t : Fin 2048) : EReal :=
  Cert.Spec.proj (fun a' => (V c main_v6 : S512x1024.Idx → EReal) (ix2 f a'))
    (Cert.Spec.attend (fun a => (V c main_v5 : S8x2048x3072.Idx → EReal) (ix3 b t (Cert.Spec.col 0 a)))
      (fun s a => (V c main_v5 : S8x2048x3072.Idx → EReal) (ix3 b s (Cert.Spec.col 1 a)))
      (fun s a => (V c main_v5 : S8x2048x3072.Idx → EReal) (ix3 b s (Cert.Spec.col 2 a))))
    (Cert.Spec.attend (fun a => (V c main_v5 : S8x2048x3072.Idx → EReal) (ix3 b t (Cert.Spec.col 3 a)))
      (fun s a => (V c main_v5 : S8x2048x3072.Idx → EReal) (ix3 b s (Cert.Spec.col 4 a)))
      (fun s a => (V c main_v5 : S8x2048x3072.Idx → EReal) (ix3 b s (Cert.Spec.col 5 a))))
    ((V c main_v7 : S512x1.Idx → EReal) (ix2 f (0 : Fin 1)))

/-- The whole result array. -/
def outArr (c : Dev nD) : S8x512x2048.Idx → EReal := fun i =>
  outEntry V c ⟨(i 0).val, (i 0).isLt⟩ ⟨(i 1).val, (i 1).isLt⟩ ⟨(i 2).val, (i 2).isLt⟩

/-- Entry `(0, f, r)` of the result's block at point `t` sits at `(t / 4, f, 512·(t % 4) + r)` of the array. -/
theorem emb1_8 (G : S8x512x2048.Idx → EReal) (t : Fin cfg1.N) (b : Fin 8) (tq : Fin 2048) (f r : Fin 512)
    (hb : b.val = t.val / 4) (hq : tq.val = (t.val % 4) * 512 + r.val) :
    G (((cfg1.win 8).blk t).view.emb (ix3 (0 : Fin 1) f r)) = G (ix3 b f tq) := by
  obtain ⟨e0, e1, e2⟩ := idx_out1 t
  refine congrArg G (funext fun ax => Fin.ext ?_)
  match ax with
  | ⟨0, _⟩ => show win1_8.index t (0 : Fin 3) * 1 + 1 * 0 = b.val; omega
  | ⟨1, _⟩ => show win1_8.index t (1 : Fin 3) * 512 + 1 * f.val = f.val; omega
  | ⟨2, _⟩ => show win1_8.index t (2 : Fin 3) * 512 + 1 * r.val = tq.val; omega

/-- What point `t` writes back is block `t` of the result array. -/
theorem flushed1_eq (c : Dev nD) (t : Fin cfg1.N) :
    (dat1 (F := Ideal) V c).flushed 8 t = ((cfg1.win 8).blk t).view.read (Elt Ideal) (outArr V c) := by
  have hN : cfg1.N = 32 := N_1
  show (cfg1.win 8).cut (grid1.coords t) ((dat1 (F := Ideal) V c).after 8 t) = _
  rw [dat1_after8]
  unfold attn1
  rw [View.canon_unit_zero zeros3]
  simp only [View.ld_unit_zero (S := S1x512x512) zeros3, View.ld_unit_zero (S := S1x2048x512) zeros3,
    View.ld_unit_zero (S := S512x1024) zeros2, View.ld_unit_zero (S := S512x1) zeros2]
  refine funext fun (j : S1x512x512.Idx) => ?_
  obtain ⟨u, f, r, rfl⟩ : ∃ (u : Fin 1) (f : Fin 512) (r : Fin 512), j = ix3 u f r := ⟨j 0, j 1, j 2, eq_ix3 j⟩
  obtain rfl : u = 0 := Subsingleton.elim _ _
  have htl : t.val < 32 := hN ▸ t.isLt
  obtain ⟨b, hb⟩ : ∃ b : Fin 8, b.val = t.val / 4 := ⟨⟨t.val / 4, by omega⟩, rfl⟩
  obtain ⟨tq, hq⟩ : ∃ tq : Fin 2048, tq.val = (t.val % 4) * 512 + r.val := ⟨⟨(t.val % 4) * 512 + r.val, by have := r.isLt; omega⟩, rfl⟩
  show k1_pay1 (F := Ideal) (k1_pay2 (blk1 V c 0 t) (blk1 V c 1 t) (blk1 V c 2 t)) (k1_pay3 (blk1 V c 5 t))
      (k1_pay4 (blk1 V c 3 t) (blk1 V c 4 t)) (k1_pay5 (blk1 V c 3 t) (blk1 V c 4 t)) (blk1 V c 6 t) (blk1 V c 7 t) (ix3 (0 : Fin 1) f r)
    = outArr V c (((cfg1.win 8).blk t).view.emb (ix3 (0 : Fin 1) f r))
  rw [emb1_8 (outArr V c) t b tq f r hb hq]
  refine (pay1_apply _ _ _ _ _ _ _ _ f r).trans ?_
  have h6 : (fun a' => (blk1 (F := Ideal) V c 6 t : S512x1024.Idx → EReal) (ix2 f a')) = fun a' => (V c main_v6 : S512x1024.Idx → EReal) (ix2 f a') :=
    funext fun a' => blk1_6_apply V c t f a'
  have h0 : (fun a => (blk1 (F := Ideal) V c 0 t : S1x512x512.Idx → EReal) (ix3 (0 : Fin 1) r a)) = fun a => (V c main_v5 : S8x2048x3072.Idx → EReal) (ix3 b tq (Cert.Spec.col 0 a)) :=
    funext fun a => blk1_0_apply V c t b tq r a hb hq
  have h3 : (fun a => (blk1 (F := Ideal) V c 3 t : S1x512x512.Idx → EReal) (ix3 (0 : Fin 1) r a)) = fun a => (V c main_v5 : S8x2048x3072.Idx → EReal) (ix3 b tq (Cert.Spec.col 3 a)) :=
    funext fun a => blk1_3_apply V c t b tq r a hb hq
  have h1 : (fun s a => (blk1 (F := Ideal) V c 1 t : S1x2048x512.Idx → EReal) (ix3 (0 : Fin 1) s a)) = fun s a => (V c main_v5 : S8x2048x3072.Idx → EReal) (ix3 b s (Cert.Spec.col 1 a)) :=
    funext fun s => funext fun a => blk1_1_apply V c t b s a hb
  have h2 : (fun s a => (blk1 (F := Ideal) V c 2 t : S1x2048x512.Idx → EReal) (ix3 (0 : Fin 1) s a)) = fun s a => (V c main_v5 : S8x2048x3072.Idx → EReal) (ix3 b s (Cert.Spec.col 2 a)) :=
    funext fun s => funext fun a => blk1_2_apply V c t b s a hb
  have h4 : (fun s a => (blk1 (F := Ideal) V c 4 t : S1x2048x512.Idx → EReal) (ix3 (0 : Fin 1) s a)) = fun s a => (V c main_v5 : S8x2048x3072.Idx → EReal) (ix3 b s (Cert.Spec.col 4 a)) :=
    funext fun s => funext fun a => blk1_4_apply V c t b s a hb
  have h5 : (fun s a => (blk1 (F := Ideal) V c 5 t : S1x2048x512.Idx → EReal) (ix3 (0 : Fin 1) s a)) = fun s a => (V c main_v5 : S8x2048x3072.Idx → EReal) (ix3 b s (Cert.Spec.col 5 a)) :=
    funext fun s => funext fun a => blk1_5_apply V c t b s a hb
  rw [h6, h0, h1, h2, h3, h4, h5, blk1_7_apply V c t f]
  rfl

/-- An entry of the array is in point `t`'s block iff each coordinate is in the block's range on its axis. -/
theorem mem_blk1_8 (t : Fin cfg1.N) (i : S8x512x2048.Idx) :
    i ∈ ((cfg1.win 8).blk t).view.set ↔ ∀ a : Fin 3, win1_8.index t a * S1x512x512.size a ≤ (i a).val ∧ (i a).val < win1_8.index t a * S1x512x512.size a + S1x512x512.size a := by
  show i ∈ ((View.whole main_v8).slice (win1_8.rect t)).set ↔ _
  rw [View.set_slice_whole, Rect.mem_set_unit]
  exact Iff.rfl

/-- Every entry is in some point's block: column `t` of sequence `b` is in the block of point `4·b + t / 512`. -/
theorem cover1_8 (i : S8x512x2048.Idx) : ∃ t : Fin cfg1.N, (cfg1.win 8).flush t = true ∧ i ∈ ((cfg1.win 8).blk t).view.set := by
  have hN : cfg1.N = 32 := N_1
  have h0 : (i 0).val < 8 := (i 0).isLt
  have h1 : (i 1).val < 512 := (i 1).isLt
  have h2 : (i 2).val < 2048 := (i 2).isLt
  obtain ⟨t, ht⟩ : ∃ t : Fin cfg1.N, t.val = 4 * (i 0).val + (i 2).val / 512 := ⟨⟨4 * (i 0).val + (i 2).val / 512, by omega⟩, rfl⟩
  obtain ⟨e0, e1, e2⟩ := idx_out1 t
  refine ⟨t, flush1_8 t, ?_⟩
  rw [mem_blk1_8]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 512 ≤ (i 1).val ∧ (i 1).val < win1_8.index t (1 : Fin 3) * 512 + 512; omega
  | ⟨2, _⟩ => show win1_8.index t (2 : Fin 3) * 512 ≤ (i 2).val ∧ (i 2).val < win1_8.index t (2 : Fin 3) * 512 + 512; omega

/-- The result array after the second call. -/
theorem final1 (c : Dev nD) : (dat1 (F := Ideal) V c).arrAt 8 cfg1.N = outArr V c :=
  (dat1 (F := Ideal) V c).arrAt_eq_of_cover 8 (outArr V c) (fun t _ => flushed1_eq V c t) cover1_8

/-- After the second call the result array holds at `(b, f, t)` the output entry of the packed array's bands: row `f`
    of the output weights against head one's and head two's attention outputs for query row `t` of sequence `b`, plus
    entry `f` of the bias column. -/
theorem out_at (c : Dev nD) (b : Fin 8) (f : Fin 512) (t : Fin 2048) :
    ((dat1 (F := Ideal) V c).arrAt 8 cfg1.N : S8x512x2048.Idx → EReal) (ix3 b f t)
      = Cert.Spec.proj (fun a' => (V c main_v6 : S512x1024.Idx → EReal) (ix2 f a'))
          (Cert.Spec.attend (fun a => (V c main_v5 : S8x2048x3072.Idx → EReal) (ix3 b t (Cert.Spec.col 0 a)))
            (fun s a => (V c main_v5 : S8x2048x3072.Idx → EReal) (ix3 b s (Cert.Spec.col 1 a)))
            (fun s a => (V c main_v5 : S8x2048x3072.Idx → EReal) (ix3 b s (Cert.Spec.col 2 a))))
          (Cert.Spec.attend (fun a => (V c main_v5 : S8x2048x3072.Idx → EReal) (ix3 b t (Cert.Spec.col 3 a)))
            (fun s a => (V c main_v5 : S8x2048x3072.Idx → EReal) (ix3 b s (Cert.Spec.col 4 a)))
            (fun s a => (V c main_v5 : S8x2048x3072.Idx → EReal) (ix3 b s (Cert.Spec.col 5 a))))
          ((V c main_v7 : S512x1.Idx → EReal) (ix2 f 0)) := by
  rw [final1 V c]
  rfl

end Cert.KernelIdeal.Hand

end
-- ==== Proof.SpecArgs.lean ====
import proofs.«404042_j23493471109327_3_alg».proof.Proof.Spec

/-! # The fifteen argument arrays as the specification's arguments

The input, six weight matrices with their bias vectors (query, key, value of head one, then of head two), the output
weights and the output bias, each an array over its literal index set, read by coordinates. -/

noncomputable section

namespace Cert.Spec

open Idealize.ShloMosaic Idealize.ShloMosaic.ValueIdx

abbrev Arr3 : Type := (⟨3, ![8, 512, 2048]⟩ : Shape).Idx → EReal
abbrev Mat : Type := (⟨2, ![512, 512]⟩ : Shape).Idx → EReal
abbrev Vec : Type := (⟨1, ![512]⟩ : Shape).Idx → EReal
abbrev MatP : Type := (⟨2, ![512, 1024]⟩ : Shape).Idx → EReal

/-- The arguments in the order both programs take them. -/
def argsOf (x : Arr3) (w0 : Mat) (b0 : Vec) (w1 : Mat) (b1 : Vec) (w2 : Mat) (b2 : Vec) (w3 : Mat) (b3 : Vec)
    (w4 : Mat) (b4 : Vec) (w5 : Mat) (b5 : Vec) (wp : MatP) (bp : Vec) : Args where
  x b f t := x (ix3 b f t)
  W j a f := match j with
    | ⟨0, _⟩ => w0 (ix2 a f)
    | ⟨1, _⟩ => w1 (ix2 a f)
    | ⟨2, _⟩ => w2 (ix2 a f)
    | ⟨3, _⟩ => w3 (ix2 a f)
    | ⟨4, _⟩ => w4 (ix2 a f)
    | ⟨5, _⟩ => w5 (ix2 a f)
  bias j a := match j with
    | ⟨0, _⟩ => b0 (ix1 a)
    | ⟨1, _⟩ => b1 (ix1 a)
    | ⟨2, _⟩ => b2 (ix1 a)
    | ⟨3, _⟩ => b3 (ix1 a)
    | ⟨4, _⟩ => b4 (ix1 a)
    | ⟨5, _⟩ => b5 (ix1 a)
  Wp f a' := wp (ix2 f a')
  bp f := bp (ix1 f)

end Cert.Spec

end
-- ==== Proof.KI.Final.lean ====
import proofs.«404042_j23493471109327_3_alg».proof.Proof.KI.Run
import proofs.«404042_j23493471109327_3_alg».proof.Proof.KI.Value0
import proofs.«404042_j23493471109327_3_alg».proof.Proof.KI.Value1
import proofs.«404042_j23493471109327_3_alg».proof.Proof.SpecArgs
import Idealize.ShloMosaic.Lib.Pipeline.Value
import Idealize.ShloMosaic.Lib.ValueIdx
import Idealize.ShloMosaic.Lib.ValueLayout
import Idealize.ShloMosaic.Lib.StableHlo.Run

/-! # The kernel program's result, entry by entry (exact reals)

The host lines before the first kernel stack the six weight matrices (3072 × 512), transpose the stack (512 × 3072) and
stack the six bias vectors into one row; those before the second kernel only change the output weights' format and turn the
output bias into a column. Reading them at an index and putting the two kernels' entry-by-entry values together, the result
array at (b, f, t) is the specification's output entry of the fifteen argument arrays. -/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (c : Dev nD)

/-- The kernel program's fifteen argument arrays, as the specification's arguments. -/
def args : Cert.Spec.Args :=
  Cert.Spec.argsOf (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))
    (m ((c.tc : Thread nD τ).loc main_arg11)) (m ((c.tc : Thread nD τ).loc main_arg12))
    (m ((c.tc : Thread nD τ).loc main_arg13)) (m ((c.tc : Thread nD τ).loc main_arg14))

/-! ## What the host lines leave

A buffer no host line of a stretch writes keeps its contents; the packed weights are the six matrices stacked by rows,
transposed; the packed bias row is the six vectors laid end to end. -/

/-- A buffer the first stretch does not write holds at the first kernel's entry what it held at launch. -/
theorem kept_to1 (r : Ref sig .tc) (h : r ∉ hostOps0_W) :
    buf1 (F := Ideal) m c r = m ((c.tc : Thread nD τ).loc r) :=
  StableHlo.after_of_writes_sub hostOps0 _ hostOps0_writes h

/-- A buffer neither the first stretch nor the first kernel writes holds after the first kernel what it held at launch. -/
theorem kept_to2 (r : Ref sig .tc) (h : r ∉ hostOps0_W) (hw : ∀ w, Pipeline.arrRef spec0 w ≠ r) :
    mem2 (F := Ideal) m c (Proc.devRef .tc r) = m ((c.tc : Thread nD τ).loc r) :=
  (mem2_of_ne m c r hw).trans (kept_to1 m c r h)

/-- The six weight matrices stacked by rows: 3072 × 512. -/
def stackW : S3072x512.Idx → EReal :=
  concatenate S3072x512 0 [⟨S512x512, (m ((c.tc : Thread nD τ).loc main_arg1))⟩, ⟨S512x512, (m ((c.tc : Thread nD τ).loc main_arg3))⟩, ⟨S512x512, (m ((c.tc : Thread nD τ).loc main_arg5))⟩, ⟨S512x512, (m ((c.tc : Thread nD τ).loc main_arg7))⟩, ⟨S512x512, (m ((c.tc : Thread nD τ).loc main_arg9))⟩, ⟨S512x512, (m ((c.tc : Thread nD τ).loc main_arg11))⟩] concatenates_S512x512_S512x512_S512x512_S512x512_S512x512_S512x512_S3072x512_d0

/-- The six bias vectors laid end to end: 3072 entries. -/
def stackB : S3072.Idx → EReal :=
  concatenate S3072 0 [⟨S512, (m ((c.tc : Thread nD τ).loc main_arg2))⟩, ⟨S512, (m ((c.tc : Thread nD τ).loc main_arg4))⟩, ⟨S512, (m ((c.tc : Thread nD τ).loc main_arg6))⟩, ⟨S512, (m ((c.tc : Thread nD τ).loc main_arg8))⟩, ⟨S512, (m ((c.tc : Thread nD τ).loc main_arg10))⟩, ⟨S512, (m ((c.tc : Thread nD τ).loc main_arg12))⟩] concatenates_S512_S512_S512_S512_S512_S512_S3072_d0

/-- Row 512·j + a of the stack is row a of weight matrix j. -/
theorem stackW_at (j : Fin 6) (a f : Fin 512) :
    stackW m c (ix2 (Cert.Spec.col j a) f) = (args m c).W j a f := by
  unfold stackW
  match j with
  | ⟨0, hj⟩ =>
    exact concatenate_apply_piece (0 : Fin 2) [⟨S512x512, (m ((c.tc : Thread nD τ).loc main_arg1))⟩, ⟨S512x512, (m ((c.tc : Thread nD τ).loc main_arg3))⟩, ⟨S512x512, (m ((c.tc : Thread nD τ).loc main_arg5))⟩, ⟨S512x512, (m ((c.tc : Thread nD τ).loc main_arg7))⟩, ⟨S512x512, (m ((c.tc : Thread nD τ).loc main_arg9))⟩, ⟨S512x512, (m ((c.tc : Thread nD τ).loc main_arg11))⟩] _ (ix2 (Cert.Spec.col ⟨0, hj⟩ a) f) 0 (by show (0 : Nat) < 6; decide) S512x512 (m ((c.tc : Thread nD τ).loc main_arg1)) rfl rfl 0 rfl (ix2 a f)
      (fun b hb => match b with | ⟨0, _⟩ => absurd rfl hb | ⟨1, _⟩ => rfl) rfl
  | ⟨1, hj⟩ =>
    exact concatenate_apply_piece (0 : Fin 2) [⟨S512x512, (m ((c.tc : Thread nD τ).loc main_arg1))⟩, ⟨S512x512, (m ((c.tc : Thread nD τ).loc main_arg3))⟩, ⟨S512x512, (m ((c.tc : Thread nD τ).loc main_arg5))⟩, ⟨S512x512, (m ((c.tc : Thread nD τ).loc main_arg7))⟩, ⟨S512x512, (m ((c.tc : Thread nD τ).loc main_arg9))⟩, ⟨S512x512, (m ((c.tc : Thread nD τ).loc main_arg11))⟩] _ (ix2 (Cert.Spec.col ⟨1, hj⟩ a) f) 1 (by show (1 : Nat) < 6; decide) S512x512 (m ((c.tc : Thread nD τ).loc main_arg3)) rfl rfl 512 rfl (ix2 a f)
      (fun b hb => match b with | ⟨0, _⟩ => absurd rfl hb | ⟨1, _⟩ => rfl) rfl
  | ⟨2, hj⟩ =>
    exact concatenate_apply_piece (0 : Fin 2) [⟨S512x512, (m ((c.tc : Thread nD τ).loc main_arg1))⟩, ⟨S512x512, (m ((c.tc : Thread nD τ).loc main_arg3))⟩, ⟨S512x512, (m ((c.tc : Thread nD τ).loc main_arg5))⟩, ⟨S512x512, (m ((c.tc : Thread nD τ).loc main_arg7))⟩, ⟨S512x512, (m ((c.tc : Thread nD τ).loc main_arg9))⟩, ⟨S512x512, (m ((c.tc : Thread nD τ).loc main_arg11))⟩] _ (ix2 (Cert.Spec.col ⟨2, hj⟩ a) f) 2 (by show (2 : Nat) < 6; decide) S512x512 (m ((c.tc : Thread nD τ).loc main_arg5)) rfl rfl 1024 rfl (ix2 a f)
      (fun b hb => match b with | ⟨0, _⟩ => absurd rfl hb | ⟨1, _⟩ => rfl) rfl
  | ⟨3, hj⟩ =>
    exact concatenate_apply_piece (0 : Fin 2) [⟨S512x512, (m ((c.tc : Thread nD τ).loc main_arg1))⟩, ⟨S512x512, (m ((c.tc : Thread nD τ).loc main_arg3))⟩, ⟨S512x512, (m ((c.tc : Thread nD τ).loc main_arg5))⟩, ⟨S512x512, (m ((c.tc : Thread nD τ).loc main_arg7))⟩, ⟨S512x512, (m ((c.tc : Thread nD τ).loc main_arg9))⟩, ⟨S512x512, (m ((c.tc : Thread nD τ).loc main_arg11))⟩] _ (ix2 (Cert.Spec.col ⟨3, hj⟩ a) f) 3 (by show (3 : Nat) < 6; decide) S512x512 (m ((c.tc : Thread nD τ).loc main_arg7)) rfl rfl 1536 rfl (ix2 a f)
      (fun b hb => match b with | ⟨0, _⟩ => absurd rfl hb | ⟨1, _⟩ => rfl) rfl
  | ⟨4, hj⟩ =>
    exact concatenate_apply_piece (0 : Fin 2) [⟨S512x512, (m ((c.tc : Thread nD τ).loc main_arg1))⟩, ⟨S512x512, (m ((c.tc : Thread nD τ).loc main_arg3))⟩, ⟨S512x512, (m ((c.tc : Thread nD τ).loc main_arg5))⟩, ⟨S512x512, (m ((c.tc : Thread nD τ).loc main_arg7))⟩, ⟨S512x512, (m ((c.tc : Thread nD τ).loc main_arg9))⟩, ⟨S512x512, (m ((c.tc : Thread nD τ).loc main_arg11))⟩] _ (ix2 (Cert.Spec.col ⟨4, hj⟩ a) f) 4 (by show (4 : Nat) < 6; decide) S512x512 (m ((c.tc : Thread nD τ).loc main_arg9)) rfl rfl 2048 rfl (ix2 a f)
      (fun b hb => match b with | ⟨0, _⟩ => absurd rfl hb | ⟨1, _⟩ => rfl) rfl
  | ⟨5, hj⟩ =>
    exact concatenate_apply_piece (0 : Fin 2) [⟨S512x512, (m ((c.tc : Thread nD τ).loc main_arg1))⟩, ⟨S512x512, (m ((c.tc : Thread nD τ).loc main_arg3))⟩, ⟨S512x512, (m ((c.tc : Thread nD τ).loc main_arg5))⟩, ⟨S512x512, (m ((c.tc : Thread nD τ).loc main_arg7))⟩, ⟨S512x512, (m ((c.tc : Thread nD τ).loc main_arg9))⟩, ⟨S512x512, (m ((c.tc : Thread nD τ).loc main_arg11))⟩] _ (ix2 (Cert.Spec.col ⟨5, hj⟩ a) f) 5 (by show (5 : Nat) < 6; decide) S512x512 (m ((c.tc : Thread nD τ).loc main_arg11)) rfl rfl 2560 rfl (ix2 a f)
      (fun b hb => match b with | ⟨0, _⟩ => absurd rfl hb | ⟨1, _⟩ => rfl) rfl

/-- Entry 512·j + a of the row is entry a of bias vector j. -/
theorem stackB_at (j : Fin 6) (a : Fin 512) :
    stackB m c (ix1 (Cert.Spec.col j a)) = (args m c).bias j a := by
  unfold stackB
  match j with
  | ⟨0, hj⟩ =>
    exact concatenate_apply_piece (0 : Fin 1) [⟨S512, (m ((c.tc : Thread nD τ).loc main_arg2))⟩, ⟨S512, (m ((c.tc : Thread nD τ).loc main_arg4))⟩, ⟨S512, (m ((c.tc : Thread nD τ).loc main_arg6))⟩, ⟨S512, (m ((c.tc : Thread nD τ).loc main_arg8))⟩, ⟨S512, (m ((c.tc : Thread nD τ).loc main_arg10))⟩, ⟨S512, (m ((c.tc : Thread nD τ).loc main_arg12))⟩] _ (ix1 (Cert.Spec.col ⟨0, hj⟩ a)) 0 (by show (0 : Nat) < 6; decide) S512 (m ((c.tc : Thread nD τ).loc main_arg2)) rfl rfl 0 rfl (ix1 a)
      (fun b hb => match b with | ⟨0, _⟩ => absurd rfl hb) rfl
  | ⟨1, hj⟩ =>
    exact concatenate_apply_piece (0 : Fin 1) [⟨S512, (m ((c.tc : Thread nD τ).loc main_arg2))⟩, ⟨S512, (m ((c.tc : Thread nD τ).loc main_arg4))⟩, ⟨S512, (m ((c.tc : Thread nD τ).loc main_arg6))⟩, ⟨S512, (m ((c.tc : Thread nD τ).loc main_arg8))⟩, ⟨S512, (m ((c.tc : Thread nD τ).loc main_arg10))⟩, ⟨S512, (m ((c.tc : Thread nD τ).loc main_arg12))⟩] _ (ix1 (Cert.Spec.col ⟨1, hj⟩ a)) 1 (by show (1 : Nat) < 6; decide) S512 (m ((c.tc : Thread nD τ).loc main_arg4)) rfl rfl 512 rfl (ix1 a)
      (fun b hb => match b with | ⟨0, _⟩ => absurd rfl hb) rfl
  | ⟨2, hj⟩ =>
    exact concatenate_apply_piece (0 : Fin 1) [⟨S512, (m ((c.tc : Thread nD τ).loc main_arg2))⟩, ⟨S512, (m ((c.tc : Thread nD τ).loc main_arg4))⟩, ⟨S512, (m ((c.tc : Thread nD τ).loc main_arg6))⟩, ⟨S512, (m ((c.tc : Thread nD τ).loc main_arg8))⟩, ⟨S512, (m ((c.tc : Thread nD τ).loc main_arg10))⟩, ⟨S512, (m ((c.tc : Thread nD τ).loc main_arg12))⟩] _ (ix1 (Cert.Spec.col ⟨2, hj⟩ a)) 2 (by show (2 : Nat) < 6; decide) S512 (m ((c.tc : Thread nD τ).loc main_arg6)) rfl rfl 1024 rfl (ix1 a)
      (fun b hb => match b with | ⟨0, _⟩ => absurd rfl hb) rfl
  | ⟨3, hj⟩ =>
    exact concatenate_apply_piece (0 : Fin 1) [⟨S512, (m ((c.tc : Thread nD τ).loc main_arg2))⟩, ⟨S512, (m ((c.tc : Thread nD τ).loc main_arg4))⟩, ⟨S512, (m ((c.tc : Thread nD τ).loc main_arg6))⟩, ⟨S512, (m ((c.tc : Thread nD τ).loc main_arg8))⟩, ⟨S512, (m ((c.tc : Thread nD τ).loc main_arg10))⟩, ⟨S512, (m ((c.tc : Thread nD τ).loc main_arg12))⟩] _ (ix1 (Cert.Spec.col ⟨3, hj⟩ a)) 3 (by show (3 : Nat) < 6; decide) S512 (m ((c.tc : Thread nD τ).loc main_arg8)) rfl rfl 1536 rfl (ix1 a)
      (fun b hb => match b with | ⟨0, _⟩ => absurd rfl hb) rfl
  | ⟨4, hj⟩ =>
    exact concatenate_apply_piece (0 : Fin 1) [⟨S512, (m ((c.tc : Thread nD τ).loc main_arg2))⟩, ⟨S512, (m ((c.tc : Thread nD τ).loc main_arg4))⟩, ⟨S512, (m ((c.tc : Thread nD τ).loc main_arg6))⟩, ⟨S512, (m ((c.tc : Thread nD τ).loc main_arg8))⟩, ⟨S512, (m ((c.tc : Thread nD τ).loc main_arg10))⟩, ⟨S512, (m ((c.tc : Thread nD τ).loc main_arg12))⟩] _ (ix1 (Cert.Spec.col ⟨4, hj⟩ a)) 4 (by show (4 : Nat) < 6; decide) S512 (m ((c.tc : Thread nD τ).loc main_arg10)) rfl rfl 2048 rfl (ix1 a)
      (fun b hb => match b with | ⟨0, _⟩ => absurd rfl hb) rfl
  | ⟨5, hj⟩ =>
    exact concatenate_apply_piece (0 : Fin 1) [⟨S512, (m ((c.tc : Thread nD τ).loc main_arg2))⟩, ⟨S512, (m ((c.tc : Thread nD τ).loc main_arg4))⟩, ⟨S512, (m ((c.tc : Thread nD τ).loc main_arg6))⟩, ⟨S512, (m ((c.tc : Thread nD τ).loc main_arg8))⟩, ⟨S512, (m ((c.tc : Thread nD τ).loc main_arg10))⟩, ⟨S512, (m ((c.tc : Thread nD τ).loc main_arg12))⟩] _ (ix1 (Cert.Spec.col ⟨5, hj⟩ a)) 5 (by show (5 : Nat) < 6; decide) S512 (m ((c.tc : Thread nD τ).loc main_arg12)) rfl rfl 2560 rfl (ix1 a)
      (fun b hb => match b with | ⟨0, _⟩ => absurd rfl hb) rfl

/-- The packed weights as the first kernel finds them: the stack transposed, its format changed. -/
theorem packedW_eq : (buf1 (F := Ideal) m c main_v3 : S512x3072.Idx → EReal)
    = (truncf (F := Ideal) .bf16 (transpose S512x3072 [1, 0] (stackW m c) transposes_S3072x512_S512x3072_1_0 : FVec Ideal S512x3072 .f32) bitsLt_bf16_f32 : FVec Ideal S512x3072 .bf16) := by
  dsimp only [buf1, mem1, hostOps0]; after_results; rfl

/-- The packed bias as the first kernel finds it: the row of 3072 entries as a 1 × 3072 array. -/
theorem packedB_eq : (buf1 (F := Ideal) m c main_v4 : S1x3072.Idx → EReal)
    = shapeCast S1x3072 (stackB m c) shapeCasts_S3072_S1x3072 := by
  dsimp only [buf1, mem1, hostOps0]; after_results; rfl

/-- The output weights as the second kernel finds them: the argument, its format changed. -/
theorem wp_eq : (buf3 (F := Ideal) m c main_v6 : S512x1024.Idx → EReal)
    = (truncf (F := Ideal) .bf16 (mem2 (F := Ideal) m c (Proc.devRef .tc main_arg13) : FVec Ideal S512x1024 .f32) bitsLt_bf16_f32 : FVec Ideal S512x1024 .bf16) := by
  dsimp only [buf3, mem3, hostOps1]; after_results

/-- The output bias as the second kernel finds it: the argument as a 512 × 1 array. -/
theorem bp_eq : (buf3 (F := Ideal) m c main_v7 : S512x1.Idx → EReal)
    = shapeCast S512x1 (mem2 (F := Ideal) m c (Proc.devRef .tc main_arg14) : S512.Idx → EReal) shapeCasts_S512_S512x1 := by
  dsimp only [buf3, mem3, hostOps1]; after_results; rfl

/-- A vector of n entries as an n × 1 array reads, at (i, 0), the vector at i. -/
theorem column_apply {n : ℕ} (x : (⟨1, ![n]⟩ : Shape).Idx → EReal) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The input reaches the first kernel as launched. -/
theorem x_in : (buf1 (F := Ideal) m c main_arg0 : S8x512x2048.Idx → EReal) = m ((c.tc : Thread nD τ).loc main_arg0) := by
  exact kept_to1 m c main_arg0 (by decide)

/-- The packed weights at (f, column a of band j) are weight matrix j at (a, f). -/
theorem packedW_at (f : Fin 512) (j : Fin 6) (a : Fin 512) :
    (buf1 (F := Ideal) m c main_v3 : S512x3072.Idx → EReal) (ix2 f (Cert.Spec.col j a)) = (args m c).W j a f := by
  rw [packedW_eq m c, truncf_apply, transpose_ix2_apply]
  exact stackW_at m c j a f

/-- The packed bias row at column a of band j is bias vector j at a. -/
theorem packedB_at (j : Fin 6) (a : Fin 512) :
    (buf1 (F := Ideal) m c main_v4 : S1x3072.Idx → EReal) (ix2 0 (Cert.Spec.col j a)) = (args m c).bias j a := by
  rw [packedB_eq m c, shapeCast_a_1a_apply]
  exact stackB_at m c j a

/-- The packed array reaches the second kernel as the first kernel's write-backs left it. -/
theorem packed_in : (buf3 (F := Ideal) m c main_v5 : S8x2048x3072.Idx → EReal) = (dat0 (F := Ideal) (buf1 m) c).arrAt 3 cfg0.N := by
  exact (StableHlo.after_of_writes_sub hostOps1 _ hostOps1_writes (by decide)).trans (mem2_arr m c 3)

/-- The output weights reach the second kernel unchanged in value. -/
theorem wp_at (f : Fin 512) (a' : Fin 1024) :
    (buf3 (F := Ideal) m c main_v6 : S512x1024.Idx → EReal) (ix2 f a') = (args m c).Wp f a' := by
  rw [wp_eq m c, truncf_apply]
  exact congrFun (kept_to2 m c main_arg13 (by decide) (by decide)) (ix2 f a')

/-- The output bias reaches the second kernel as a column. -/
theorem bp_at (f : Fin 512) :
    (buf3 (F := Ideal) m c main_v7 : S512x1.Idx → EReal) (ix2 f 0) = (args m c).bp f := by
  rw [bp_eq m c, column_apply]
  exact congrFun (kept_to2 m c main_arg14 (by decide) (by decide)) (ix1 f)

/-- The packed array at (b, t, column a of band j) is band j's affine map of position t of sequence b. -/
theorem band_at (j : Fin 6) (b : Fin 8) (t : Fin 2048) (a : Fin 512) :
    (buf3 (F := Ideal) m c main_v5 : S8x2048x3072.Idx → EReal) (ix3 b t (Cert.Spec.col j a)) = Cert.Spec.qkvOf (args m c) j b t a := by
  rw [packed_in m c, qkv_at (buf1 m) c b t (Cert.Spec.col j a)]
  unfold Cert.Spec.qkvOf
  refine congr (congr (congrArg Cert.Spec.lin (funext fun f => ?_)) (funext fun f => packedW_at m c f j a)) (packedB_at m c j a)
  exact congrFun (x_in m c) (ix3 b f t)

/-- The result array at `(b, f, t)` is the specification's output entry of the arguments. -/
theorem kernel_at (b : Fin 8) (f : Fin 512) (t : Fin 2048) :
    ((dat1 (F := Ideal) (buf3 m) c).arrAt 8 cfg1.N : S8x512x2048.Idx → EReal) (ix3 b f t) = Cert.Spec.outOf (args m c) b f t := by
  refine (out_at (buf3 m) c b f t).trans ?_
  unfold Cert.Spec.outOf Cert.Spec.headOf
  simp only [band_at m c, wp_at m c, bp_at m c]
  rfl

end Cert.KernelIdeal.Hand

end
-- ==== Proof.RefStages.lean ====
import proofs.«404042_j23493471109327_3_alg».proof.Proof.RefReadP
import proofs.«404042_j23493471109327_3_alg».proof.Proof.SpecArgs
import Idealize.ShloMosaic.Lib.Pipeline.Value
import Idealize.ShloMosaic.Lib.ValueIdx
import Idealize.ShloMosaic.Lib.ValueLayout
import Idealize.ShloMosaic.PureOps.Ideal.Laws

/-! # The reference, stage by stage, against the specification (exact reals)

Each head-level stage of the reference read at coordinates: the six affine maps of the transposed input are the
specification's affine entries; the scaled products of a query row with the key rows are its scores; the maximum of a row
of scores taken from −∞ and once more against −∞ is the row's maximum; the exponentials over their sum are the softmax
weights; the weights against the values are the head's output row. The two heads' rows laid side by side against the
output weights, plus the bias, transposed back, is the specification's output entry. -/

noncomputable section

namespace Cert.ReferenceIdeal.RefStages

open Idealize.ShloMosaic Idealize.ShloMosaic.ValueIdx
open Cert.ReferenceIdeal Cert.ReferenceIdeal.Gen Cert.ReferenceIdeal.ReadP

/-- Two index functions over one, two or three axes are equal when their coordinates are. -/
macro "idx1" : tactic => `(tactic| exact funext fun a => Fin.ext (by match a with | ⟨0, _⟩ => rfl))
macro "idx2" : tactic => `(tactic| exact funext fun a => Fin.ext (by match a with | ⟨0, _⟩ => rfl | ⟨1, _⟩ => rfl))
macro "idx3" : tactic => `(tactic| exact funext fun a => Fin.ext (by match a with | ⟨0, _⟩ => rfl | ⟨1, _⟩ => rfl | ⟨2, _⟩ => rfl))

variable (x0 : (⟨S8x512x2048, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal)) (x13 : (⟨S512x1024, .f32⟩ : BufTy).Contents (Elt Ideal)) (x14 : (⟨S512, .f32⟩ : BufTy).Contents (Elt Ideal))

/-- The host's maximum over the last axis of an 8×2048×2048 array, started from −∞, at `(b, t)`: the largest of row
    `(b, t)`'s 2048 entries, taken from −∞. -/
theorem rowMax_of_reduce (y : S8x2048x2048.Idx → Ideal .f32) (init : S_.Idx → Ideal .f32)
    (hinit : init (Shape.Idx.first h_S_) = Cert.Spec.negInf) (b : Fin 8) (t : Fin 2048) :
    Host.reduce (FloatOps.maximumf (F := Ideal) (φ := .f32)) y init reducesTo_S8x2048x2048_S8x2048_d2 h_S_ (ix2 b t)
      = Cert.Spec.rowMax (fun s => y (ix3 b t s)) := by
  rw [Host.reduce_eq_fold_single (FloatOps.maximumf (F := Ideal) (φ := .f32)) y init reducesTo_S8x2048x2048_S8x2048_d2 (by decide) h_S_, hinit]
  unfold Cert.Spec.rowMax
  refine congrArg (Finset.fold _ _ · _) (funext fun k => ?_)
  exact congrArg y (funext fun a => Fin.ext (by match a with | ⟨0, _⟩ => rfl | ⟨1, _⟩ => rfl | ⟨2, _⟩ => rfl))

/-! ## Head 1 -/

/-- One affine map of the transposed input, entry by entry. -/
theorem q1_at (b : Fin 8) (t : Fin 2048) (a : Fin 512) :
    val_main_v4 (F := Ideal) x0 x1 x2 (ix3 b t a) = Cert.Spec.lin (fun f => x0 (ix3 b f t)) (fun f => x1 (ix2 a f)) (x2 (ix1 a)) := by
  rw [val_main_v4_apply, val_main_v1_apply, val_main_v3_apply, val_main_v2_apply, Ideal.addf_def]
  unfold Cert.Spec.lin
  rw [show idx_main_v2 (idx_main_v3 (ix3 b t a)) = ix1 a from by idx1]
  refine congrArg (· + _) (Finset.sum_congr rfl fun k _ => ?_)
  rw [val_main_v0_apply, show idx_main_v0 (lidx_main_v1 (ix3 b t a) k) = ix3 b k t from by idx3,
    show ridx_main_v1 (ix3 b t a) k = ix2 a k from by idx2]

/-- One affine map of the transposed input, entry by entry. -/
theorem k1_at (b : Fin 8) (t : Fin 2048) (a : Fin 512) :
    val_main_v8 (F := Ideal) x0 x3 x4 (ix3 b t a) = Cert.Spec.lin (fun f => x0 (ix3 b f t)) (fun f => x3 (ix2 a f)) (x4 (ix1 a)) := by
  rw [val_main_v8_apply, val_main_v5_apply, val_main_v7_apply, val_main_v6_apply, Ideal.addf_def]
  unfold Cert.Spec.lin
  rw [show idx_main_v6 (idx_main_v7 (ix3 b t a)) = ix1 a from by idx1]
  refine congrArg (· + _) (Finset.sum_congr rfl fun k _ => ?_)
  rw [val_main_v0_apply, show idx_main_v0 (lidx_main_v5 (ix3 b t a) k) = ix3 b k t from by idx3,
    show ridx_main_v5 (ix3 b t a) k = ix2 a k from by idx2]

/-- One affine map of the transposed input, entry by entry. -/
theorem v1_at (b : Fin 8) (t : Fin 2048) (a : Fin 512) :
    val_main_v12 (F := Ideal) x0 x5 x6 (ix3 b t a) = Cert.Spec.lin (fun f => x0 (ix3 b f t)) (fun f => x5 (ix2 a f)) (x6 (ix1 a)) := by
  rw [val_main_v12_apply, val_main_v9_apply, val_main_v11_apply, val_main_v10_apply, Ideal.addf_def]
  unfold Cert.Spec.lin
  rw [show idx_main_v10 (idx_main_v11 (ix3 b t a)) = ix1 a from by idx1]
  refine congrArg (· + _) (Finset.sum_congr rfl fun k _ => ?_)
  rw [val_main_v0_apply, show idx_main_v0 (lidx_main_v9 (ix3 b t a) k) = ix3 b k t from by idx3,
    show ridx_main_v9 (ix3 b t a) k = ix2 a k from by idx2]

/-- The scaled query–key product. -/
theorem score1_at (b : Fin 8) (t s : Fin 2048) :
    val_main_v15 (F := Ideal) x0 x1 x2 x3 x4 (ix3 b t s)
      = Cert.Spec.score (fun a => val_main_v4 (F := Ideal) x0 x1 x2 (ix3 b t a)) (fun s' a => val_main_v8 (F := Ideal) x0 x3 x4 (ix3 b s' a)) s := by
  rw [val_main_v15_apply, val_main_v13_apply, val_main_v14_apply, val_main_cst_apply, Ideal.mulf_def, Ideal.ofBits_def]
  unfold Cert.Spec.score Cert.Spec.scale
  refine congrArg (· * _) (Finset.sum_congr rfl fun k _ => ?_)
  rw [show lidx_main_v13 (ix3 b t s) k = ix3 b t k from by idx3, show ridx_main_v13 (ix3 b t s) k = ix3 b s k from by idx3]

/-- The row maximum, taken once more against −∞. -/
theorem max1_at (b : Fin 8) (t : Fin 2048) :
    val_main_v18 (F := Ideal) x0 x1 x2 x3 x4 (ix2 b t) = Cert.Spec.rowMax (fun s => val_main_v15 (F := Ideal) x0 x1 x2 x3 x4 (ix3 b t s)) := by
  have h16 : val_main_v16 (F := Ideal) x0 x1 x2 x3 x4 (ix2 b t) = Cert.Spec.rowMax (fun s => val_main_v15 (F := Ideal) x0 x1 x2 x3 x4 (ix3 b t s)) :=
    rowMax_of_reduce (val_main_v15 (F := Ideal) x0 x1 x2 x3 x4) _ rfl b t
  rw [val_main_v18_apply, val_main_v17_apply, val_main_cst_1_apply, Ideal.maximumf_def, Ideal.ofBits_def, h16]
  exact Cert.Spec.max_negInf_rowMax _

/-- The exponential of a score less its row's maximum. -/
theorem exp1_at (b : Fin 8) (t s : Fin 2048) :
    val_main_v22 (F := Ideal) x0 x1 x2 x3 x4 (ix3 b t s)
      = Ideal.exp (val_main_v15 (F := Ideal) x0 x1 x2 x3 x4 (ix3 b t s) - Cert.Spec.rowMax (fun s' => val_main_v15 (F := Ideal) x0 x1 x2 x3 x4 (ix3 b t s'))) := by
  rw [val_main_v22_apply, val_main_v21_apply, val_main_v20_apply, val_main_v19_apply, Ideal.hostUnary_exp_def, Ideal.subf_def,
    show idx_main_v19 (idx_main_v20 (ix3 b t s)) = ix2 b t from by idx2, max1_at]

/-- The softmax weight. -/
theorem weight1_at (b : Fin 8) (t s : Fin 2048) :
    val_main_v26 (F := Ideal) x0 x1 x2 x3 x4 (ix3 b t s) = Cert.Spec.weight (fun s' => val_main_v15 (F := Ideal) x0 x1 x2 x3 x4 (ix3 b t s')) s := by
  rw [val_main_v26_apply, val_main_v25_apply, val_main_v24_apply, val_main_v23_apply, val_main_cst_2_apply, Ideal.hostDivf_def, Ideal.ofBits_def, Ideal.ofBits_zero_f32, zero_add,
    show idx_main_v24 (idx_main_v25 (ix3 b t s)) = ix2 b t from by idx2, exp1_at]
  unfold Cert.Spec.weight
  refine congrArg (Ideal.div _ ·) (Finset.sum_congr rfl fun k _ => ?_)
  rw [show idx_main_v23 (ix2 b t) k = ix3 b t k from by idx3, exp1_at]

/-- The head's output row: the values averaged with the softmax weights. -/
theorem attend1_at (b : Fin 8) (t : Fin 2048) (a : Fin 512) :
    val_main_v27 (F := Ideal) x0 x1 x2 x3 x4 x5 x6 (ix3 b t a)
      = Cert.Spec.attend (fun a' => val_main_v4 (F := Ideal) x0 x1 x2 (ix3 b t a')) (fun s a' => val_main_v8 (F := Ideal) x0 x3 x4 (ix3 b s a'))
          (fun s a' => val_main_v12 (F := Ideal) x0 x5 x6 (ix3 b s a')) a := by
  rw [val_main_v27_apply]
  unfold Cert.Spec.attend
  refine Finset.sum_congr rfl fun k _ => ?_
  rw [show lidx_main_v27 (ix3 b t a) k = ix3 b t k from by idx3, show ridx_main_v27 (ix3 b t a) k = ix3 b k a from by idx3, weight1_at]
  exact congrArg (fun r => Cert.Spec.weight r k * _) (funext fun s => score1_at x0 x1 x2 x3 x4 b t s)

/-- The head's output row is the specification's. -/
theorem head1_at (b : Fin 8) (t : Fin 2048) (a : Fin 512) :
    val_main_v27 (F := Ideal) x0 x1 x2 x3 x4 x5 x6 (ix3 b t a)
      = Cert.Spec.headOf (Cert.Spec.argsOf x0 x1 x2 x3 x4 x5 x6 x7 x8 x9 x10 x11 x12 x13 x14) 0 b t a := by
  rw [attend1_at]
  simp only [q1_at, k1_at, v1_at]
  rfl

/-! ## Head 2 -/

/-- One affine map of the transposed input, entry by entry. -/
theorem q2_at (b : Fin 8) (t : Fin 2048) (a : Fin 512) :
    val_main_v31 (F := Ideal) x0 x7 x8 (ix3 b t a) = Cert.Spec.lin (fun f => x0 (ix3 b f t)) (fun f => x7 (ix2 a f)) (x8 (ix1 a)) := by
  rw [val_main_v31_apply, val_main_v28_apply, val_main_v30_apply, val_main_v29_apply, Ideal.addf_def]
  unfold Cert.Spec.lin
  rw [show idx_main_v29 (idx_main_v30 (ix3 b t a)) = ix1 a from by idx1]
  refine congrArg (· + _) (Finset.sum_congr rfl fun k _ => ?_)
  rw [val_main_v0_apply, show idx_main_v0 (lidx_main_v28 (ix3 b t a) k) = ix3 b k t from by idx3,
    show ridx_main_v28 (ix3 b t a) k = ix2 a k from by idx2]

/-- One affine map of the transposed input, entry by entry. -/
theorem k2_at (b : Fin 8) (t : Fin 2048) (a : Fin 512) :
    val_main_v35 (F := Ideal) x0 x9 x10 (ix3 b t a) = Cert.Spec.lin (fun f => x0 (ix3 b f t)) (fun f => x9 (ix2 a f)) (x10 (ix1 a)) := by
  rw [val_main_v35_apply, val_main_v32_apply, val_main_v34_apply, val_main_v33_apply, Ideal.addf_def]
  unfold Cert.Spec.lin
  rw [show idx_main_v33 (idx_main_v34 (ix3 b t a)) = ix1 a from by idx1]
  refine congrArg (· + _) (Finset.sum_congr rfl fun k _ => ?_)
  rw [val_main_v0_apply, show idx_main_v0 (lidx_main_v32 (ix3 b t a) k) = ix3 b k t from by idx3,
    show ridx_main_v32 (ix3 b t a) k = ix2 a k from by idx2]

/-- One affine map of the transposed input, entry by entry. -/
theorem v2_at (b : Fin 8) (t : Fin 2048) (a : Fin 512) :
    val_main_v39 (F := Ideal) x0 x11 x12 (ix3 b t a) = Cert.Spec.lin (fun f => x0 (ix3 b f t)) (fun f => x11 (ix2 a f)) (x12 (ix1 a)) := by
  rw [val_main_v39_apply, val_main_v36_apply, val_main_v38_apply, val_main_v37_apply, Ideal.addf_def]
  unfold Cert.Spec.lin
  rw [show idx_main_v37 (idx_main_v38 (ix3 b t a)) = ix1 a from by idx1]
  refine congrArg (· + _) (Finset.sum_congr rfl fun k _ => ?_)
  rw [val_main_v0_apply, show idx_main_v0 (lidx_main_v36 (ix3 b t a) k) = ix3 b k t from by idx3,
    show ridx_main_v36 (ix3 b t a) k = ix2 a k from by idx2]

/-- The scaled query–key product. -/
theorem score2_at (b : Fin 8) (t s : Fin 2048) :
    val_main_v42 (F := Ideal) x0 x7 x8 x9 x10 (ix3 b t s)
      = Cert.Spec.score (fun a => val_main_v31 (F := Ideal) x0 x7 x8 (ix3 b t a)) (fun s' a => val_main_v35 (F := Ideal) x0 x9 x10 (ix3 b s' a)) s := by
  rw [val_main_v42_apply, val_main_v40_apply, val_main_v41_apply, val_main_cst_3_apply, Ideal.mulf_def, Ideal.ofBits_def]
  unfold Cert.Spec.score Cert.Spec.scale
  refine congrArg (· * _) (Finset.sum_congr rfl fun k _ => ?_)
  rw [show lidx_main_v40 (ix3 b t s) k = ix3 b t k from by idx3, show ridx_main_v40 (ix3 b t s) k = ix3 b s k from by idx3]

/-- The row maximum, taken once more against −∞. -/
theorem max2_at (b : Fin 8) (t : Fin 2048) :
    val_main_v45 (F := Ideal) x0 x7 x8 x9 x10 (ix2 b t) = Cert.Spec.rowMax (fun s => val_main_v42 (F := Ideal) x0 x7 x8 x9 x10 (ix3 b t s)) := by
  have h16 : val_main_v43 (F := Ideal) x0 x7 x8 x9 x10 (ix2 b t) = Cert.Spec.rowMax (fun s => val_main_v42 (F := Ideal) x0 x7 x8 x9 x10 (ix3 b t s)) :=
    rowMax_of_reduce (val_main_v42 (F := Ideal) x0 x7 x8 x9 x10) _ rfl b t
  rw [val_main_v45_apply, val_main_v44_apply, val_main_cst_5_apply, Ideal.maximumf_def, Ideal.ofBits_def, h16]
  exact Cert.Spec.max_negInf_rowMax _

/-- The exponential of a score less its row's maximum. -/
theorem exp2_at (b : Fin 8) (t s : Fin 2048) :
    val_main_v49 (F := Ideal) x0 x7 x8 x9 x10 (ix3 b t s)
      = Ideal.exp (val_main_v42 (F := Ideal) x0 x7 x8 x9 x10 (ix3 b t s) - Cert.Spec.rowMax (fun s' => val_main_v42 (F := Ideal) x0 x7 x8 x9 x10 (ix3 b t s'))) := by
  rw [val_main_v49_apply, val_main_v48_apply, val_main_v47_apply, val_main_v46_apply, Ideal.hostUnary_exp_def, Ideal.subf_def,
    show idx_main_v46 (idx_main_v47 (ix3 b t s)) = ix2 b t from by idx2, max2_at]

/-- The softmax weight. -/
theorem weight2_at (b : Fin 8) (t s : Fin 2048) :
    val_main_v53 (F := Ideal) x0 x7 x8 x9 x10 (ix3 b t s) = Cert.Spec.weight (fun s' => val_main_v42 (F := Ideal) x0 x7 x8 x9 x10 (ix3 b t s')) s := by
  rw [val_main_v53_apply, val_main_v52_apply, val_main_v51_apply, val_main_v50_apply, val_main_cst_6_apply, Ideal.hostDivf_def, Ideal.ofBits_def, Ideal.ofBits_zero_f32, zero_add,
    show idx_main_v51 (idx_main_v52 (ix3 b t s)) = ix2 b t from by idx2, exp2_at]
  unfold Cert.Spec.weight
  refine congrArg (Ideal.div _ ·) (Finset.sum_congr rfl fun k _ => ?_)
  rw [show idx_main_v50 (ix2 b t) k = ix3 b t k from by idx3, exp2_at]

/-- The head's output row: the values averaged with the softmax weights. -/
theorem attend2_at (b : Fin 8) (t : Fin 2048) (a : Fin 512) :
    val_main_v54 (F := Ideal) x0 x7 x8 x9 x10 x11 x12 (ix3 b t a)
      = Cert.Spec.attend (fun a' => val_main_v31 (F := Ideal) x0 x7 x8 (ix3 b t a')) (fun s a' => val_main_v35 (F := Ideal) x0 x9 x10 (ix3 b s a'))
          (fun s a' => val_main_v39 (F := Ideal) x0 x11 x12 (ix3 b s a')) a := by
  rw [val_main_v54_apply]
  unfold Cert.Spec.attend
  refine Finset.sum_congr rfl fun k _ => ?_
  rw [show lidx_main_v54 (ix3 b t a) k = ix3 b t k from by idx3, show ridx_main_v54 (ix3 b t a) k = ix3 b k a from by idx3, weight2_at]
  exact congrArg (fun r => Cert.Spec.weight r k * _) (funext fun s => score2_at x0 x7 x8 x9 x10 b t s)

/-- The head's output row is the specification's. -/
theorem head2_at (b : Fin 8) (t : Fin 2048) (a : Fin 512) :
    val_main_v54 (F := Ideal) x0 x7 x8 x9 x10 x11 x12 (ix3 b t a)
      = Cert.Spec.headOf (Cert.Spec.argsOf x0 x1 x2 x3 x4 x5 x6 x7 x8 x9 x10 x11 x12 x13 x14) 1 b t a := by
  rw [attend2_at]
  simp only [q2_at, k2_at, v2_at]
  rfl

/-! ## The two heads side by side, the output map, the transpose back -/

/-- The first 512 columns of the joined array are the first head's output. -/
theorem concat_lo (b : Fin 8) (t : Fin 2048) (a : Fin 512) :
    val_main_v55 (F := Ideal) x0 x1 x2 x3 x4 x5 x6 x7 x8 x9 x10 x11 x12 (ix3 b t (Fin.castAdd 512 a))
      = val_main_v27 (F := Ideal) x0 x1 x2 x3 x4 x5 x6 (ix3 b t a) := by
  unfold val_main_v55
  exact concatenate_pair_apply_left 2 _ _ concatenates_S8x2048x512_S8x2048x512_S8x2048x1024_d2 _ rfl (ix3 b t a)
    (fun b' => by match b' with | ⟨0, _⟩ => rfl | ⟨1, _⟩ => rfl | ⟨2, _⟩ => rfl)

/-- The last 512 columns are the second head's. -/
theorem concat_hi (b : Fin 8) (t : Fin 2048) (a : Fin 512) :
    val_main_v55 (F := Ideal) x0 x1 x2 x3 x4 x5 x6 x7 x8 x9 x10 x11 x12 (ix3 b t (Fin.natAdd 512 a))
      = val_main_v54 (F := Ideal) x0 x7 x8 x9 x10 x11 x12 (ix3 b t a) := by
  unfold val_main_v55
  exact concatenate_pair_apply_right 2 _ _ concatenates_S8x2048x512_S8x2048x512_S8x2048x1024_d2 _ rfl rfl (ix3 b t a)
    (fun b' => by match b' with | ⟨0, _⟩ => exact fun _ => rfl | ⟨1, _⟩ => exact fun _ => rfl | ⟨2, _⟩ => exact fun h => absurd rfl h)
    (show a.val + 512 = 512 + a.val from Nat.add_comm _ _)

/-- The reference's last stage at `(b, f, t)` is the specification's output entry of the arguments. -/
theorem out_at (b : Fin 8) (f : Fin 512) (t : Fin 2048) :
    val_main_v60 (F := Ideal) x0 x1 x2 x3 x4 x5 x6 x7 x8 x9 x10 x11 x12 x13 x14 (ix3 b f t)
      = Cert.Spec.outOf (Cert.Spec.argsOf x0 x1 x2 x3 x4 x5 x6 x7 x8 x9 x10 x11 x12 x13 x14) b f t := by
  rw [val_main_v60_apply, show idx_main_v60 (ix3 b f t) = ix3 b t f from by idx3, val_main_v59_apply, val_main_v56_apply,
    val_main_v58_apply, val_main_v57_apply, Ideal.addf_def,
    show idx_main_v57 (idx_main_v58 (ix3 b t f)) = ix1 f from by idx1]
  unfold Cert.Spec.outOf
  refine Eq.trans ?_ (Cert.Spec.proj_eq_concat (fun k => x13 (ix2 f k))
    (Cert.Spec.headOf (Cert.Spec.argsOf x0 x1 x2 x3 x4 x5 x6 x7 x8 x9 x10 x11 x12 x13 x14) 0 b t)
    (Cert.Spec.headOf (Cert.Spec.argsOf x0 x1 x2 x3 x4 x5 x6 x7 x8 x9 x10 x11 x12 x13 x14) 1 b t) (x14 (ix1 f))
    (fun k => val_main_v55 (F := Ideal) x0 x1 x2 x3 x4 x5 x6 x7 x8 x9 x10 x11 x12 (ix3 b t k))
    (fun a => (concat_lo x0 x1 x2 x3 x4 x5 x6 x7 x8 x9 x10 x11 x12 b t a).trans (head1_at x0 x1 x2 x3 x4 x5 x6 x7 x8 x9 x10 x11 x12 x13 x14 b t a))
    (fun a => (concat_hi x0 x1 x2 x3 x4 x5 x6 x7 x8 x9 x10 x11 x12 b t a).trans (head2_at x0 x1 x2 x3 x4 x5 x6 x7 x8 x9 x10 x11 x12 x13 x14 b t a)))
  refine congrArg (· + _) (Finset.sum_congr rfl fun k _ => ?_)
  rw [show lidx_main_v56 (ix3 b t f) k = ix3 b t k from by idx3, show ridx_main_v56 (ix3 b t f) k = ix2 f k from by idx2]

end Cert.ReferenceIdeal.RefStages

end
-- ==== Proof.RefAt.lean ====
import proofs.«404042_j23493471109327_3_alg».proof.Proof.RefRunP
import proofs.«404042_j23493471109327_3_alg».proof.Proof.RefStages
import proofs.«404042_j23493471109327_3_alg».proof.Proof.SpecArgs
import Idealize.ShloMosaic.Lib.Pipeline.Value
import Idealize.ShloMosaic.Lib.ValueIdx
import Idealize.ShloMosaic.Lib.ValueLayout
import Idealize.ShloMosaic.PureOps.Ideal.Laws

/-! # The reference's result, entry by entry (exact reals)

The reference transposes the input, applies the six affine maps, per head takes the softmax over positions of the scaled
query–key products and averages the values with it, lays the two heads' outputs side by side, applies the output map and
transposes back. Read one operation at a time at an index, its result at (b, f, t) is the specification's output entry of
the fifteen argument arrays. -/

set_option maxRecDepth 16384

noncomputable section

namespace Cert.ReferenceIdeal.RefAt

open Idealize.ShloMosaic Idealize.ShloMosaic.TcCoe Idealize.ShloMosaic.ValueIdx
open Idealize.SL Idealize.SL.Sem
open Cert.ReferenceIdeal Cert.ReferenceIdeal.Gen

variable (m : (ℓ : Loc nD τ sig) → Buf (Elt Ideal) ℓ) (c : Dev nD)

/-- The reference's fifteen argument arrays, as the specification's arguments. -/
def args : Cert.Spec.Args :=
  Cert.Spec.argsOf (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))
    (m ((c.tc : Thread nD τ).loc main_arg11)) (m ((c.tc : Thread nD τ).loc main_arg12))
    (m ((c.tc : Thread nD τ).loc main_arg13)) (m ((c.tc : Thread nD τ).loc main_arg14))

/-- The reference's result at `(b, f, t)` is the specification's output entry of its arguments. -/
theorem ref_at (b : Fin 8) (f : Fin 512) (t : Fin 2048) :
    (Cert.ReferenceIdeal.ValueP.res_main_v60 (F := Ideal) m c : S8x512x2048.Idx → EReal) (ix3 b f t)
      = Cert.Spec.outOf (args m c) b f t := by
  unfold Cert.ReferenceIdeal.ValueP.res_main_v60 args
  exact Cert.ReferenceIdeal.RefStages.out_at _ _ _ _ _ _ _ _ _ _ _ _ _ _ _ b f t

end Cert.ReferenceIdeal.RefAt

end
-- ==== Proof.lean ====
/-
  Two-head attention in two kernels against its plain reference, over the extended reals.

  The first kernel writes, for every position of every sequence, the six affine maps of the features (query, key, value
  for each head) side by side in one packed array; the second reads six column bands of that array, takes per head the
  softmax over positions of the scaled query–key products, averages the values with it, and applies the output map to the
  two heads' outputs, one half of the output weights against each. The reference computes the same with whole-array
  operations, the heads' outputs laid side by side before one output map. Entry by entry both are one function of the
  fifteen arguments (`Cert.Spec.outOf`): a change of number format is the identity on the reals, a sum over 1024 splits
  into its two halves, products commute, and taking a maximum once more against −∞ changes nothing. No finiteness of the
  inputs is used.

  The frames: each kernel program is run segment by segment — host lines, first kernel, host lines, second kernel — with
  every unscoped buffer followed through; the reference is a line of host operations.
-/
import proofs.«404042_j23493471109327_3_alg».proof.Defs
import proofs.«404042_j23493471109327_3_alg».proof.Proof.Gen.Kernel
import proofs.«404042_j23493471109327_3_alg».proof.Proof.Gen.KernelIdeal
import proofs.«404042_j23493471109327_3_alg».proof.Proof.Gen.ReferenceIdeal
import proofs.«404042_j23493471109327_3_alg».proof.Proof.Gen.Pre_finite_inputs
import proofs.«404042_j23493471109327_3_alg».proof.Proof.K.Run
import proofs.«404042_j23493471109327_3_alg».proof.Proof.KI.Run
import proofs.«404042_j23493471109327_3_alg».proof.Proof.KI.Final
import proofs.«404042_j23493471109327_3_alg».proof.Proof.RefAt
import Idealize.ShloMosaic.Adequacy
import Idealize.ShloMosaic.Init

set_option maxRecDepth 16384

noncomputable section

namespace Cert.Proof

open Idealize.ShloMosaic Idealize.ShloMosaic.ValueIdx Idealize.SL.Sem

/-- The word-level kernel program runs to the end and leaves its arguments as launched. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference is a line of host operations: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The two programs' arguments agree array by array, so they are the same arguments of the specification. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RefAt.args m' c = Cert.KernelIdeal.Hand.args m c := by
  unfold Cert.ReferenceIdeal.RefAt.args Cert.KernelIdeal.Hand.args
  rw [h0, h1, h2, h3, h4, h5, h6, h7, h8, h9, h10, h11, h12, h13, h14]

/-- From memories agreeing on the arguments both programs end with the same result array: entry by entry the
    specification's output of the same arguments. -/
theorem algebraic : Cert.algebraic_KernelIdeal_ReferenceIdeal := by
  intro m ρ m' ρ' _ hagree
  refine ⟨fun c => (Cert.KernelIdeal.Hand.dat1 (F := Ideal) (Cert.KernelIdeal.Hand.buf3 m) c).arrAt 8 Cert.KernelIdeal.cfg1.N,
    Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  funext i
  obtain ⟨b, f, t, rfl⟩ : ∃ (b : Fin 8) (f : Fin 512) (t : Fin 2048), i = ix3 b f t := ⟨i 0, i 1, i 2, eq_ix3 i⟩
  refine (Cert.ReferenceIdeal.RefAt.ref_at m' c b f t).trans ?_
  refine Eq.trans ?_ (Cert.KernelIdeal.Hand.kernel_at m c b f t).symm
  have ha := hagree c
  rw [args_eq m m' c ha.1 ha.2.1 ha.2.2.1 ha.2.2.2.1 ha.2.2.2.2.1 ha.2.2.2.2.2.1 ha.2.2.2.2.2.2.1 ha.2.2.2.2.2.2.2.1
    ha.2.2.2.2.2.2.2.2.1 ha.2.2.2.2.2.2.2.2.2.1 ha.2.2.2.2.2.2.2.2.2.2.1 ha.2.2.2.2.2.2.2.2.2.2.2.1
    ha.2.2.2.2.2.2.2.2.2.2.2.2.1 ha.2.2.2.2.2.2.2.2.2.2.2.2.2.1 ha.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
